-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x9 : Shape := ⟨2, ![30000, 9]⟩
abbrev S2x300000 : Shape := ⟨2, ![2, 300000]⟩
abbrev S30000 : Shape := ⟨1, ![30000]⟩
abbrev S9x600 : Shape := ⟨2, ![9, 600]⟩
abbrev S600 : Shape := ⟨1, ![600]⟩
abbrev S600x600 : Shape := ⟨2, ![600, 600]⟩
abbrev S4x600x600 : Shape := ⟨3, ![4, 600, 600]⟩
abbrev S4x600 : Shape := ⟨2, ![4, 600]⟩
abbrev S600x256 : Shape := ⟨2, ![600, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S1x300000 : Shape := ⟨2, ![1, 300000]⟩
abbrev S300000 : Shape := ⟨1, ![300000]⟩

class Facts : Prop where
  bcast_S_S30000x9 : S_.BroadcastsInDim S30000x9 (![] : Fin 0 → Fin S30000x9.rank)
  reducesTo_S30000x9_S_d0_1 : S30000x9.ReducesTo [0, 1] S_
  h_S_ : 0 < S_.numel
  bcast_S_S9x600 : S_.BroadcastsInDim S9x600 (![] : Fin 0 → Fin S9x600.rank)
  reducesTo_S9x600_S_d0_1 : S9x600.ReducesTo [0, 1] S_
  bcast_S_S600 : S_.BroadcastsInDim S600 (![] : Fin 0 → Fin S600.rank)
  reducesTo_S600_S_d0 : S600.ReducesTo [0] S_
  bcast_S_S600x600 : S_.BroadcastsInDim S600x600 (![] : Fin 0 → Fin S600x600.rank)
  reducesTo_S600x600_S_d0_1 : S600x600.ReducesTo [0, 1] S_
  bcast_S_S4x600x600 : S_.BroadcastsInDim S4x600x600 (![] : Fin 0 → Fin S4x600x600.rank)
  reducesTo_S4x600x600_S_d0_1_2 : S4x600x600.ReducesTo [0, 1, 2] S_
  bcast_S_S4x600 : S_.BroadcastsInDim S4x600 (![] : Fin 0 → Fin S4x600.rank)
  reducesTo_S4x600_S_d0_1 : S4x600.ReducesTo [0, 1] S_
  bcast_S_S600x256 : S_.BroadcastsInDim S600x256 (![] : Fin 0 → Fin S600x256.rank)
  reducesTo_S600x256_S_d0_1 : S600x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  slices_S2x300000_S1x300000_1_0 : S2x300000.Slices ![1, 0] S1x300000
  shapeCasts_S1x300000_S300000 : S1x300000.ShapeCasts S300000
  bcast_S_S300000 : S_.BroadcastsInDim S300000 (![] : Fin 0 → Fin S300000.rank)
  reducesTo_S300000_S_d0 : S300000.ReducesTo [0] S_

variable [Facts]

def fn_part4 {F : FTy → Type} [FloatOps F] (main_arg1 : IVec S2x300000 32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : IVec S1x300000 32 := (extractStridedSlice S1x300000 ![1, 0] · slices_S2x300000_S1x300000_1_0) main_arg1
  let main_v75 : IVec S300000 32 := shapeCast S300000 main_v74 shapeCasts_S1x300000_S300000
  let main_c_28 : IVec S_ 32 := constantI S_ 32 0#32
  let main_v76 : IVec S300000 32 := broadcastInDim S300000 ![] bcast_S_S300000 main_c_28
  let main_v77 : IVec S300000 1 := cmpi .sge main_v75 main_v76
  let main_c_29 : IVec S_ 1 := constantI S_ 1 1#1
  let main_v78 : IVec S_ 1 := (fun x v => Host.reduce IntOp.andi x v reducesTo_S300000_S_d0 h_S_) main_v77 main_c_29
  let main_v79 : IVec S_ 1 := andi main_v73 main_v78
  main_v79

def fn_part3 {F : FTy → Type} [FloatOps F] (main_arg1 : IVec S2x300000 32) (main_arg13 : FVec F S256x256 .f32) (main_arg14 : FVec F S256 .f32) (main_arg15 : FVec F S256x128 .f32) (main_arg16 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg15
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg1 main_arg16 main_v63 main_v67

def fn_part2 {F : FTy → Type} [FloatOps F] (main_arg1 : IVec S2x300000 32) (main_arg9 : FVec F S4x600x600 .f32) (main_arg10 : FVec F S4x600 .f32) (main_arg11 : FVec F S600x256 .f32) (main_arg12 : FVec F S256 .f32) (main_arg13 : FVec F S256x256 .f32) (main_arg14 : FVec F S256 .f32) (main_arg15 : FVec F S256x128 .f32) (main_arg16 : FVec F S128 .f32) (main_v33 : IVec S_ 1) : IVec S_ 1 :=
  let main_v34 : FVec F S4x600x600 .f32 := Host.absf main_arg9
  let main_cst_12 : FVec F S_ .f32 := constant S_ .f32 0x7F800000#32
  let main_v35 : FVec F S4x600x600 .f32 := broadcastInDim S4x600x600 ![] bcast_S_S4x600x600 main_cst_12
  let main_v36 : IVec S4x600x600 1 := cmpf .olt main_v34 main_v35
  let main_c_13 : IVec S_ 1 := constantI S_ 1 1#1
  let main_v37 : IVec S_ 1 := (fun x v => Host.reduce IntOp.andi x v reducesTo_S4x600x600_S_d0_1_2 h_S_) main_v36 main_c_13
  let main_v38 : IVec S_ 1 := andi main_v33 main_v37
  let main_v39 : FVec F S4x600 .f32 := Host.absf main_arg10
  let main_cst_14 : FVec F S_ .f32 := constant S_ .f32 0x7F800000#32
  let main_v40 : FVec F S4x600 .f32 := broadcastInDim S4x600 ![] bcast_S_S4x600 main_cst_14
  let main_v41 : IVec S4x600 1 := cmpf .olt main_v39 main_v40
  let main_c_15 : IVec S_ 1 := constantI S_ 1 1#1
  let main_v42 : IVec S_ 1 := (fun x v => Host.reduce IntOp.andi x v reducesTo_S4x600_S_d0_1 h_S_) main_v41 main_c_15
  let main_v43 : IVec S_ 1 := andi main_v38 main_v42
  let main_v44 : FVec F S600x256 .f32 := Host.absf main_arg11
  let main_cst_16 : FVec F S_ .f32 := constant S_ .f32 0x7F800000#32
  let main_v45 : FVec F S600x256 .f32 := broadcastInDim S600x256 ![] bcast_S_S600x256 main_cst_16
  let main_v46 : IVec S600x256 1 := cmpf .olt main_v44 main_v45
  let main_c_17 : IVec S_ 1 := constantI S_ 1 1#1
  let main_v47 : IVec S_ 1 := (fun x v => Host.reduce IntOp.andi x v reducesTo_S600x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg1 main_arg13 main_arg14 main_arg15 main_arg16 main_v48 main_v49 main_v50

def fn_part1 {F : FTy → Type} [FloatOps F] (main_arg1 : IVec S2x300000 32) (main_arg6 : FVec F S600 .f32) (main_arg7 : FVec F S4x600x600 .f32) (main_arg8 : FVec F S4x600 .f32) (main_arg9 : FVec F S4x600x600 .f32) (main_arg10 : FVec F S4x600 .f32) (main_arg11 : FVec F S600x256 .f32) (main_arg12 : FVec F S256 .f32) (main_arg13 : FVec F S256x256 .f32) (main_arg14 : FVec F S256 .f32) (main_arg15 : FVec F S256x128 .f32) (main_arg16 : FVec F S128 .f32) (main_v13 : IVec S_ 1) (main_v16 : IVec S600x600 1) : IVec S_ 1 :=
  let main_c_5 : IVec S_ 1 := constantI S_ 1 1#1
  let main_v17 : IVec S_ 1 := (fun x v => Host.reduce IntOp.andi x v reducesTo_S600x600_S_d0_1 h_S_) main_v16 main_c_5
  let main_v18 : IVec S_ 1 := andi main_v13 main_v17
  let main_v19 : FVec F S600 .f32 := Host.absf main_arg6
  let main_cst_6 : FVec F S_ .f32 := constant S_ .f32 0x7F800000#32
  let main_v20 : FVec F S600 .f32 := broadcastInDim S600 ![] bcast_S_S600 main_cst_6
  let main_v21 : IVec S600 1 := cmpf .olt main_v19 main_v20
  let main_c_7 : IVec S_ 1 := constantI S_ 1 1#1
  let main_v22 : IVec S_ 1 := (fun x v => Host.reduce IntOp.andi x v reducesTo_S600_S_d0 h_S_) main_v21 main_c_7
  let main_v23 : IVec S_ 1 := andi main_v18 main_v22
  let main_v24 : FVec F S4x600x600 .f32 := Host.absf main_arg7
  let main_cst_8 : FVec F S_ .f32 := constant S_ .f32 0x7F800000#32
  let main_v25 : FVec F S4x600x600 .f32 := broadcastInDim S4x600x600 ![] bcast_S_S4x600x600 main_cst_8
  let main_v26 : IVec S4x600x600 1 := cmpf .olt main_v24 main_v25
  let main_c_9 : IVec S_ 1 := constantI S_ 1 1#1
  let main_v27 : IVec S_ 1 := (fun x v => Host.reduce IntOp.andi x v reducesTo_S4x600x600_S_d0_1_2 h_S_) main_v26 main_c_9
  let main_v28 : IVec S_ 1 := andi main_v23 main_v27
  let main_v29 : FVec F S4x600 .f32 := Host.absf main_arg8
  let main_cst_10 : FVec F S_ .f32 := constant S_ .f32 0x7F800000#32
  let main_v30 : FVec F S4x600 .f32 := broadcastInDim S4x600 ![] bcast_S_S4x600 main_cst_10
  let main_v31 : IVec S4x600 1 := cmpf .olt main_v29 main_v30
  let main_c_11 : IVec S_ 1 := constantI S_ 1 1#1
  let main_v32 : IVec S_ 1 := (fun x v => Host.reduce IntOp.andi x v reducesTo_S4x600_S_d0_1 h_S_) main_v31 main_c_11
  let main_v33 : IVec S_ 1 := andi main_v28 main_v32
  fn_part2 (F := F) main_arg1 main_arg9 main_arg10 main_arg11 main_arg12 main_arg13 main_arg14 main_arg15 main_arg16 main_v33

def fn {F : FTy → Type} [FloatOps F] (main_arg0 : FVec F S30000x9 .f32) (main_arg1 : IVec S2x300000 32) (main_arg2 : IVec S30000 32) (main_arg3 : FVec F S9x600 .f32) (main_arg4 : FVec F S600 .f32) (main_arg5 : FVec F S600x600 .f32) (main_arg6 : FVec F S600 .f32) (main_arg7 : FVec F S4x600x600 .f32) (main_arg8 : FVec F S4x600 .f32) (main_arg9 : FVec F S4x600x600 .f32) (main_arg10 : FVec F S4x600 .f32) (main_arg11 : FVec F S600x256 .f32) (main_arg12 : FVec F S256 .f32) (main_arg13 : FVec F S256x256 .f32) (main_arg14 : FVec F S256 .f32) (main_arg15 : FVec F S256x128 .f32) (main_arg16 : FVec F S128 .f32) : IVec S_ 1 :=
  let main_v0 : FVec F S30000x9 .f32 := Host.absf main_arg0
  let main_cst : FVec F S_ .f32 := constant S_ .f32 0x7F800000#32
  let main_v1 : FVec F S30000x9 .f32 := broadcastInDim S30000x9 ![] bcast_S_S30000x9 main_cst
  let main_v2 : IVec S30000x9 1 := cmpf .olt main_v0 main_v1
  let main_c : IVec S_ 1 := constantI S_ 1 1#1
  let main_v3 : IVec S_ 1 := (fun x v => Host.reduce IntOp.andi x v reducesTo_S30000x9_S_d0_1 h_S_) main_v2 main_c
  let main_v4 : FVec F S9x600 .f32 := Host.absf main_arg3
  let main_cst_0 : FVec F S_ .f32 := constant S_ .f32 0x7F800000#32
  let main_v5 : FVec F S9x600 .f32 := broadcastInDim S9x600 ![] bcast_S_S9x600 main_cst_0
  let main_v6 : IVec S9x600 1 := cmpf .olt main_v4 main_v5
  let main_c_1 : IVec S_ 1 := constantI S_ 1 1#1
  let main_v7 : IVec S_ 1 := (fun x v => Host.reduce IntOp.andi x v reducesTo_S9x600_S_d0_1 h_S_) main_v6 main_c_1
  let main_v8 : IVec S_ 1 := andi main_v3 main_v7
  let main_v9 : FVec F S600 .f32 := Host.absf main_arg4
  let main_cst_2 : FVec F S_ .f32 := constant S_ .f32 0x7F800000#32
  let main_v10 : FVec F S600 .f32 := broadcastInDim S600 ![] bcast_S_S600 main_cst_2
  let main_v11 : IVec S600 1 := cmpf .olt main_v9 main_v10
  let main_c_3 : IVec S_ 1 := constantI S_ 1 1#1
  let main_v12 : IVec S_ 1 := (fun x v => Host.reduce IntOp.andi x v reducesTo_S600_S_d0 h_S_) main_v11 main_c_3
  let main_v13 : IVec S_ 1 := andi main_v8 main_v12
  let main_v14 : FVec F S600x600 .f32 := Host.absf main_arg5
  let main_cst_4 : FVec F S_ .f32 := constant S_ .f32 0x7F800000#32
  let main_v15 : FVec F S600x600 .f32 := broadcastInDim S600x600 ![] bcast_S_S600x600 main_cst_4
  let main_v16 : IVec S600x600 1 := cmpf .olt main_v14 main_v15
  fn_part1 (F := F) main_arg1 main_arg6 main_arg7 main_arg8 main_arg9 main_arg10 main_arg11 main_arg12 main_arg13 main_arg14 main_arg15 main_arg16 main_v13 main_v16
-- ==== Kernel.lean ====
abbrev S30000x9 : Shape := ⟨2, ![30000, 9]⟩
abbrev S2x300000 : Shape := ⟨2, ![2, 300000]⟩
abbrev S30000 : Shape := ⟨1, ![30000]⟩
abbrev S9x600 : Shape := ⟨2, ![9, 600]⟩
abbrev S600 : Shape := ⟨1, ![600]⟩
abbrev S600x600 : Shape := ⟨2, ![600, 600]⟩
abbrev S4x600x600 : Shape := ⟨3, ![4, 600, 600]⟩
abbrev S4x600 : Shape := ⟨2, ![4, 600]⟩
abbrev S600x256 : Shape := ⟨2, ![600, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x9 : Shape := ⟨2, ![300000, 9]⟩
abbrev S30000x600 : Shape := ⟨2, ![30000, 600]⟩
abbrev S1000x9 : Shape := ⟨2, ![1000, 9]⟩
abbrev S1000x600 : Shape := ⟨2, ![1000, 600]⟩
abbrev S1x600 : Shape := ⟨2, ![1, 600]⟩
abbrev S1x600x600 : Shape := ⟨3, ![1, 600, 600]⟩
abbrev S300000x600 : Shape := ⟨2, ![300000, 600]⟩
abbrev S30000x1 : Shape := ⟨2, ![30000, 1]⟩
abbrev S512x600 : Shape := ⟨2, ![512, 600]⟩
abbrev S2000x600 : Shape := ⟨2, ![2000, 600]⟩
abbrev S2000x1 : Shape := ⟨2, ![2000, 1]⟩
abbrev S2000x512 : Shape := ⟨2, ![2000, 512]⟩
abbrev S512x128 : Shape := ⟨2, ![512, 128]⟩
abbrev S512x256 : Shape := ⟨2, ![512, 256]⟩
abbrev S1x256 : Shape := ⟨2, ![1, 256]⟩
abbrev S1x128 : Shape := ⟨2, ![1, 128]⟩

abbrev nBuf : Space → Nat
  | .hbm => 151
  | .vmem => 54
  | .smem => 0
  | _ => 0

abbrev hbmTy0_0 (i : Nat) : BufTy := match i % 128 with
  | 0 => ⟨S30000x9, .f32⟩
  | 1 => ⟨S2x300000, .i32⟩
  | 2 => ⟨S30000, .i32⟩
  | 3 => ⟨S9x600, .f32⟩
  | 4 => ⟨S600, .f32⟩
  | 5 => ⟨S600x600, .f32⟩
  | 6 => ⟨S600, .f32⟩
  | 7 => ⟨S4x600x600, .f32⟩
  | 8 => ⟨S4x600, .f32⟩
  | 9 => ⟨S4x600x600, .f32⟩
  | 10 => ⟨S4x600, .f32⟩
  | 11 => ⟨S600x256, .f32⟩
  | 12 => ⟨S256, .f32⟩
  | 13 => ⟨S256x256, .f32⟩
  | 14 => ⟨S256, .f32⟩
  | 15 => ⟨S256x128, .f32⟩
  | 16 => ⟨S128, .f32⟩
  | 17 => ⟨S1x300000, .i32⟩
  | 18 => ⟨S300000, .i32⟩
  | 19 => ⟨S1x300000, .i32⟩
  | 20 => ⟨S300000, .i32⟩
  | 21 => ⟨S_, .i32⟩
  | 22 => ⟨S300000, .i32⟩
  | 23 => ⟨S300000, .i1⟩
  | 24 => ⟨S_, .i32⟩
  | 25 => ⟨S300000, .i32⟩
  | 26 => ⟨S300000, .i32⟩
  | 27 => ⟨S300000, .i32⟩
  | 28 => ⟨S300000x1, .i32⟩
  | 29 => ⟨S300000x9, .f32⟩
  | 30 => ⟨S_, .i32⟩
  | 31 => ⟨S300000, .i32⟩
  | 32 => ⟨S300000, .i1⟩
  | 33 => ⟨S_, .i32⟩
  | 34 => ⟨S300000, .i32⟩
  | 35 => ⟨S300000, .i32⟩
  | 36 => ⟨S300000, .i32⟩
  | 37 => ⟨S300000x1, .i32⟩
  | 38 => ⟨S30000x9, .f32⟩
  | 39 => ⟨S30000x600, .f32⟩
  | 40 => ⟨S1x600x600, .f32⟩
  | 41 => ⟨S600x600, .f32⟩
  | 42 => ⟨S1x600, .f32⟩
  | 43 => ⟨S600, .f32⟩
  | 44 => ⟨S1x600x600, .f32⟩
  | 45 => ⟨S600x600, .f32⟩
  | 46 => ⟨S1x600, .f32⟩
  | 47 => ⟨S600, .f32⟩
  | 48 => ⟨S_, .i32⟩
  | 49 => ⟨S300000, .i32⟩
  | 50 => ⟨S300000, .i1⟩
  | 51 => ⟨S_, .i32⟩
  | 52 => ⟨S300000, .i32⟩
  | 53 => ⟨S300000, .i32⟩
  | 54 => ⟨S300000, .i32⟩
  | 55 => ⟨S300000x1, .i32⟩
  | 56 => ⟨S300000x600, .f32⟩
  | 57 => ⟨S_, .i32⟩
  | 58 => ⟨S300000, .i32⟩
  | 59 => ⟨S300000, .i1⟩
  | 60 => ⟨S_, .i32⟩
  | 61 => ⟨S300000, .i32⟩
  | 62 => ⟨S300000, .i32⟩
  | 63 => ⟨S300000, .i32⟩
  | 64 => ⟨S300000x1, .i32⟩
  | 65 => ⟨S30000x600, .f32⟩
  | 66 => ⟨S30000x600, .f32⟩
  | 67 => ⟨S1x600x600, .f32⟩
  | 68 => ⟨S600x600, .f32⟩
  | 69 => ⟨S1x600, .f32⟩
  | 70 => ⟨S600, .f32⟩
  | 71 => ⟨S1x600x600, .f32⟩
  | 72 => ⟨S600x600, .f32⟩
  | 73 => ⟨S1x600, .f32⟩
  | 74 => ⟨S600, .f32⟩
  | 75 => ⟨S_, .i32⟩
  | 76 => ⟨S300000, .i32⟩
  | 77 => ⟨S300000, .i1⟩
  | 78 => ⟨S_, .i32⟩
  | 79 => ⟨S300000, .i32⟩
  | 80 => ⟨S300000, .i32⟩
  | 81 => ⟨S300000, .i32⟩
  | 82 => ⟨S300000x1, .i32⟩
  | 83 => ⟨S300000x600, .f32⟩
  | 84 => ⟨S_, .i32⟩
  | 85 => ⟨S300000, .i32⟩
  | 86 => ⟨S300000, .i1⟩
  | 87 => ⟨S_, .i32⟩
  | 88 => ⟨S300000, .i32⟩
  | 89 => ⟨S300000, .i32⟩
  | 90 => ⟨S300000, .i32⟩
  | 91 => ⟨S300000x1, .i32⟩
  | 92 => ⟨S30000x600, .f32⟩
  | 93 => ⟨S30000x600, .f32⟩
  | 94 => ⟨S1x600x600, .f32⟩
  | 95 => ⟨S600x600, .f32⟩
  | 96 => ⟨S1x600, .f32⟩
  | 97 => ⟨S600, .f32⟩
  | 98 => ⟨S1x600x600, .f32⟩
  | 99 => ⟨S600x600, .f32⟩
  | 100 => ⟨S1x600, .f32⟩
  | 101 => ⟨S600, .f32⟩
  | 102 => ⟨S_, .i32⟩
  | 103 => ⟨S300000, .i32⟩
  | 104 => ⟨S300000, .i1⟩
  | 105 => ⟨S_, .i32⟩
  | 106 => ⟨S300000, .i32⟩
  | 107 => ⟨S300000, .i32⟩
  | 108 => ⟨S300000, .i32⟩
  | 109 => ⟨S300000x1, .i32⟩
  | 110 => ⟨S300000x600, .f32⟩
  | 111 => ⟨S_, .i32⟩
  | 112 => ⟨S300000, .i32⟩
  | 113 => ⟨S300000, .i1⟩
  | 114 => ⟨S_, .i32⟩
  | 115 => ⟨S300000, .i32⟩
  | 116 => ⟨S300000, .i32⟩
  | 117 => ⟨S300000, .i32⟩
  | 118 => ⟨S300000x1, .i32⟩
  | 119 => ⟨S30000x600, .f32⟩
  | 120 => ⟨S30000x600, .f32⟩
  | 121 => ⟨S1x600x600, .f32⟩
  | 122 => ⟨S600x600, .f32⟩
  | 123 => ⟨S1x600, .f32⟩
  | 124 => ⟨S600, .f32⟩
  | 125 => ⟨S1x600x600, .f32⟩
  | 126 => ⟨S600x600, .f32⟩
  | 127 => ⟨S1x600, .f32⟩
  | _ => ⟨S30000x9, .f32⟩

abbrev hbmTy0_1 (i : Nat) : BufTy := match i % 128 with
  | 0 => ⟨S600, .f32⟩
  | 1 => ⟨S_, .i32⟩
  | 2 => ⟨S300000, .i32⟩
  | 3 => ⟨S300000, .i1⟩
  | 4 => ⟨S_, .i32⟩
  | 5 => ⟨S300000, .i32⟩
  | 6 => ⟨S300000, .i32⟩
  | 7 => ⟨S300000, .i32⟩
  | 8 => ⟨S300000x1, .i32⟩
  | 9 => ⟨S300000x600, .f32⟩
  | 10 => ⟨S_, .i32⟩
  | 11 => ⟨S300000, .i32⟩
  | 12 => ⟨S300000, .i1⟩
  | 13 => ⟨S_, .i32⟩
  | 14 => ⟨S300000, .i32⟩
  | 15 => ⟨S300000, .i32⟩
  | 16 => ⟨S300000, .i32⟩
  | 17 => ⟨S300000x1, .i32⟩
  | 18 => ⟨S30000x600, .f32⟩
  | 19 => ⟨S30000x600, .f32⟩
  | 20 => ⟨S30000x1, .i32⟩
  | 21 => ⟨S512x600, .f32⟩
  | 22 => ⟨S512x128, .f32⟩
  | _ => ⟨S30000x9, .f32⟩

abbrev hbmTy (i : Nat) : BufTy := match i / 128 with
  | 0 => hbmTy0_0 i
  | 1 => hbmTy0_1 i
  | _ => ⟨S30000x9, .f32⟩

abbrev bufTy : (tb : Table) → Fin (tcTables nBuf tb) → BufTy
  | .hbm, ⟨i, _⟩ => hbmTy i
  | .local _ .vmem, ⟨0, _⟩ => ⟨S1000x9, .f32⟩
  | .local _ .vmem, ⟨1, _⟩ => ⟨S1000x9, .f32⟩
  | .local _ .vmem, ⟨2, _⟩ => ⟨S9x600, .f32⟩
  | .local _ .vmem, ⟨3, _⟩ => ⟨S600, .f32⟩
  | .local _ .vmem, ⟨4, _⟩ => ⟨S600x600, .f32⟩
  | .local _ .vmem, ⟨5, _⟩ => ⟨S600, .f32⟩
  | .local _ .vmem, ⟨6, _⟩ => ⟨S1000x600, .f32⟩
  | .local _ .vmem, ⟨7, _⟩ => ⟨S1000x600, .f32⟩
  | .local _ .vmem, ⟨8, _⟩ => ⟨S1000x600, .f32⟩
  | .local _ .vmem, ⟨9, _⟩ => ⟨S1000x600, .f32⟩
  | .local _ .vmem, ⟨10, _⟩ => ⟨S600x600, .f32⟩
  | .local _ .vmem, ⟨11, _⟩ => ⟨S600, .f32⟩
  | .local _ .vmem, ⟨12, _⟩ => ⟨S600x600, .f32⟩
  | .local _ .vmem, ⟨13, _⟩ => ⟨S600, .f32⟩
  | .local _ .vmem, ⟨14, _⟩ => ⟨S1000x600, .f32⟩
  | .local _ .vmem, ⟨15, _⟩ => ⟨S1000x600, .f32⟩
  | .local _ .vmem, ⟨16, _⟩ => ⟨S1000x600, .f32⟩
  | .local _ .vmem, ⟨17, _⟩ => ⟨S1000x600, .f32⟩
  | .local _ .vmem, ⟨18, _⟩ => ⟨S600x600, .f32⟩
  | .local _ .vmem, ⟨19, _⟩ => ⟨S600, .f32⟩
  | .local _ .vmem, ⟨20, _⟩ => ⟨S600x600, .f32⟩
  | .local _ .vmem, ⟨21, _⟩ => ⟨S600, .f32⟩
  | .local _ .vmem, ⟨22, _⟩ => ⟨S1000x600, .f32⟩
  | .local _ .vmem, ⟨23, _⟩ => ⟨S1000x600, .f32⟩
  | .local _ .vmem, ⟨24, _⟩ => ⟨S1000x600, .f32⟩
  | .local _ .vmem, ⟨25, _⟩ => ⟨S1000x600, .f32⟩
  | .local _ .vmem, ⟨26, _⟩ => ⟨S600x600, .f32⟩
  | .local _ .vmem, ⟨27, _⟩ => ⟨S600, .f32⟩
  | .local _ .vmem, ⟨28, _⟩ => ⟨S600x600, .f32⟩
  | .local _ .vmem, ⟨29, _⟩ => ⟨S600, .f32⟩
  | .local _ .vmem, ⟨30, _⟩ => ⟨S1000x600, .f32⟩
  | .local _ .vmem, ⟨31, _⟩ => ⟨S1000x600, .f32⟩
  | .local _ .vmem, ⟨32, _⟩ => ⟨S1000x600, .f32⟩
  | .local _ .vmem, ⟨33, _⟩ => ⟨S1000x600, .f32⟩
  | .local _ .vmem, ⟨34, _⟩ => ⟨S600x600, .f32⟩
  | .local _ .vmem, ⟨35, _⟩ => ⟨S600, .f32⟩
  | .local _ .vmem, ⟨36, _⟩ => ⟨S600x600, .f32⟩
  | .local _ .vmem, ⟨37, _⟩ => ⟨S600, .f32⟩
  | .local _ .vmem, ⟨38, _⟩ => ⟨S1000x600, .f32⟩
  | .local _ .vmem, ⟨39, _⟩ => ⟨S1000x600, .f32⟩
  | .local _ .vmem, ⟨40, _⟩ => ⟨S2000x600, .f32⟩
  | .local _ .vmem, ⟨41, _⟩ => ⟨S2000x600, .f32⟩
  | .local _ .vmem, ⟨42, _⟩ => ⟨S2000x1, .i32⟩
  | .local _ .vmem, ⟨43, _⟩ => ⟨S2000x1, .i32⟩
  | .local _ .vmem, ⟨44, _⟩ => ⟨S512x600, .f32⟩
  | .local _ .vmem, ⟨45, _⟩ => ⟨S512x600, .f32⟩
  | .local _ .vmem, ⟨46, _⟩ => ⟨S512x600, .f32⟩
  | .local _ .vmem, ⟨47, _⟩ => ⟨S600x256, .f32⟩
  | .local _ .vmem, ⟨48, _⟩ => ⟨S256, .f32⟩
  | .local _ .vmem, ⟨49, _⟩ => ⟨S256x256, .f32⟩
  | .local _ .vmem, ⟨50, _⟩ => ⟨S256, .f32⟩
  | .local _ .vmem, ⟨51, _⟩ => ⟨S256x128, .f32⟩
  | .local _ .vmem, ⟨52, _⟩ => ⟨S128, .f32⟩
  | .local _ .vmem, ⟨53, _⟩ => ⟨S512x128, .f32⟩
  | _, _ => ⟨S30000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_3 : Ref sig .tc := ⟨.hbm, 48, rfl⟩
abbrev main_v27 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_c_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_7 : Ref sig .tc := ⟨.hbm, 75, rfl⟩
abbrev main_v50 : Ref sig .tc := ⟨.hbm, 76, rfl⟩
abbrev main_v51 : Ref sig .tc := ⟨.hbm, 77, rfl⟩
abbrev main_c_8 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_9 : Ref sig .tc := ⟨.hbm, 84, rfl⟩
abbrev main_v57 : Ref sig .tc := ⟨.hbm, 85, rfl⟩
abbrev main_v58 : Ref sig .tc := ⟨.hbm, 86, rfl⟩
abbrev main_c_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_11 : Ref sig .tc := ⟨.hbm, 102, rfl⟩
abbrev main_v73 : Ref sig .tc := ⟨.hbm, 103, rfl⟩
abbrev main_v74 : Ref sig .tc := ⟨.hbm, 104, rfl⟩
abbrev main_c_12 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_13 : Ref sig .tc := ⟨.hbm, 111, rfl⟩
abbrev main_v80 : Ref sig .tc := ⟨.hbm, 112, rfl⟩
abbrev main_v81 : Ref sig .tc := ⟨.hbm, 113, rfl⟩
abbrev main_c_14 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_15 : Ref sig .tc := ⟨.hbm, 129, rfl⟩
abbrev main_v96 : Ref sig .tc := ⟨.hbm, 130, rfl⟩
abbrev main_v97 : Ref sig .tc := ⟨.hbm, 131, rfl⟩
abbrev main_c_16 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_c_17 : Ref sig .tc := ⟨.hbm, 138, rfl⟩
abbrev main_v103 : Ref sig .tc := ⟨.hbm, 139, rfl⟩
abbrev main_v104 : Ref sig .tc := ⟨.hbm, 140, rfl⟩
abbrev main_c_18 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_scratch0 : Ref sig .tc := ⟨.vmem, 45, rfl⟩
abbrev cc6_stg0_0 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg6_0 : Ref sig .tc := ⟨.vmem, 52, rfl⟩
abbrev cc6_stg7_0 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc6_sem0_0 : DmaSem sig := 45
abbrev cc6_sem1_0 : DmaSem sig := 46
abbrev cc6_sem2_0 : DmaSem sig := 47
abbrev cc6_sem3_0 : DmaSem sig := 48
abbrev cc6_sem4_0 : DmaSem sig := 49
abbrev cc6_sem5_0 : DmaSem sig := 50
abbrev cc6_sem6_0 : DmaSem sig := 51
abbrev cc6_sem7_0 : DmaSem sig := 52

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x600 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S600x600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S600 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x600 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S600x600 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S600 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S600x600 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S600 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x600 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x600 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S600x600 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S600 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S600x600 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S600 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x600 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x600 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S600x600 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S600 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S600x600 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S600 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x600 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![30], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x600 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S600x600 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S600 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S600x600 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S600 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1000x600 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![15], ![false]⟩

def k5_cond2 (i : grid5.Coords) : BitVec 1 :=
  let arg0 : BitVec 32 := BitVec.ofNat 32 (i 0).val
  let c14_i32 : BitVec 32 := 14#32
  let v20 : BitVec 1 := Scalar.cmpi .eq arg0 c14_i32
  let v21 : BitVec 32 := Scalar.extui v20
  let c0_i32_8 : BitVec 32 := 0#32
  let v22 : BitVec 1 := Scalar.cmpi .ne v21 c0_i32_8
  v22

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x600 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S512x600 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x600 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S600x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S512x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  inb_S1000x9_S1000x9_0_0 : ∀ a, (![0, 0] : Fin 2 → Nat) a + S1000x9.size a ≤ S1000x9.size a
  h_S1000x9 : 0 < S1000x9.numel
  shapeCasts_S1000x9_S1000x9 : S1000x9.ShapeCasts S1000x9
  bitsLt_bf16_f32 : FTy.bits .bf16 < FTy.bits .f32
  inb_S9x600_S9x600_0_0 : ∀ a, (![0, 0] : Fin 2 → Nat) a + S9x600.size a ≤ S9x600.size a
  h_S9x600 : 0 < S9x600.numel
  inb_S600_S600_0 : ∀ a, (![0] : Fin 1 → Nat) a + S600.size a ≤ S600.size a
  h_S600 : 0 < S600.numel
  shapeCasts_S600_S1x600 : S600.ShapeCasts S1x600
  broadcasts_S1x600_S1000x600 : S1x600.Broadcasts S1000x600
  inb_S600x600_S600x600_0_0 : ∀ a, (![0, 0] : Fin 2 → Nat) a + S600x600.size a ≤ S600x600.size a
  h_S600x600 : 0 < S600x600.numel
  inb_S1000x600_S1000x600_0_0 : ∀ a, (![0, 0] : Fin 2 → Nat) a + S1000x600.size a ≤ S1000x600.size a
  h_S1000x600 : 0 < S1000x600.numel
  slices_S4x600x600_S1x600x600_0_0_0 : S4x600x600.Slices ![0, 0, 0] S1x600x600
  shapeCasts_S1x600x600_S600x600 : S1x600x600.ShapeCasts S600x600
  slices_S4x600_S1x600_0_0 : S4x600.Slices ![0, 0] S1x600
  shapeCasts_S1x600_S600 : S1x600.ShapeCasts S600
  shapeCasts_S1000x600_S1000x600 : S1000x600.ShapeCasts S1000x600
  shapeCasts_S600x600_S600x600 : S600x600.ShapeCasts S600x600
  shapeCasts_S600_S600 : S600.ShapeCasts S600
  slices_S4x600x600_S1x600x600_1_0_0 : S4x600x600.Slices ![1, 0, 0] S1x600x600
  slices_S4x600_S1x600_1_0 : S4x600.Slices ![1, 0] S1x600
  slices_S4x600x600_S1x600x600_2_0_0 : S4x600x600.Slices ![2, 0, 0] S1x600x600
  slices_S4x600_S1x600_2_0 : S4x600.Slices ![2, 0] S1x600
  slices_S4x600x600_S1x600x600_3_0_0 : S4x600x600.Slices ![3, 0, 0] S1x600x600
  slices_S4x600_S1x600_3_0 : S4x600.Slices ![3, 0] S1x600
  shapeCasts_S30000_S30000x1 : S30000.ShapeCasts S30000x1
  inb_S512x600_S512x600_0_0 : ∀ a, (![0, 0] : Fin 2 → Nat) a + S512x600.size a ≤ S512x600.size a
  h_S512x600 : 0 < S512x600.numel
  shapeCasts_S512x600_S512x600 : S512x600.ShapeCasts S512x600
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  inb_S2000x600_S2000x600_0_0 : ∀ a, (![0, 0] : Fin 2 → Nat) a + S2000x600.size a ≤ S2000x600.size a
  h_S2000x600 : 0 < S2000x600.numel
  shapeCasts_S2000x600_S2000x600 : S2000x600.ShapeCasts S2000x600
  inb_S600x256_S600x256_0_0 : ∀ a, (![0, 0] : Fin 2 → Nat) a + S600x256.size a ≤ S600x256.size a
  h_S600x256 : 0 < S600x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  gather_S30000x9_S300000x1_S300000x9_1_0_n_n_0_1_19_wf : GatherDims.WF S30000x9 S300000x1 S300000x9 [1] [0] [] [0] [] 1 ![1, 9]
  scatter_S30000x9_S300000x1_S300000x9_1_0_0_1_wf : ScatterDims.WF S30000x9 S300000x1 S300000x9 [1] [0] [0] 1
  dot_S1000x9_S9x600_S1000x600_1_0_0_1_n_n_wf : DotDims.WF S1000x9 S9x600 S1000x600 [1] [0] [0] [1] [] []
  dot_S1000x600_S600x600_S1000x600_1_0_0_1_n_n_wf : DotDims.WF S1000x600 S600x600 S1000x600 [1] [0] [0] [1] [] []
  gather_S30000x600_S300000x1_S300000x600_1_0_n_n_0_1_1600_wf : GatherDims.WF S30000x600 S300000x1 S300000x600 [1] [0] [] [0] [] 1 ![1, 600]
  scatter_S30000x600_S300000x1_S300000x600_1_0_0_1_wf : ScatterDims.WF S30000x600 S300000x1 S300000x600 [1] [0] [0] 1
  dot_S2000x512_S2000x600_S512x600_0_0_1_1_n_n_wf : DotDims.WF S2000x512 S2000x600 S512x600 [0] [0] [1] [1] [] []
  dot_S512x600_S600x256_S512x256_1_0_0_1_n_n_wf : DotDims.WF S512x600 S600x256 S512x256 [1] [0] [0] [1] [] []
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x9.size a ≤ S30000x9.size a
  hwx0_0 : ∀ i : grid0.Coords, EltTy.bits .f32 = 32 ∨ (Rect.block (s := S30000x9) S1000x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x600.size a ≤ S9x600.size a
  hwx0_1 : ∀ i : grid0.Coords, EltTy.bits .f32 = 32 ∨ (Rect.block (s := S9x600) S9x600.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S600.size a ≤ S600.size a
  hwx0_2 : ∀ i : grid0.Coords, EltTy.bits .f32 = 32 ∨ (Rect.block (s := S600) S600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S600x600.size a ≤ S600x600.size a
  hwx0_3 : ∀ i : grid0.Coords, EltTy.bits .f32 = 32 ∨ (Rect.block (s := S600x600) S600x600.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S600.size a ≤ S600.size a
  hwx0_4 : ∀ i : grid0.Coords, EltTy.bits .f32 = 32 ∨ (Rect.block (s := S600) S600.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x600.size a ≤ S30000x600.size a
  hwx0_5 : ∀ i : grid0.Coords, EltTy.bits .f32 = 32 ∨ (Rect.block (s := S30000x600) S1000x600.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x600.size a ≤ S30000x600.size a
  hwx1_0 : ∀ i : grid1.Coords, EltTy.bits .f32 = 32 ∨ (Rect.block (s := S30000x600) S1000x600.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S600x600.size a ≤ S600x600.size a
  hwx1_1 : ∀ i : grid1.Coords, EltTy.bits .f32 = 32 ∨ (Rect.block (s := S600x600) S600x600.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S600.size a ≤ S600.size a
  hwx1_2 : ∀ i : grid1.Coords, EltTy.bits .f32 = 32 ∨ (Rect.block (s := S600) S600.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S600x600.size a ≤ S600x600.size a
  hwx1_3 : ∀ i : grid1.Coords, EltTy.bits .f32 = 32 ∨ (Rect.block (s := S600x600) S600x600.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S600.size a ≤ S600.size a
  hwx1_4 : ∀ i : grid1.Coords, EltTy.bits .f32 = 32 ∨ (Rect.block (s := S600) S600.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x600.size a ≤ S30000x600.size a
  hwx1_5 : ∀ i : grid1.Coords, EltTy.bits .f32 = 32 ∨ (Rect.block (s := S30000x600) S1000x600.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x600.size a ≤ S30000x600.size a
  hwx2_0 : ∀ i : grid2.Coords, EltTy.bits .f32 = 32 ∨ (Rect.block (s := S30000x600) S1000x600.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S600x600.size a ≤ S600x600.size a
  hwx2_1 : ∀ i : grid2.Coords, EltTy.bits .f32 = 32 ∨ (Rect.block (s := S600x600) S600x600.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S600.size a ≤ S600.size a
  hwx2_2 : ∀ i : grid2.Coords, EltTy.bits .f32 = 32 ∨ (Rect.block (s := S600) S600.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S600x600.size a ≤ S600x600.size a
  hwx2_3 : ∀ i : grid2.Coords, EltTy.bits .f32 = 32 ∨ (Rect.block (s := S600x600) S600x600.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S600.size a ≤ S600.size a
  hwx2_4 : ∀ i : grid2.Coords, EltTy.bits .f32 = 32 ∨ (Rect.block (s := S600) S600.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x600.size a ≤ S30000x600.size a
  hwx2_5 : ∀ i : grid2.Coords, EltTy.bits .f32 = 32 ∨ (Rect.block (s := S30000x600) S1000x600.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x600.size a ≤ S30000x600.size a
  hwx3_0 : ∀ i : grid3.Coords, EltTy.bits .f32 = 32 ∨ (Rect.block (s := S30000x600) S1000x600.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S600x600.size a ≤ S600x600.size a
  hwx3_1 : ∀ i : grid3.Coords, EltTy.bits .f32 = 32 ∨ (Rect.block (s := S600x600) S600x600.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S600.size a ≤ S600.size a
  hwx3_2 : ∀ i : grid3.Coords, EltTy.bits .f32 = 32 ∨ (Rect.block (s := S600) S600.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S600x600.size a ≤ S600x600.size a
  hwx3_3 : ∀ i : grid3.Coords, EltTy.bits .f32 = 32 ∨ (Rect.block (s := S600x600) S600x600.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S600.size a ≤ S600.size a
  hwx3_4 : ∀ i : grid3.Coords, EltTy.bits .f32 = 32 ∨ (Rect.block (s := S600) S600.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x600.size a ≤ S30000x600.size a
  hwx3_5 : ∀ i : grid3.Coords, EltTy.bits .f32 = 32 ∨ (Rect.block (s := S30000x600) S1000x600.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x600.size a ≤ S30000x600.size a
  hwx4_0 : ∀ i : grid4.Coords, EltTy.bits .f32 = 32 ∨ (Rect.block (s := S30000x600) S1000x600.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S600x600.size a ≤ S600x600.size a
  hwx4_1 : ∀ i : grid4.Coords, EltTy.bits .f32 = 32 ∨ (Rect.block (s := S600x600) S600x600.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S600.size a ≤ S600.size a
  hwx4_2 : ∀ i : grid4.Coords, EltTy.bits .f32 = 32 ∨ (Rect.block (s := S600) S600.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S600x600.size a ≤ S600x600.size a
  hwx4_3 : ∀ i : grid4.Coords, EltTy.bits .f32 = 32 ∨ (Rect.block (s := S600x600) S600x600.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S600.size a ≤ S600.size a
  hwx4_4 : ∀ i : grid4.Coords, EltTy.bits .f32 = 32 ∨ (Rect.block (s := S600) S600.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x600.size a ≤ S30000x600.size a
  hwx4_5 : ∀ i : grid4.Coords, EltTy.bits .f32 = 32 ∨ (Rect.block (s := S30000x600) S1000x600.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x600.size a ≤ S30000x600.size a
  hwx5_0 : ∀ i : grid5.Coords, EltTy.bits .f32 = 32 ∨ (Rect.block (s := S30000x600) S2000x600.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S30000x1.size a
  hwx5_1 : ∀ i : grid5.Coords, EltTy.bits .i32 = 32 ∨ (Rect.block (s := S30000x1) S2000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512x600.size a ≤ S512x600.size a
  hwx5_2 : ∀ i : grid5.Coords, EltTy.bits .f32 = 32 ∨ (Rect.block (s := S512x600) S512x600.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x600.size a ≤ S512x600.size a
  hwx6_0 : ∀ i : grid6.Coords, EltTy.bits .f32 = 32 ∨ (Rect.block (s := S512x600) S512x600.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S600x256.size a ≤ S600x256.size a
  hwx6_1 : ∀ i : grid6.Coords, EltTy.bits .f32 = 32 ∨ (Rect.block (s := S600x256) S600x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256.size a ≤ S256.size a
  hwx6_2 : ∀ i : grid6.Coords, EltTy.bits .f32 = 32 ∨ (Rect.block (s := S256) S256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .f32 = 32 ∨ (Rect.block (s := S256x256) S256x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256.size a ≤ S256.size a
  hwx6_4 : ∀ i : grid6.Coords, EltTy.bits .f32 = 32 ∨ (Rect.block (s := S256) S256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x128.size a ≤ S256x128.size a
  hwx6_5 : ∀ i : grid6.Coords, EltTy.bits .f32 = 32 ∨ (Rect.block (s := S256x128) S256x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128.size a ≤ S128.size a
  hwx6_6 : ∀ i : grid6.Coords, EltTy.bits .f32 = 32 ∨ (Rect.block (s := S128) S128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S512x128.size a ≤ S512x128.size a
  hwx6_7 : ∀ i : grid6.Coords, EltTy.bits .f32 = 32 ∨ (Rect.block (s := S512x128) S512x128.size (cc6_transform_7 i) (hinb6_7 i)).WholeWords (EltTy.packing .f32)

variable [Facts₀]

def gather_S30000x9_S300000x1_S300000x9_1_0_n_n_0_1_19 : GatherDims S30000x9 S300000x1 S300000x9 where
  offsetDims := [1]
  collapsedSliceDims := [0]
  operandBatchingDims := []
  startIndicesBatchingDims := []
  startIndexMap := [0]
  indexVectorDim := 1
  sliceSizes := ![1, 9]
  wf := gather_S30000x9_S300000x1_S300000x9_1_0_n_n_0_1_19_wf
def scatter_S30000x9_S300000x1_S300000x9_1_0_0_1 : ScatterDims S30000x9 S300000x1 S300000x9 where
  updateWindowDims := [1]
  insertedWindowDims := [0]
  scatterDimsToOperandDims := [0]
  indexVectorDim := 1
  wf := scatter_S30000x9_S300000x1_S300000x9_1_0_0_1_wf
def dot_S1000x9_S9x600_S1000x600_1_0_0_1_n_n : DotDims S1000x9 S9x600 S1000x600 where
  lhsContracting := [1]
  rhsContracting := [0]
  lhsNonContracting := [0]
  rhsNonContracting := [1]
  lhsBatch := []
  rhsBatch := []
  wf := dot_S1000x9_S9x600_S1000x600_1_0_0_1_n_n_wf
def dot_S1000x600_S600x600_S1000x600_1_0_0_1_n_n : DotDims S1000x600 S600x600 S1000x600 where
  lhsContracting := [1]
  rhsContracting := [0]
  lhsNonContracting := [0]
  rhsNonContracting := [1]
  lhsBatch := []
  rhsBatch := []
  wf := dot_S1000x600_S600x600_S1000x600_1_0_0_1_n_n_wf
def gather_S30000x600_S300000x1_S300000x600_1_0_n_n_0_1_1600 : GatherDims S30000x600 S300000x1 S300000x600 where
  offsetDims := [1]
  collapsedSliceDims := [0]
  operandBatchingDims := []
  startIndicesBatchingDims := []
  startIndexMap := [0]
  indexVectorDim := 1
  sliceSizes := ![1, 600]
  wf := gather_S30000x600_S300000x1_S300000x600_1_0_n_n_0_1_1600_wf
def scatter_S30000x600_S300000x1_S300000x600_1_0_0_1 : ScatterDims S30000x600 S300000x1 S300000x600 where
  updateWindowDims := [1]
  insertedWindowDims := [0]
  scatterDimsToOperandDims := [0]
  indexVectorDim := 1
  wf := scatter_S30000x600_S300000x1_S300000x600_1_0_0_1_wf
def dot_S2000x512_S2000x600_S512x600_0_0_1_1_n_n : DotDims S2000x512 S2000x600 S512x600 where
  lhsContracting := [0]
  rhsContracting := [0]
  lhsNonContracting := [1]
  rhsNonContracting := [1]
  lhsBatch := []
  rhsBatch := []
  wf := dot_S2000x512_S2000x600_S512x600_0_0_1_1_n_n_wf
def dot_S512x600_S600x256_S512x256_1_0_0_1_n_n : DotDims S512x600 S600x256 S512x256 where
  lhsContracting := [1]
  rhsContracting := [0]
  lhsNonContracting := [0]
  rhsNonContracting := [1]
  lhsBatch := []
  rhsBatch := []
  wf := dot_S512x600_S600x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v17) S1000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S9x600.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S600x600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S600.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1000x600.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S1000x600.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S600x600.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S600.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S600x600.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S600.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1000x600.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S1000x600.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S600x600.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S600.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S600x600.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S600.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S1000x600.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v86) S1000x600.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S600x600.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S600.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S600x600.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S600.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v87) S1000x600.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v109) S1000x600.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S600x600.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v91) S600.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S600x600.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v95) S600.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v110) S1000x600.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v110) S2000x600.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v111) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v112) S512x600.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v112) S512x600.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S600x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg12) S256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg13) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg14) S256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg15) S256x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg16) S128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v113) S512x128.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S30000x9 : Shape := ⟨2, ![30000, 9]⟩
abbrev S2x300000 : Shape := ⟨2, ![2, 300000]⟩
abbrev S30000 : Shape := ⟨1, ![30000]⟩
abbrev S9x600 : Shape := ⟨2, ![9, 600]⟩
abbrev S600 : Shape := ⟨1, ![600]⟩
abbrev S600x600 : Shape := ⟨2, ![600, 600]⟩
abbrev S4x600x600 : Shape := ⟨3, ![4, 600, 600]⟩
abbrev S4x600 : Shape := ⟨2, ![4, 600]⟩
abbrev S600x256 : Shape := ⟨2, ![600, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x9 : Shape := ⟨2, ![300000, 9]⟩
abbrev S30000x600 : Shape := ⟨2, ![30000, 600]⟩
abbrev S1x600 : Shape := ⟨2, ![1, 600]⟩
abbrev S1x600x600 : Shape := ⟨3, ![1, 600, 600]⟩
abbrev S300000x600 : Shape := ⟨2, ![300000, 600]⟩
abbrev S512x600 : Shape := ⟨2, ![512, 600]⟩
abbrev S30000x1 : Shape := ⟨2, ![30000, 1]⟩
abbrev S512x256 : Shape := ⟨2, ![512, 256]⟩
abbrev S1x256 : Shape := ⟨2, ![1, 256]⟩
abbrev S512x128 : Shape := ⟨2, ![512, 128]⟩
abbrev S1x128 : Shape := ⟨2, ![1, 128]⟩

abbrev nBuf : Space → Nat
  | .hbm => 228
  | .vmem => 0
  | .smem => 0
  | _ => 0

abbrev hbmTy0_0 (i : Nat) : BufTy := match i % 128 with
  | 0 => ⟨S30000x9, .f32⟩
  | 1 => ⟨S2x300000, .i32⟩
  | 2 => ⟨S30000, .i32⟩
  | 3 => ⟨S9x600, .f32⟩
  | 4 => ⟨S600, .f32⟩
  | 5 => ⟨S600x600, .f32⟩
  | 6 => ⟨S600, .f32⟩
  | 7 => ⟨S4x600x600, .f32⟩
  | 8 => ⟨S4x600, .f32⟩
  | 9 => ⟨S4x600x600, .f32⟩
  | 10 => ⟨S4x600, .f32⟩
  | 11 => ⟨S600x256, .f32⟩
  | 12 => ⟨S256, .f32⟩
  | 13 => ⟨S256x256, .f32⟩
  | 14 => ⟨S256, .f32⟩
  | 15 => ⟨S256x128, .f32⟩
  | 16 => ⟨S128, .f32⟩
  | 17 => ⟨S1x300000, .i32⟩
  | 18 => ⟨S300000, .i32⟩
  | 19 => ⟨S_, .i32⟩
  | 20 => ⟨S300000, .i32⟩
  | 21 => ⟨S300000, .i1⟩
  | 22 => ⟨S_, .i32⟩
  | 23 => ⟨S300000, .i32⟩
  | 24 => ⟨S300000, .i32⟩
  | 25 => ⟨S300000, .i32⟩
  | 26 => ⟨S300000x1, .i32⟩
  | 27 => ⟨S300000x9, .f32⟩
  | 28 => ⟨S1x300000, .i32⟩
  | 29 => ⟨S300000, .i32⟩
  | 30 => ⟨S_, .f32⟩
  | 31 => ⟨S30000x9, .f32⟩
  | 32 => ⟨S300000x1, .i32⟩
  | 33 => ⟨S30000x9, .f32⟩
  | 34 => ⟨S30000x9, .f32⟩
  | 35 => ⟨S30000x600, .f32⟩
  | 36 => ⟨S1x600, .f32⟩
  | 37 => ⟨S30000x600, .f32⟩
  | 38 => ⟨S30000x600, .f32⟩
  | 39 => ⟨S_, .f32⟩
  | 40 => ⟨S30000x600, .f32⟩
  | 41 => ⟨S30000x600, .f32⟩
  | 42 => ⟨S30000x600, .f32⟩
  | 43 => ⟨S1x600, .f32⟩
  | 44 => ⟨S30000x600, .f32⟩
  | 45 => ⟨S30000x600, .f32⟩
  | 46 => ⟨S_, .f32⟩
  | 47 => ⟨S30000x600, .f32⟩
  | 48 => ⟨S30000x600, .f32⟩
  | 49 => ⟨S1x600x600, .f32⟩
  | 50 => ⟨S600x600, .f32⟩
  | 51 => ⟨S1x600, .f32⟩
  | 52 => ⟨S600, .f32⟩
  | 53 => ⟨S1x600x600, .f32⟩
  | 54 => ⟨S600x600, .f32⟩
  | 55 => ⟨S1x600, .f32⟩
  | 56 => ⟨S600, .f32⟩
  | 57 => ⟨S1x300000, .i32⟩
  | 58 => ⟨S300000, .i32⟩
  | 59 => ⟨S_, .i32⟩
  | 60 => ⟨S300000, .i32⟩
  | 61 => ⟨S300000, .i1⟩
  | 62 => ⟨S_, .i32⟩
  | 63 => ⟨S300000, .i32⟩
  | 64 => ⟨S300000, .i32⟩
  | 65 => ⟨S300000, .i32⟩
  | 66 => ⟨S300000x1, .i32⟩
  | 67 => ⟨S300000x600, .f32⟩
  | 68 => ⟨S1x300000, .i32⟩
  | 69 => ⟨S300000, .i32⟩
  | 70 => ⟨S_, .f32⟩
  | 71 => ⟨S30000x600, .f32⟩
  | 72 => ⟨S300000x1, .i32⟩
  | 73 => ⟨S30000x600, .f32⟩
  | 74 => ⟨S30000x600, .f32⟩
  | 75 => ⟨S30000x600, .f32⟩
  | 76 => ⟨S1x600, .f32⟩
  | 77 => ⟨S30000x600, .f32⟩
  | 78 => ⟨S30000x600, .f32⟩
  | 79 => ⟨S_, .f32⟩
  | 80 => ⟨S30000x600, .f32⟩
  | 81 => ⟨S30000x600, .f32⟩
  | 82 => ⟨S30000x600, .f32⟩
  | 83 => ⟨S1x600, .f32⟩
  | 84 => ⟨S30000x600, .f32⟩
  | 85 => ⟨S30000x600, .f32⟩
  | 86 => ⟨S_, .f32⟩
  | 87 => ⟨S30000x600, .f32⟩
  | 88 => ⟨S30000x600, .f32⟩
  | 89 => ⟨S1x600x600, .f32⟩
  | 90 => ⟨S600x600, .f32⟩
  | 91 => ⟨S1x600, .f32⟩
  | 92 => ⟨S600, .f32⟩
  | 93 => ⟨S1x600x600, .f32⟩
  | 94 => ⟨S600x600, .f32⟩
  | 95 => ⟨S1x600, .f32⟩
  | 96 => ⟨S600, .f32⟩
  | 97 => ⟨S1x300000, .i32⟩
  | 98 => ⟨S300000, .i32⟩
  | 99 => ⟨S_, .i32⟩
  | 100 => ⟨S300000, .i32⟩
  | 101 => ⟨S300000, .i1⟩
  | 102 => ⟨S_, .i32⟩
  | 103 => ⟨S300000, .i32⟩
  | 104 => ⟨S300000, .i32⟩
  | 105 => ⟨S300000, .i32⟩
  | 106 => ⟨S300000x1, .i32⟩
  | 107 => ⟨S300000x600, .f32⟩
  | 108 => ⟨S1x300000, .i32⟩
  | 109 => ⟨S300000, .i32⟩
  | 110 => ⟨S_, .f32⟩
  | 111 => ⟨S30000x600, .f32⟩
  | 112 => ⟨S300000x1, .i32⟩
  | 113 => ⟨S30000x600, .f32⟩
  | 114 => ⟨S30000x600, .f32⟩
  | 115 => ⟨S30000x600, .f32⟩
  | 116 => ⟨S1x600, .f32⟩
  | 117 => ⟨S30000x600, .f32⟩
  | 118 => ⟨S30000x600, .f32⟩
  | 119 => ⟨S_, .f32⟩
  | 120 => ⟨S30000x600, .f32⟩
  | 121 => ⟨S30000x600, .f32⟩
  | 122 => ⟨S30000x600, .f32⟩
  | 123 => ⟨S1x600, .f32⟩
  | 124 => ⟨S30000x600, .f32⟩
  | 125 => ⟨S30000x600, .f32⟩
  | 126 => ⟨S_, .f32⟩
  | 127 => ⟨S30000x600, .f32⟩
  | _ => ⟨S30000x9, .f32⟩

abbrev hbmTy0_1 (i : Nat) : BufTy := match i % 128 with
  | 0 => ⟨S30000x600, .f32⟩
  | 1 => ⟨S1x600x600, .f32⟩
  | 2 => ⟨S600x600, .f32⟩
  | 3 => ⟨S1x600, .f32⟩
  | 4 => ⟨S600, .f32⟩
  | 5 => ⟨S1x600x600, .f32⟩
  | 6 => ⟨S600x600, .f32⟩
  | 7 => ⟨S1x600, .f32⟩
  | 8 => ⟨S600, .f32⟩
  | 9 => ⟨S1x300000, .i32⟩
  | 10 => ⟨S300000, .i32⟩
  | 11 => ⟨S_, .i32⟩
  | 12 => ⟨S300000, .i32⟩
  | 13 => ⟨S300000, .i1⟩
  | 14 => ⟨S_, .i32⟩
  | 15 => ⟨S300000, .i32⟩
  | 16 => ⟨S300000, .i32⟩
  | 17 => ⟨S300000, .i32⟩
  | 18 => ⟨S300000x1, .i32⟩
  | 19 => ⟨S300000x600, .f32⟩
  | 20 => ⟨S1x300000, .i32⟩
  | 21 => ⟨S300000, .i32⟩
  | 22 => ⟨S_, .f32⟩
  | 23 => ⟨S30000x600, .f32⟩
  | 24 => ⟨S300000x1, .i32⟩
  | 25 => ⟨S30000x600, .f32⟩
  | 26 => ⟨S30000x600, .f32⟩
  | 27 => ⟨S30000x600, .f32⟩
  | 28 => ⟨S1x600, .f32⟩
  | 29 => ⟨S30000x600, .f32⟩
  | 30 => ⟨S30000x600, .f32⟩
  | 31 => ⟨S_, .f32⟩
  | 32 => ⟨S30000x600, .f32⟩
  | 33 => ⟨S30000x600, .f32⟩
  | 34 => ⟨S30000x600, .f32⟩
  | 35 => ⟨S1x600, .f32⟩
  | 36 => ⟨S30000x600, .f32⟩
  | 37 => ⟨S30000x600, .f32⟩
  | 38 => ⟨S_, .f32⟩
  | 39 => ⟨S30000x600, .f32⟩
  | 40 => ⟨S30000x600, .f32⟩
  | 41 => ⟨S1x600x600, .f32⟩
  | 42 => ⟨S600x600, .f32⟩
  | 43 => ⟨S1x600, .f32⟩
  | 44 => ⟨S600, .f32⟩
  | 45 => ⟨S1x600x600, .f32⟩
  | 46 => ⟨S600x600, .f32⟩
  | 47 => ⟨S1x600, .f32⟩
  | 48 => ⟨S600, .f32⟩
  | 49 => ⟨S1x300000, .i32⟩
  | 50 => ⟨S300000, .i32⟩
  | 51 => ⟨S_, .i32⟩
  | 52 => ⟨S300000, .i32⟩
  | 53 => ⟨S300000, .i1⟩
  | 54 => ⟨S_, .i32⟩
  | 55 => ⟨S300000, .i32⟩
  | 56 => ⟨S300000, .i32⟩
  | 57 => ⟨S300000, .i32⟩
  | 58 => ⟨S300000x1, .i32⟩
  | 59 => ⟨S300000x600, .f32⟩
  | 60 => ⟨S1x300000, .i32⟩
  | 61 => ⟨S300000, .i32⟩
  | 62 => ⟨S_, .f32⟩
  | 63 => ⟨S30000x600, .f32⟩
  | 64 => ⟨S300000x1, .i32⟩
  | 65 => ⟨S30000x600, .f32⟩
  | 66 => ⟨S30000x600, .f32⟩
  | 67 => ⟨S30000x600, .f32⟩
  | 68 => ⟨S1x600, .f32⟩
  | 69 => ⟨S30000x600, .f32⟩
  | 70 => ⟨S30000x600, .f32⟩
  | 71 => ⟨S_, .f32⟩
  | 72 => ⟨S30000x600, .f32⟩
  | 73 => ⟨S30000x600, .f32⟩
  | 74 => ⟨S30000x600, .f32⟩
  | 75 => ⟨S1x600, .f32⟩
  | 76 => ⟨S30000x600, .f32⟩
  | 77 => ⟨S30000x600, .f32⟩
  | 78 => ⟨S_, .f32⟩
  | 79 => ⟨S512x600, .f32⟩
  | 80 => ⟨S30000x1, .i32⟩
  | 81 => ⟨S512x600, .f32⟩
  | 82 => ⟨S512x256, .f32⟩
  | 83 => ⟨S1x256, .f32⟩
  | 84 => ⟨S512x256, .f32⟩
  | 85 => ⟨S512x256, .f32⟩
  | 86 => ⟨S_, .f32⟩
  | 87 => ⟨S512x256, .f32⟩
  | 88 => ⟨S512x256, .f32⟩
  | 89 => ⟨S512x256, .f32⟩
  | 90 => ⟨S1x256, .f32⟩
  | 91 => ⟨S512x256, .f32⟩
  | 92 => ⟨S512x256, .f32⟩
  | 93 => ⟨S_, .f32⟩
  | 94 => ⟨S512x256, .f32⟩
  | 95 => ⟨S512x256, .f32⟩
  | 96 => ⟨S512x128, .f32⟩
  | 97 => ⟨S1x128, .f32⟩
  | 98 => ⟨S512x128, .f32⟩
  | 99 => ⟨S512x128, .f32⟩
  | _ => ⟨S30000x9, .f32⟩

abbrev hbmTy (i : Nat) : BufTy := match i / 128 with
  | 0 => hbmTy0_0 i
  | 1 => hbmTy0_1 i
  | _ => ⟨S30000x9, .f32⟩

abbrev bufTy : (tb : Table) → Fin (tcTables nBuf tb) → BufTy
  | .hbm, ⟨i, _⟩ => hbmTy i
  | _, _ => ⟨S30000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_1 : Ref sig .tc := ⟨.hbm, 59, rfl⟩
abbrev main_v35 : Ref sig .tc := ⟨.hbm, 60, rfl⟩
abbrev main_v36 : Ref sig .tc := ⟨.hbm, 61, rfl⟩
abbrev main_c_2 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_3 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call2_cst : Ref sig .tc := ⟨.hbm, 79, rfl⟩
abbrev main_call2_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call3_cst : Ref sig .tc := ⟨.hbm, 86, rfl⟩
abbrev main_call3_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_4 : Ref sig .tc := ⟨.hbm, 99, rfl⟩
abbrev main_v68 : Ref sig .tc := ⟨.hbm, 100, rfl⟩
abbrev main_v69 : Ref sig .tc := ⟨.hbm, 101, rfl⟩
abbrev main_c_5 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_6 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call4_cst : Ref sig .tc := ⟨.hbm, 119, rfl⟩
abbrev main_call4_v0 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call5_cst : Ref sig .tc := ⟨.hbm, 126, rfl⟩
abbrev main_call5_v0 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_c_7 : Ref sig .tc := ⟨.hbm, 139, rfl⟩
abbrev main_v101 : Ref sig .tc := ⟨.hbm, 140, rfl⟩
abbrev main_v102 : Ref sig .tc := ⟨.hbm, 141, rfl⟩
abbrev main_c_8 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_9 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_call6_cst : Ref sig .tc := ⟨.hbm, 159, rfl⟩
abbrev main_call6_v0 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_call7_cst : Ref sig .tc := ⟨.hbm, 166, rfl⟩
abbrev main_call7_v0 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_c_10 : Ref sig .tc := ⟨.hbm, 179, rfl⟩
abbrev main_v134 : Ref sig .tc := ⟨.hbm, 180, rfl⟩
abbrev main_v135 : Ref sig .tc := ⟨.hbm, 181, rfl⟩
abbrev main_c_11 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_12 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_call8_cst : Ref sig .tc := ⟨.hbm, 199, rfl⟩
abbrev main_call8_v0 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_cst_13 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_call9_cst : Ref sig .tc := ⟨.hbm, 214, rfl⟩
abbrev main_call9_v0 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_call10_cst : Ref sig .tc := ⟨.hbm, 221, rfl⟩
abbrev main_call10_v0 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S2x300000_S1x300000_1_0 : S2x300000.Slices ![1, 0] S1x300000
  bcast_S_S30000x9 : S_.BroadcastsInDim S30000x9 (![] : Fin 0 → Fin S30000x9.rank)
  bcast_S600_S1x600_1 : S600.BroadcastsInDim S1x600 (![1] : Fin 1 → Fin S1x600.rank)
  bcast_S1x600_S30000x600_0_1 : S1x600.BroadcastsInDim S30000x600 (![0, 1] : Fin 2 → Fin S30000x600.rank)
  bcast_S_S30000x600 : S_.BroadcastsInDim S30000x600 (![] : Fin 0 → Fin S30000x600.rank)
  slices_S4x600x600_S1x600x600_0_0_0 : S4x600x600.Slices ![0, 0, 0] S1x600x600
  shapeCasts_S1x600x600_S600x600 : S1x600x600.ShapeCasts S600x600
  slices_S4x600_S1x600_0_0 : S4x600.Slices ![0, 0] S1x600
  shapeCasts_S1x600_S600 : S1x600.ShapeCasts S600
  slices_S4x600x600_S1x600x600_1_0_0 : S4x600x600.Slices ![1, 0, 0] S1x600x600
  slices_S4x600_S1x600_1_0 : S4x600.Slices ![1, 0] S1x600
  slices_S4x600x600_S1x600x600_2_0_0 : S4x600x600.Slices ![2, 0, 0] S1x600x600
  slices_S4x600_S1x600_2_0 : S4x600.Slices ![2, 0] S1x600
  slices_S4x600x600_S1x600x600_3_0_0 : S4x600x600.Slices ![3, 0, 0] S1x600x600
  slices_S4x600_S1x600_3_0 : S4x600.Slices ![3, 0] S1x600
  bcast_S_S512x600 : S_.BroadcastsInDim S512x600 (![] : Fin 0 → Fin S512x600.rank)
  bcast_S30000_S30000x1_0 : S30000.BroadcastsInDim S30000x1 (![0] : Fin 1 → Fin S30000x1.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  gather_S30000x9_S300000x1_S300000x9_1_0_n_n_0_1_19_wf : GatherDims.WF S30000x9 S300000x1 S300000x9 [1] [0] [] [0] [] 1 ![1, 9]
  scatter_S30000x9_S300000x1_S300000x9_1_0_0_1_wf : ScatterDims.WF S30000x9 S300000x1 S300000x9 [1] [0] [0] 1
  dot_S30000x9_S9x600_S30000x600_1_0_0_1_n_n_wf : DotDims.WF S30000x9 S9x600 S30000x600 [1] [0] [0] [1] [] []
  dot_S30000x600_S600x600_S30000x600_1_0_0_1_n_n_wf : DotDims.WF S30000x600 S600x600 S30000x600 [1] [0] [0] [1] [] []
  gather_S30000x600_S300000x1_S300000x600_1_0_n_n_0_1_1600_wf : GatherDims.WF S30000x600 S300000x1 S300000x600 [1] [0] [] [0] [] 1 ![1, 600]
  scatter_S30000x600_S300000x1_S300000x600_1_0_0_1_wf : ScatterDims.WF S30000x600 S300000x1 S300000x600 [1] [0] [0] 1
  scatter_S512x600_S30000x1_S30000x600_1_0_0_1_wf : ScatterDims.WF S512x600 S30000x1 S30000x600 [1] [0] [0] 1
  dot_S512x600_S600x256_S512x256_1_0_0_1_n_n_wf : DotDims.WF S512x600 S600x256 S512x256 [1] [0] [0] [1] [] []
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []

variable [Facts₀]

def gather_S30000x9_S300000x1_S300000x9_1_0_n_n_0_1_19 : GatherDims S30000x9 S300000x1 S300000x9 where
  offsetDims := [1]
  collapsedSliceDims := [0]
  operandBatchingDims := []
  startIndicesBatchingDims := []
  startIndexMap := [0]
  indexVectorDim := 1
  sliceSizes := ![1, 9]
  wf := gather_S30000x9_S300000x1_S300000x9_1_0_n_n_0_1_19_wf
def scatter_S30000x9_S300000x1_S300000x9_1_0_0_1 : ScatterDims S30000x9 S300000x1 S300000x9 where
  updateWindowDims := [1]
  insertedWindowDims := [0]
  scatterDimsToOperandDims := [0]
  indexVectorDim := 1
  wf := scatter_S30000x9_S300000x1_S300000x9_1_0_0_1_wf
def dot_S30000x9_S9x600_S30000x600_1_0_0_1_n_n : DotDims S30000x9 S9x600 S30000x600 where
  lhsContracting := [1]
  rhsContracting := [0]
  lhsNonContracting := [0]
  rhsNonContracting := [1]
  lhsBatch := []
  rhsBatch := []
  wf := dot_S30000x9_S9x600_S30000x600_1_0_0_1_n_n_wf
def dot_S30000x600_S600x600_S30000x600_1_0_0_1_n_n : DotDims S30000x600 S600x600 S30000x600 where
  lhsContracting := [1]
  rhsContracting := [0]
  lhsNonContracting := [0]
  rhsNonContracting := [1]
  lhsBatch := []
  rhsBatch := []
  wf := dot_S30000x600_S600x600_S30000x600_1_0_0_1_n_n_wf
def gather_S30000x600_S300000x1_S300000x600_1_0_n_n_0_1_1600 : GatherDims S30000x600 S300000x1 S300000x600 where
  offsetDims := [1]
  collapsedSliceDims := [0]
  operandBatchingDims := []
  startIndicesBatchingDims := []
  startIndexMap := [0]
  indexVectorDim := 1
  sliceSizes := ![1, 600]
  wf := gather_S30000x600_S300000x1_S300000x600_1_0_n_n_0_1_1600_wf
def scatter_S30000x600_S300000x1_S300000x600_1_0_0_1 : ScatterDims S30000x600 S300000x1 S300000x600 where
  updateWindowDims := [1]
  insertedWindowDims := [0]
  scatterDimsToOperandDims := [0]
  indexVectorDim := 1
  wf := scatter_S30000x600_S300000x1_S300000x600_1_0_0_1_wf
def scatter_S512x600_S30000x1_S30000x600_1_0_0_1 : ScatterDims S512x600 S30000x1 S30000x600 where
  updateWindowDims := [1]
  insertedWindowDims := [0]
  scatterDimsToOperandDims := [0]
  indexVectorDim := 1
  wf := scatter_S512x600_S30000x1_S30000x600_1_0_0_1_wf
def dot_S512x600_S600x256_S512x256_1_0_0_1_n_n : DotDims S512x600 S600x256 S512x256 where
  lhsContracting := [1]
  rhsContracting := [0]
  lhsNonContracting := [0]
  rhsNonContracting := [1]
  lhsBatch := []
  rhsBatch := []
  wf := dot_S512x600_S600x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

class Facts : Prop extends Facts₀ where

variable [Facts]
-- ==== Proof.KI.Mlp1.lean ====
/-
  GIN layer 1 as a pipeline region (custom_call 1): the body at one grid point, and the proof data of its pipeline,
  at a parameter `V`, the TensorCore's buffer contents when the region is entered.

  The grid has 30 points; point `t` stages rows `1000 t … 1000 t + 999` of the aggregated features (window 0), the two
  weight matrices and the two bias rows whole (windows 1 to 4, fetched once: their block index never moves), and
  writes back rows `1000 t … 1000 t + 999` of the result (window 5). The body loads the five input buffers, loads
  the output buffer (a value it never uses) and stores ONE payload over the whole output buffer, so what the output
  buffer holds after the body is that payload of the five input blocks, whatever it held before.
-/
import proofs.«400628_j75076028334403_3_alg».proof.Proof.Gen.KernelIdeal.Launch
import proofs.«400628_j75076028334403_3_alg».proof.Proof.Gen.KernelIdeal.Skeleton
import proofs.«400628_j75076028334403_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the one store take the whole buffer -/

/-- The shape of the input block (window 0) and of the first weight matrix (window 1). -/
abbrev ZS1 : Shape := S1000x600
abbrev WS1 : Shape := S600x600
abbrev rx1 : Rect ZS1 := Rect.unit (s := ZS1) ![0, 0] ZS1.size inb_S1000x600_S1000x600_0_0
abbrev rwa1 : Rect WS1 := Rect.unit (s := WS1) ![0, 0] WS1.size inb_S600x600_S600x600_0_0
abbrev rwb1 : Rect S600x600 := Rect.unit (s := S600x600) ![0, 0] S600x600.size inb_S600x600_S600x600_0_0
abbrev rb1 : Rect S600 := Rect.unit (s := S600) ![0] S600.size inb_S600_S600_0
abbrev ro1 : Rect S1000x600 := Rect.unit (s := S1000x600) ![0, 0] S1000x600.size inb_S1000x600_S1000x600_0_0

/-- The output buffer after the body, from the five input blocks: its one store, over the whole buffer. -/
def out1_5 (x0 : Vec F ZS1 .f32) (x1 : Vec F WS1 .f32) (x2 : Vec F S600 .f32) (x3 : Vec F S600x600 .f32)
    (x4 : Vec F S600 .f32) : Vec F S1000x600 .f32 :=
  View.canon [⟨ro1, k1_pay1 (View.ld x0 rx1) (View.ld x1 rwa1) (View.ld x2 rb1) (View.ld x3 rwb1) (View.ld x4 rb1)⟩]

/-- The one store covers the buffer. -/
theorem cover1_5 (p0 : Vec F S1000x600 .f32) (y : S1000x600.Idx) :
    ∃ pc ∈ ([⟨ro1, p0⟩] : List (View.Piece (Elt F) S1000x600 .f32)), y ∈ pc.1.set :=
  View.cover_of_tiled [⟨ro1, p0⟩] S1000x600.size (by rfl) y

/-! ## The body's triple -/

set_option maxHeartbeats 4000000 in
/-- On whole staging buffers, the inputs' at contents `x0 … x4` and the output's at anything, the body runs to the
    continuation holding the inputs' as they were and the output's at `out1_5` of them. -/
theorem sound_kernel1 (c : Dev nD) (E : Set ℕ) (i : grid1.Coords)
    (arg1 : Memref sig .tc .vmem ZS1 .f32) (harg1 : arg1.IsWhole) (arg2 : Memref sig .tc .vmem WS1 .f32) (harg2 : arg2.IsWhole)
    (arg3 : Memref sig .tc .vmem S600 .f32) (harg3 : arg3.IsWhole) (arg4 : Memref sig .tc .vmem S600x600 .f32) (harg4 : arg4.IsWhole)
    (arg5 : Memref sig .tc .vmem S600 .f32) (harg5 : arg5.IsWhole) (arg6 : Memref sig .tc .vmem S1000x600 .f32) (harg6 : arg6.IsWhole)
    (x0 : Vec F ZS1 .f32) (x1 : Vec F WS1 .f32) (x2 : Vec F S600 .f32) (x3 : Vec F S600x600 .f32) (x4 : Vec F S600 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__gin_mlp_kernel i arg1 harg1 arg2 harg2 arg3 harg3 arg4 harg4 arg5 harg5 arg6 harg6) K := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer at its block and the output's at `out1_5` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-- An input window's current staging buffer holds its block at every point, fetched there or not: where it is not
    fetched its block index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Pool5.lean ====
/-
  Sum pooling as a pipeline region (custom_call 5): the proof data of its pipeline and the body's obligation, at a
  parameter `V`, the TensorCore's buffer contents when the region is entered.

  The grid has 15 points; point `t` stages rows `2000 t … 2000 t + 1999` of the node features (window 0) and of the
  graph ids (window 1). The kernel keeps a running sum in a scratch buffer of its own, carried from point to point:
  at point 0 it first stores zeros there; at every point it adds to the scratch the product of the one-hot matrix of
  the staged graph ids (transposed) with the staged features; at point 14 it copies the scratch to the output buffer
  (window 2, one block, written back at the last point only; at the other points the body does not touch it).
  `acc5 n` is what the scratch holds after point `n`.
-/
import proofs.«400628_j75076028334403_3_alg».proof.Proof.Gen.KernelIdeal.Launch
import proofs.«400628_j75076028334403_3_alg».proof.Proof.Gen.KernelIdeal.Skeleton
import proofs.«400628_j75076028334403_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and the running sum -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The kernel's scratch operand: a whole scoped buffer of its own. -/
abbrev scM5 : Memref sig .tc .vmem S512x600 .f32 := Memref.whole cc5_scratch0

/-- What the scratch holds after point `n`: the point's payload (the previous sum plus the point's one-hot product)
    over what the point before left, and over the zeros the body stores first at point 0. -/
def acc5 (c : Dev nD) : (n : ℕ) → n < cfg5.N → Vec F S512x600 .f32
  | 0, hn => k5_pay2 (iblk5 V c 1 ⟨0, hn⟩) (iblk5 V c 0 ⟨0, hn⟩) (k5_pay1 (F := F))
  | n + 1, hn => k5_pay2 (iblk5 V c 1 ⟨n + 1, hn⟩) (iblk5 V c 0 ⟨n + 1, hn⟩) (acc5 c n (Nat.lt_of_succ_lt hn))

theorem acc5_zero (c : Dev nD) (hn : 0 < cfg5.N) :
    acc5 V c 0 hn = k5_pay2 (iblk5 V c 1 ⟨0, hn⟩) (iblk5 V c 0 ⟨0, hn⟩) (k5_pay1 (F := F)) := rfl

theorem acc5_succ (c : Dev nD) (n : ℕ) (hn : n + 1 < cfg5.N) :
    acc5 V c (n + 1) hn = k5_pay2 (iblk5 V c 1 ⟨n + 1, hn⟩) (iblk5 V c 0 ⟨n + 1, hn⟩) (acc5 V c n (Nat.lt_of_succ_lt hn)) := rfl

/-! ## The invariant and the proof data -/

/-- The region invariant before position `n`: before the first point the scoped rest (every scoped buffer the
    pipeline does not stage, the scratch among them, at anything) and the generator register at some state; afterwards
    the scratch at what the point before left in it, the rest of the scoped rest, and the generator register. -/
def PhiS5 (c : Dev nD) : (n : ℕ) → n ≤ cfg5.N → sProp 𝕄
  | 0, _ => Pipeline.ΦA spec5 c
  | n + 1, hn => iprop(owns (c : Thread nD τ) scM5 fullShare (acc5 V c n hn)
      ∗ Pipeline.scopedRestBut (Ix := Unit) (Name := ℕ) (U := UR sig nD τ) (Lvl := ℕ) (Val := Elt F) spec5 c [cc5_scratch0]
      ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(owns (c : Thread nD τ) scM5 fullShare (acc5 V c n hn)
      ∗ Pipeline.scopedRestBut (Ix := Unit) (Name := ℕ) (U := UR sig nD τ) (Lvl := ℕ) (Val := Elt F) spec5 c [cc5_scratch0]
      ∗ (∃ r, prngReg c r)) := rfl

/-- The proof data of pipeline 5 on core `c`: the arrays as the region finds them; after the body at point `t` each
    input's buffer at its block and the output's at the running sum (it is stored there at the last point, the only
    point whose write-back moves it); the invariant carries the scratch at the running sum; nothing owed; full
    shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = acc5 V c t.val t.isLt := by dsimp only [dat5]

/-! ## The body's two branch conditions and the output window's idle points, over the grid -/

/-- The condition of the body's first branch (the reset of the running sum), from the grid coordinates. -/
abbrev cond5_0 (i : grid5.Coords) : Prop :=
  (Scalar.cmpi .ne (Scalar.extui (Scalar.cmpi .eq (BitVec.ofNat 32 (i 0).val) 0#32)) 0#32) = 1#1
/-- It holds at point 0 only. -/
theorem hcond5_0 : ∀ t : Fin cfg5.N, cond5_0 (grid5.coords t) ↔ t.val = 0 :=
  (by decide +kernel : ∀ t : Fin grid5.N, cond5_0 (grid5.coords t) ↔ t.val = 0)

/-- The condition of the body's second branch (the copy of the running sum to the output buffer). -/
abbrev cond5_1 (i : grid5.Coords) : Prop := k5_cond2 i = 1#1
/-- It holds at point 14 only. -/
theorem hcond5_1 : ∀ t : Fin cfg5.N, cond5_1 (grid5.coords t) ↔ t.val = 14 :=
  (by decide +kernel : ∀ t : Fin grid5.N, cond5_1 (grid5.coords t) ↔ t.val = 14)

/-- The two input windows are never idle. -/
theorem liveAt5_0 : ∀ t : Fin cfg5.N, cfg5.idle 0 (grid5.coords t) = false := by decide +kernel
theorem liveAt5_1 : ∀ t : Fin cfg5.N, cfg5.idle 1 (grid5.coords t) = false := by decide +kernel
/-- Where the second branch is not taken the output window is idle, -/
theorem idleAt5_2 : ∀ t : Fin cfg5.N, ¬cond5_1 (grid5.coords t) → cfg5.idle 2 (grid5.coords t) = true := by decide +kernel
/-- and its block is not written back there; -/
theorem noFlush5_2 : ∀ t : Fin cfg5.N, ¬cond5_1 (grid5.coords t) → (cfg5.win 2).flush t = false := by decide +kernel
/-- where it is taken the window is live. -/
theorem liveAt5_2 : ∀ t : Fin cfg5.N, cond5_1 (grid5.coords t) → cfg5.idle 2 (grid5.coords t) = false := by decide +kernel

/-! ## The body's accesses: every load and store takes the whole buffer -/

theorem hz5 : (![0, 0] : Fin 2 → Nat) = fun _ => 0 := funext fun a => by fin_cases a <;> rfl

/-- The whole-buffer rectangle of the running sum (and of the output buffer). -/
abbrev rs5 : Rect S512x600 := Rect.unit (s := S512x600) ![0, 0] S512x600.size inb_S512x600_S512x600_0_0

/-- A store through it, last, covers the buffer whatever the earlier stores were. -/
theorem cover5 (p0 : Vec F S512x600 .f32) (L : List (View.Piece (Elt F) S512x600 .f32)) (y : S512x600.Idx) :
    ∃ pc ∈ ((⟨rs5, p0⟩ : View.Piece (Elt F) S512x600 .f32) :: L), y ∈ pc.1.set :=
  ⟨_, List.mem_cons_self, View.mem_set_unit_zero hz5 inb_S512x600_S512x600_0_0 y⟩

/-! ## The body's triple, case by case -/

set_option maxHeartbeats 4000000 in
/-- First branch taken, second not (point 0): the running sum is reset to zeros, then gains the point's product; the output buffer is not touched. -/
theorem sound_kernel5_A (c : Dev nD) (E : Set ℕ) (i : grid5.Coords)
    (arg1 : Memref sig .tc .vmem S2000x600 .f32) (harg1 : arg1.IsWhole) (arg2 : Memref sig .tc .vmem S2000x1 .i32) (harg2 : arg2.IsWhole)
    (arg3 : Memref sig .tc .vmem S512x600 .f32) (harg3 : arg3.IsWhole) (arg4 : Memref sig .tc .vmem S512x600 .f32) (harg4 : arg4.IsWhole)
    (hc0 : cond5_0 i) (hc1 : ¬cond5_1 i)
    (x0 : Vec F S2000x600 .f32) (x1 : Vec F S2000x1 .i32) (xi : Vec F S512x600 .f32)
    (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k5_pay2 x1 x0 (k5_pay1 (F := F)))) -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_eq_canon _ _ _ (cover5 _ _), View.canon_cons_unit_zero hz5]
  simp only [View.readAt_eq_ld, View.ld_unit_zero (S := S2000x1) hz5, View.ld_unit_zero (S := S2000x600) hz5, View.ld_unit_zero (S := S512x600) hz5, View.readCov_unit_zero (S := S512x600) _ hz5]

set_option maxHeartbeats 4000000 in
/-- Neither branch taken (points 1 to 13): the running sum gains the point's product; the output buffer is not touched. -/
theorem sound_kernel5_B (c : Dev nD) (E : Set ℕ) (i : grid5.Coords)
    (arg1 : Memref sig .tc .vmem S2000x600 .f32) (harg1 : arg1.IsWhole) (arg2 : Memref sig .tc .vmem S2000x1 .i32) (harg2 : arg2.IsWhole)
    (arg3 : Memref sig .tc .vmem S512x600 .f32) (harg3 : arg3.IsWhole) (arg4 : Memref sig .tc .vmem S512x600 .f32) (harg4 : arg4.IsWhole)
    (hc0 : ¬cond5_0 i) (hc1 : ¬cond5_1 i)
    (x0 : Vec F S2000x600 .f32) (x1 : Vec F S2000x1 .i32) (xi : Vec F S512x600 .f32) (xs : Vec F S512x600 .f32)
    (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k5_pay2 x1 x0 xs)) -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover5 _ _), View.canon_cons_unit_zero hz5]
  simp only [View.readAt_eq_ld, View.ld_unit_zero (S := S2000x1) hz5, View.ld_unit_zero (S := S2000x600) hz5, View.ld_unit_zero (S := S512x600) hz5]

set_option maxHeartbeats 4000000 in
/-- Second branch taken, first not (point 14): the running sum gains the point's product and is then copied to the output buffer. -/
theorem sound_kernel5_C (c : Dev nD) (E : Set ℕ) (i : grid5.Coords)
    (arg1 : Memref sig .tc .vmem S2000x600 .f32) (harg1 : arg1.IsWhole) (arg2 : Memref sig .tc .vmem S2000x1 .i32) (harg2 : arg2.IsWhole)
    (arg3 : Memref sig .tc .vmem S512x600 .f32) (harg3 : arg3.IsWhole) (arg4 : Memref sig .tc .vmem S512x600 .f32) (harg4 : arg4.IsWhole)
    (hc0 : ¬cond5_0 i) (hc1 : cond5_1 i)
    (x0 : Vec F S2000x600 .f32) (x1 : Vec F S2000x1 .i32) (xs : Vec F S512x600 .f32)
    (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1 ∗ owns (c : Thread nD τ) arg3 fullShare (k5_pay2 x1 x0 xs)
            ∗ owns (c : Thread nD τ) arg4 fullShare (k5_pay2 x1 x0 xs)) -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (cover5 _ _), View.canon_cons_unit_zero hz5]
    simp only [View.readAt_eq_ld, View.ld_unit_zero (S := S2000x1) hz5, View.ld_unit_zero (S := S2000x600) hz5, View.ld_unit_zero (S := S512x600) hz5, View.readCov_unit_zero (S := S512x600) _ hz5]
  iexists _; isplitr
  swap; · iexact HS
  ipureintro
  sl_unfold_run_names
  rw [View.read_writes_eq_canon _ _ _ (cover5 _ _), View.canon_cons_unit_zero hz5]
  simp only [View.readAt_eq_ld, View.ld_unit_zero (S := S2000x1) hz5, View.ld_unit_zero (S := S2000x600) hz5, View.ld_unit_zero (S := S512x600) hz5, View.readCov_unit_zero (S := S512x600) _ hz5]

/-! ## The inputs' buffers hold their blocks; the running sum and the invariant at a point -/

/-- An input window's current staging buffer holds its block at every point (both are fetched at every point, and the
    body leaves the block in place). -/
theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)

/-- The running sum after point 0: the point's product over zeros. -/
theorem acc5_first (c : Dev nD) (t : Fin cfg5.N) (hz : t.val = 0) :
    acc5 V c t.val t.isLt = k5_pay2 (iblk5 V c 1 t) (iblk5 V c 0 t) (k5_pay1 (F := F)) := by
  obtain ⟨n, hn⟩ := t
  cases n with
  | zero => rfl
  | succ n => exact absurd hz (Nat.succ_ne_zero n)

/-- The running sum after a later point: the point's product over what the point before left. -/
theorem acc5_later (c : Dev nD) (t : Fin cfg5.N) (hz : t.val ≠ 0) :
    acc5 V c t.val t.isLt
      = k5_pay2 (iblk5 V c 1 t) (iblk5 V c 0 t) (acc5 V c (t.val - 1) (Nat.lt_of_le_of_lt (Nat.sub_le _ _) t.isLt)) := by
  obtain ⟨n, hn⟩ := t
  cases n with
  | zero => exact absurd rfl hz
  | succ n => rfl

/-- Before a point that is not the first: the scratch at what the point before left. -/
theorem PhiS5_pos (c : Dev nD) (n : ℕ) (h : n ≤ cfg5.N) (hz : n ≠ 0) :
    PhiS5 V c n h = iprop(owns (c : Thread nD τ) scM5 fullShare (acc5 V c (n - 1) (by omega))
      ∗ Pipeline.scopedRestBut (Ix := Unit) (Name := ℕ) (U := UR sig nD τ) (Lvl := ℕ) (Val := Elt F) spec5 c [cc5_scratch0]
      ∗ (∃ r, prngReg c r)) := by
  cases n with
  | zero => exact absurd rfl hz
  | succ n => rfl

/-- The invariant at a point's start, restated at the point's number. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the launch hands the region, with the scratch as a memref owned at some contents. -/
theorem PhiA5_eq (c : Dev nD) :
    (Pipeline.ΦA spec5 c : sProp 𝕄)
      = iprop(iprop(iprop((∃ d, owns (c : Thread nD τ) scM5 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4000000 in
/-- The body at any point: the inputs' buffers hold their blocks; the point's number says which case it is in; the
    invariant hands the body the scratch (at anything at point 0, at what the point before left afterwards) and takes
    it back at the running sum; the output buffer is handed back untouched except at point 14, where it receives the
    running sum; the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (st5_0 t) fullShare ((dat5 V c).after 0 t) from by
    unfold Dat.leavesExact; rw [liveAt5_0 t], after5_0]
  rw [show (dat5 V c).leavesExact 1 t = owns (c : Thread nD τ) (st5_1 t) fullShare ((dat5 V c).after 1 t) from by
    unfold Dat.leavesExact; rw [liveAt5_1 t], after5_1]
  have hN : t.val < 15 := lt_of_lt_of_eq t.isLt (show cfg5.N = 15 from N_5)
  by_cases h1 : t.val = 14
  · have hz : t.val ≠ 0 := by omega
    have hc0 : ¬cond5_0 (grid5.coords t) := fun h => hz ((hcond5_0 t).mp h)
    have hc1 : cond5_1 (grid5.coords t) := (hcond5_1 t).mpr h1
    rw [show (dat5 V c).leavesExact 2 t = owns (c : Thread nD τ) (st5_2 t) fullShare ((dat5 V c).after 2 t) from by
      unfold Dat.leavesExact; rw [liveAt5_2 t hc1], after5_2]
    rw [PhiS5_castSucc V c t, PhiS5_pos V c _ _ hz, acc5_later V c t hz]
    iintro ⟨⟨HS, HR, Hg⟩, Ho, ⟨%d0, H0⟩, ⟨%d1, H1⟩, ⟨%d2, H2⟩⟩
    iapply (sound_kernel5_C c Set.univ (grid5.coords t) _ _ _ _ _ _ _ _ hc0 hc1 (iblk5 V c 0 t) (iblk5 V c 1 t)
      (acc5 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · have hc1 : ¬cond5_1 (grid5.coords t) := fun h => h1 ((hcond5_1 t).mp h)
    rw [Dat.leavesExact_idle (dat5 V c) 2 t (idleAt5_2 t hc1) (noFlush5_2 t hc1)]
    by_cases hz : t.val = 0
    · have hc0 : cond5_0 (grid5.coords t) := (hcond5_0 t).mpr hz
      rw [PhiS5_castSucc V c t, PhiS5_zero V c _ _ hz, PhiA5_eq, acc5_first V c t hz]
      iintro ⟨⟨⟨HS, HR⟩, Hg⟩, Ho, ⟨%d0, H0⟩, ⟨%d1, H1⟩, ⟨%d2, H2⟩⟩
      iapply (sound_kernel5_A c Set.univ (grid5.coords t) _ _ _ _ _ _ _ _ hc0 hc1 (iblk5 V c 0 t) (iblk5 V c 1 t)
        ((dat5 V c).before 2 t d2) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · have hc0 : ¬cond5_0 (grid5.coords t) := fun h => hz ((hcond5_0 t).mp h)
      rw [PhiS5_castSucc V c t, PhiS5_pos V c _ _ hz, acc5_later V c t hz]
      iintro ⟨⟨HS, HR, Hg⟩, Ho, ⟨%d0, H0⟩, ⟨%d1, H1⟩, ⟨%d2, H2⟩⟩
      iapply (sound_kernel5_B c Set.univ (grid5.coords t) _ _ _ _ _ _ _ _ hc0 hc1 (iblk5 V c 0 t) (iblk5 V c 1 t)
        ((dat5 V c).before 2 t d2) (acc5 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-! ## The body obligation and the invariant's two ends -/

/-- The library's body obligation, at every point: at point 0 the body stores zeros into the scratch and adds the
    point's product; at the later points it adds the point's product to what the point before left; at point 14 it
    also copies the scratch to the output buffer; elsewhere the output buffer is handed back untouched. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the scoped rest and the generator register back: the scratch's named
    contents are forgotten. -/
theorem hout5 (c : Dev nD) : (dat5 V c).Φ (Fin.last cfg5.N) ⊢ (Pipeline.ΦA spec5 c : sProp 𝕄) := by
  have hne : (Fin.last cfg5.N).val ≠ 0 := by rw [Fin.val_last]; have : cfg5.N = 15 := N_5; omega
  rw [show (dat5 V c).Φ (Fin.last cfg5.N) = PhiS5 V c (Fin.last cfg5.N).val (Nat.le_of_lt_succ (Fin.last cfg5.N).isLt) from rfl,
    PhiS5_pos V c _ _ hne, PhiA5_eq]
  iintro ⟨HS, HR, Hg⟩
  isplitl [HS HR]
  · isplitl [HS]
    · iexists _; iexact HS
    iexact HR
  iexact Hg

end Cert.KernelIdeal.Hand

end
-- ==== Proof.KI.Cls6.lean ====
/-
  The classifier as a pipeline region (custom_call 6): the body at its one grid point, and the proof data of its
  pipeline, at a parameter `V`, the TensorCore's buffer contents when the region is entered.

  The grid has one point; it stages the pooled features (window 0), the three weight matrices and the three bias rows
  whole (windows 1 to 6), and writes back the whole result (window 7). The body loads the seven input buffers, loads
  the output buffer (a value it never uses) and stores ONE payload over the whole output buffer, so what the output
  buffer holds after the body is that payload of the seven input blocks, whatever it held before.
-/
import proofs.«400628_j75076028334403_3_alg».proof.Proof.Gen.KernelIdeal.Launch
import proofs.«400628_j75076028334403_3_alg».proof.Proof.Gen.KernelIdeal.Skeleton
import proofs.«400628_j75076028334403_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body's accesses: every load and the one store take the whole buffer -/

abbrev rf6 : Rect S512x600 := Rect.unit (s := S512x600) ![0, 0] S512x600.size inb_S512x600_S512x600_0_0
abbrev rwa6 : Rect S600x256 := Rect.unit (s := S600x256) ![0, 0] S600x256.size inb_S600x256_S600x256_0_0
abbrev rba6 : Rect S256 := Rect.unit (s := S256) ![0] S256.size inb_S256_S256_0
abbrev rwb6 : Rect S256x256 := Rect.unit (s := S256x256) ![0, 0] S256x256.size inb_S256x256_S256x256_0_0
abbrev rbb6 : Rect S256 := Rect.unit (s := S256) ![0] S256.size inb_S256_S256_0
abbrev rwc6 : Rect S256x128 := Rect.unit (s := S256x128) ![0, 0] S256x128.size inb_S256x128_S256x128_0_0
abbrev rbc6 : Rect S128 := Rect.unit (s := S128) ![0] S128.size inb_S128_S128_0
abbrev ro6 : Rect S512x128 := Rect.unit (s := S512x128) ![0, 0] S512x128.size inb_S512x128_S512x128_0_0

/-- The output buffer after the body, from the seven input blocks: its one store, over the whole buffer. -/
def out6_7 (x0 : Vec F S512x600 .f32) (x1 : Vec F S600x256 .f32) (x2 : Vec F S256 .f32) (x3 : Vec F S256x256 .f32) (x4 : Vec F S256 .f32) (x5 : Vec F S256x128 .f32) (x6 : Vec F S128 .f32) : Vec F S512x128 .f32 :=
  View.canon [⟨ro6, k6_pay1 (View.ld x0 rf6) (View.ld x1 rwa6) (View.ld x2 rba6) (View.ld x3 rwb6) (View.ld x4 rbb6) (View.ld x5 rwc6) (View.ld x6 rbc6)⟩]

/-- The one store covers the buffer. -/
theorem cover6_7 (p0 : Vec F S512x128 .f32) (y : S512x128.Idx) :
    ∃ pc ∈ ([⟨ro6, p0⟩] : List (View.Piece (Elt F) S512x128 .f32)), y ∈ pc.1.set :=
  View.cover_of_tiled [⟨ro6, p0⟩] S512x128.size (by rfl) y

/-! ## The body's triple -/

set_option maxHeartbeats 4000000 in
/-- On whole staging buffers, the inputs' at contents `x0 … x6` and the output's at anything, the body runs to the
    continuation holding the inputs' as they were and the output's at `out6_7` of them. -/
theorem sound_kernel6 (c : Dev nD) (E : Set ℕ) (i : grid6.Coords)
    (arg1 : Memref sig .tc .vmem S512x600 .f32) (harg1 : arg1.IsWhole) (arg2 : Memref sig .tc .vmem S600x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S512x128 .f32) (harg8 : arg8.IsWhole)
    (x0 : Vec F S512x600 .f32) (x1 : Vec F S600x256 .f32) (x2 : Vec F S256 .f32) (x3 : Vec F S256x256 .f32) (x4 : Vec F S256 .f32) (x5 : Vec F S256x128 .f32) (x6 : Vec F S128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out6_7 x0 x1 x2 x3 x4 x5 x6)) -∗ K ⟨⟩))
      ⊢ wp frame (wpE (defs₀ (F := F)) Variants.none c none) E (cc6__classifier_kernel i arg1 harg1 arg2 harg2 arg3 harg3 arg4 harg4 arg5 harg5 arg6 harg6 arg7 harg7 arg8 harg8) K := by
  simp only [cc6__classifier_kernel_eq_skeleton]; unfold cc6__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The pipeline's proof data -/

/-- The proof data of pipeline 6 on core `c`: the arrays as the region finds them; after the body each input's
    buffer at its block and the output's at `out6_7` of the input blocks; the invariant is the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) :
    (dat6 V c).after 7 t = out6_7 (iblk6 V c 0 t) (iblk6 V c 1 t) (iblk6 V c 2 t) (iblk6 V c 3 t) (iblk6 V c 4 t) (iblk6 V c 5 t) (iblk6 V c 6 t) := by
  dsimp only [dat6]

/-- An input window's current staging buffer holds its block at the point: it is fetched there. -/
theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)
theorem before6_4 (c : Dev nD) (t : Fin cfg6.N) (d) : (dat6 V c).before 4 t d = iblk6 V c 4 t :=
  ((dat6 V c).before_in_eq_fetched 4 rfl (fun _ => rfl) (fun _ _ _ => rfl)
    (fun t => by rw [after6_4]; unfold Dat.blockOf iblk6; rw [A_eq6]; try rfl) t d).trans
    (by unfold Dat.fetched Dat.blockOf iblk6; rw [A_eq6]; try rfl)
theorem before6_5 (c : Dev nD) (t : Fin cfg6.N) (d) : (dat6 V c).before 5 t d = iblk6 V c 5 t :=
  ((dat6 V c).before_in_eq_fetched 5 rfl (fun _ => rfl) (fun _ _ _ => rfl)
    (fun t => by rw [after6_5]; unfold Dat.blockOf iblk6; rw [A_eq6]; try rfl) t d).trans
    (by unfold Dat.fetched Dat.blockOf iblk6; rw [A_eq6]; try rfl)
theorem before6_6 (c : Dev nD) (t : Fin cfg6.N) (d) : (dat6 V c).before 6 t d = iblk6 V c 6 t :=
  ((dat6 V c).before_in_eq_fetched 6 rfl (fun _ => rfl) (fun _ _ _ => rfl)
    (fun t => by rw [after6_6]; unfold Dat.blockOf iblk6; rw [A_eq6]; try rfl) t d).trans
    (by unfold Dat.fetched Dat.blockOf iblk6; rw [A_eq6]; try rfl)

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at the point: the inputs' buffers hold their blocks, so the body's triple applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Fold.lean ====
/-
  The contents of the TensorCore's unscoped buffers at every boundary between two items of @main, as a fold from the
  launch memory: a stretch of host operations applies them in order; a kernel region leaves in its windows' arrays what
  its pipeline's write-backs leave (the inputs as entered, the output's blocks as the body left them) and every other
  buffer as entered. `W0` is the launch memory, `W13` the contents when @main returns.
-/
import proofs.«400628_j75076028334403_3_alg».proof.Proof.KI.Mlp0
import proofs.«400628_j75076028334403_3_alg».proof.Proof.KI.Mlp1
import proofs.«400628_j75076028334403_3_alg».proof.Proof.KI.Mlp2
import proofs.«400628_j75076028334403_3_alg».proof.Proof.KI.Mlp3
import proofs.«400628_j75076028334403_3_alg».proof.Proof.KI.Mlp4
import proofs.«400628_j75076028334403_3_alg».proof.Proof.KI.Pool5
import proofs.«400628_j75076028334403_3_alg».proof.Proof.KI.Cls6

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Core `c`'s buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
/-- At region 0's exit each of its arrays holds what the pipeline leaves and every other buffer what it held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host stretch `hostOps1`. -/
abbrev W3 : Dev nD → Valuation τ sig (Elt F) := fun c => StableHlo.after hostOps1 (W2 m c)
/-- The same read at the TensorCore's references. -/
abbrev V3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
/-- At region 1's exit each of its arrays holds what the pipeline leaves and every other buffer what it held at entry. -/
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the host stretch `hostOps2`. -/
abbrev W5 : Dev nD → Valuation τ sig (Elt F) := fun c => StableHlo.after hostOps2 (W4 m c)
/-- The same read at the TensorCore's references. -/
abbrev V5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
/-- At region 2's exit each of its arrays holds what the pipeline leaves and every other buffer what it held at entry. -/
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After the host stretch `hostOps3`. -/
abbrev W7 : Dev nD → Valuation τ sig (Elt F) := fun c => StableHlo.after hostOps3 (W6 m c)
/-- The same read at the TensorCore's references. -/
abbrev V7 : (c : Dev nD) → (b : Ref sig .tc) → Buf (Elt F) ((c : Thread nD τ).loc b) := fun c b => W7 m c b
/-- At region 3's exit: its arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same read at the TensorCore's references. -/
abbrev V8 : (c : Dev nD) → (b : Ref sig .tc) → Buf (Elt F) ((c : Thread nD τ).loc b) := fun c b => W8 m c b
/-- At region 3's exit each of its arrays holds what the pipeline leaves and every other buffer what it held at entry. -/
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- After the host stretch `hostOps4`. -/
abbrev W9 : Dev nD → Valuation τ sig (Elt F) := fun c => StableHlo.after hostOps4 (W8 m c)
/-- The same read at the TensorCore's references. -/
abbrev V9 : (c : Dev nD) → (b : Ref sig .tc) → Buf (Elt F) ((c : Thread nD τ).loc b) := fun c b => W9 m c b
/-- At region 4's exit: its arrays at what the pipeline leaves, every other buffer as entered. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- The same read at the TensorCore's references. -/
abbrev V10 : (c : Dev nD) → (b : Ref sig .tc) → Buf (Elt F) ((c : Thread nD τ).loc b) := fun c b => W10 m c b
/-- At region 4's exit each of its arrays holds what the pipeline leaves and every other buffer what it held at entry. -/
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)
/-- After the host stretch `hostOps5`. -/
abbrev W11 : Dev nD → Valuation τ sig (Elt F) := fun c => StableHlo.after hostOps5 (W10 m c)
/-- The same read at the TensorCore's references. -/
abbrev V11 : (c : Dev nD) → (b : Ref sig .tc) → Buf (Elt F) ((c : Thread nD τ).loc b) := fun c b => W11 m c b
/-- At region 5's exit: its arrays at what the pipeline leaves, every other buffer as entered. -/
def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
/-- The same read at the TensorCore's references. -/
abbrev V12 : (c : Dev nD) → (b : Ref sig .tc) → Buf (Elt F) ((c : Thread nD τ).loc b) := fun c b => W12 m c b
/-- At region 5's exit each of its arrays holds what the pipeline leaves and every other buffer what it held at entry. -/
theorem hF5 (c : Dev nD) (w : Fin cfg5.W) : (dat5 (V11 m) c).arrAt w cfg5.N = V12 m c (Pipeline.arrRef spec5 w) :=
  (W12_arr m c w).symm
theorem hrest5 (c : Dev nD) : ∀ b, b ∉ Finset.univ.image (Pipeline.arrRef spec5) → V12 m c b = V11 m c b :=
  fun b hb => W12_of_ne m c b fun w e => hb (Finset.mem_image.mpr ⟨w, Finset.mem_univ _, e⟩)
/-- At region 6's exit: its arrays at what the pipeline leaves, every other buffer as entered. -/
def W13 (c : Dev nD) : Valuation τ sig (Elt F) :=
  Pipeline.withArrays spec6 c (W12 m c) fun w => (dat6 (V12 m) c).arrAt w cfg6.N
theorem W13_arr (c : Dev nD) (w : Fin cfg6.W) :
    W13 m c (Proc.devRef .tc (Pipeline.arrRef spec6 w)) = (dat6 (V12 m) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m c (Proc.devRef .tc b) = W12 m c (Proc.devRef .tc b) := by
  unfold W13; exact Pipeline.withArrays_of_ne spec6 c _ _ b hb
/-- The same read at the TensorCore's references. -/
abbrev V13 : (c : Dev nD) → (b : Ref sig .tc) → Buf (Elt F) ((c : Thread nD τ).loc b) := fun c b => W13 m c b
/-- At region 6's exit each of its arrays holds what the pipeline leaves and every other buffer what it held at entry. -/
theorem hF6 (c : Dev nD) (w : Fin cfg6.W) : (dat6 (V12 m) c).arrAt w cfg6.N = V13 m c (Pipeline.arrRef spec6 w) :=
  (W13_arr m c w).symm
theorem hrest6 (c : Dev nD) : ∀ b, b ∉ Finset.univ.image (Pipeline.arrRef spec6) → V13 m c b = V12 m c b :=
  fun b hb => W13_of_ne m c b fun w e => hb (Finset.mem_image.mpr ⟨w, Finset.mem_univ _, e⟩)

end Cert.KernelIdeal.Hand

end
-- ==== Proof.KI.Run.lean ====
/-
  The run of @main: seven kernel regions among six stretches of host operations. From any memory with zero counters
  every weakly fair execution on the TensorCores terminates, nothing faulting; the result buffer ends at what the fold
  of the buffer contents through @main computes (`W13`), and every argument array ends as launched: no host operation
  and no region writes one.

  Each host stretch is a segment that applies its operations to the unscoped buffers; each region is a segment entered
  from every unscoped buffer at the boundary's contents: its windows' arrays are split out of the unscoped buffers and
  put back at what the write-backs leave, the generator register and the scoped rest go into the region's invariant
  and come back, nothing is owed to another core, and no kernel has a semaphore of its own.
-/
import proofs.«400628_j75076028334403_3_alg».proof.Proof.KI.Fold
import proofs.«400628_j75076028334403_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at the contents its region is entered from. -/
def pdats : (p : Fin 7) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
  | ⟨6, _⟩ => fun c => dat6 (V12 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W13`, the generator
    register at some state. -/
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and
    comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the invariant and
    comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split
    out of the unscoped buffers and put back at the exit contents; the generator register goes into the invariant and
    comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split
    out of the unscoped buffers and put back at the exit contents; the generator register goes into the invariant and
    comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split
    out of the unscoped buffers and put back at the exit contents; the generator register goes into the invariant and
    comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (V11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (V11 m) c).Φ 0 from rfl]
    iintro ⟨Hp, -, Hr⟩
    iapply (hin5 (V11 m) c)
    unfold Pipeline.ΦA
    isplitl [Hr]; · iexact Hr
    iexact Hp
  hout c := by
    rw [Pipeline.ownSems0_none, show (pdats m 5 c).Φ (Fin.last _) = (dat5 (V11 m) c).Φ (Fin.last cfg5.N) from rfl]
    iintro H
    ihave H' := (hout5 (V11 m) c) $$ H
    unfold Pipeline.ΦA
    icases H' with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V11 m c) (V12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W12`, left at `W13`. Its arrays are split
    out of the unscoped buffers and put back at the exit contents; the generator register goes into the invariant and
    comes back; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V12 m) c).loose
  hwaits := Pipeline.hwaits_of_owed_zero _ _ _ _ L lv 6 fun _ _ => rfl
  pre c := iprop(StableHlo.held (c : Thread nD τ) (Pipeline.ucRefs τ sig) (W12 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V12 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V12 m c) (V13 m c) ((pdats m 6 c).arrAt · cfg6.N) (hF6 m c) (hrest6 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 13 segments in order: a host segment per stretch from its boundary's contents, a region per kernel call;
    region 6 is entered straight from region 5's exit. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .region (reg6 m) ]
/-- @main is the run of the segments. -/
theorem main_run (c : Dev nD) : main (F := F) c = Pipeline.Seg.run (segs m) := (main_chain c).trans (by chain_rfl)

/-! ## The arguments end as launched

No host operation and no region writes an argument (a region reads it through an input window or does not touch it), so
the fold at an argument's buffer walks back to the launch memory. -/

/-- A buffer that no host stretch from the second on writes and that is no array of regions 1 to 5 holds at region 5's
    exit what it held at region 0's. -/
theorem W12_of_W2 (c : Dev nD) (r : Ref sig .tc)
    (h1 : r ∉ hostOps1_W) (a1 : ∀ w, Pipeline.arrRef spec1 w ≠ r)
    (h2 : r ∉ hostOps2_W) (a2 : ∀ w, Pipeline.arrRef spec2 w ≠ r)
    (h3 : r ∉ hostOps3_W) (a3 : ∀ w, Pipeline.arrRef spec3 w ≠ r)
    (h4 : r ∉ hostOps4_W) (a4 : ∀ w, Pipeline.arrRef spec4 w ≠ r)
    (h5 : r ∉ hostOps5_W) (a5 : ∀ w, Pipeline.arrRef spec5 w ≠ r) :
    W12 m c (Proc.devRef .tc r) = W2 m c (Proc.devRef .tc r) :=
  (W12_of_ne m c r a5).trans <| (StableHlo.after_of_writes_sub hostOps5 _ hostOps5_writes h5).trans <|
  (W10_of_ne m c r a4).trans <| (StableHlo.after_of_writes_sub hostOps4 _ hostOps4_writes h4).trans <|
  (W8_of_ne m c r a3).trans <| (StableHlo.after_of_writes_sub hostOps3 _ hostOps3_writes h3).trans <|
  (W6_of_ne m c r a2).trans <| (StableHlo.after_of_writes_sub hostOps2 _ hostOps2_writes h2).trans <|
  (W4_of_ne m c r a1).trans (StableHlo.after_of_writes_sub hostOps1 _ hostOps1_writes h1)
/-- The first host stretch leaves a buffer it does not write at the launch contents. -/
theorem W1_of_W0 (c : Dev nD) (r : Ref sig .tc) (h0 : r ∉ hostOps0_W) :
    W1 m c (Proc.devRef .tc r) = m ((c : Thread nD τ).loc r) :=
  (StableHlo.after_of_writes_sub hostOps0 _ hostOps0_writes h0).trans rfl
/-- Region 0 leaves an input window's array as entered. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))
/-- Region 6 leaves an input window's array as entered. -/
theorem W13_in (c : Dev nD) (w : Fin cfg6.W) (hin : (cfg6.win w).isOut = false) :
    W13 m c (Proc.devRef .tc (Pipeline.arrRef spec6 w)) = W12 m c (Proc.devRef .tc (Pipeline.arrRef spec6 w)) :=
  (W13_arr m c w).trans (((dat6 (V12 m) c).arrAt_in w hin _).trans (A_eq6 (V12 m) c w))
theorem W13_main_arg0 (c : Dev nD) : W13 m c (Proc.devRef .tc main_arg0) = m ((c : Thread nD τ).loc main_arg0) :=
  (W13_of_ne m c main_arg0 (by decide)).trans <| (W12_of_W2 m c main_arg0 (by decide) (by decide) (by decide) (by decide) (by decide) (by decide) (by decide) (by decide) (by decide) (by decide)).trans <|
  (W2_of_ne m c main_arg0 (by decide)).trans (W1_of_W0 m c main_arg0 (by decide))
theorem W13_main_arg1 (c : Dev nD) : W13 m c (Proc.devRef .tc main_arg1) = m ((c : Thread nD τ).loc main_arg1) :=
  (W13_of_ne m c main_arg1 (by decide)).trans <| (W12_of_W2 m c main_arg1 (by decide) (by decide) (by decide) (by decide) (by decide) (by decide) (by decide) (by decide) (by decide) (by decide)).trans <|
  (W2_of_ne m c main_arg1 (by decide)).trans (W1_of_W0 m c main_arg1 (by decide))
theorem W13_main_arg2 (c : Dev nD) : W13 m c (Proc.devRef .tc main_arg2) = m ((c : Thread nD τ).loc main_arg2) :=
  (W13_of_ne m c main_arg2 (by decide)).trans <| (W12_of_W2 m c main_arg2 (by decide) (by decide) (by decide) (by decide) (by decide) (by decide) (by decide) (by decide) (by decide) (by decide)).trans <|
  (W2_of_ne m c main_arg2 (by decide)).trans (W1_of_W0 m c main_arg2 (by decide))
theorem W13_main_arg3 (c : Dev nD) : W13 m c (Proc.devRef .tc main_arg3) = m ((c : Thread nD τ).loc main_arg3) :=
  (W13_of_ne m c main_arg3 (by decide)).trans <| (W12_of_W2 m c main_arg3 (by decide) (by decide) (by decide) (by decide) (by decide) (by decide) (by decide) (by decide) (by decide) (by decide)).trans <|
  (W2_in m c 1 rfl).trans (W1_of_W0 m c main_arg3 (by decide))
theorem W13_main_arg4 (c : Dev nD) : W13 m c (Proc.devRef .tc main_arg4) = m ((c : Thread nD τ).loc main_arg4) :=
  (W13_of_ne m c main_arg4 (by decide)).trans <| (W12_of_W2 m c main_arg4 (by decide) (by decide) (by decide) (by decide) (by decide) (by decide) (by decide) (by decide) (by decide) (by decide)).trans <|
  (W2_in m c 2 rfl).trans (W1_of_W0 m c main_arg4 (by decide))
theorem W13_main_arg5 (c : Dev nD) : W13 m c (Proc.devRef .tc main_arg5) = m ((c : Thread nD τ).loc main_arg5) :=
  (W13_of_ne m c main_arg5 (by decide)).trans <| (W12_of_W2 m c main_arg5 (by decide) (by decide) (by decide) (by decide) (by decide) (by decide) (by decide) (by decide) (by decide) (by decide)).trans <|
  (W2_in m c 3 rfl).trans (W1_of_W0 m c main_arg5 (by decide))
theorem W13_main_arg6 (c : Dev nD) : W13 m c (Proc.devRef .tc main_arg6) = m ((c : Thread nD τ).loc main_arg6) :=
  (W13_of_ne m c main_arg6 (by decide)).trans <| (W12_of_W2 m c main_arg6 (by decide) (by decide) (by decide) (by decide) (by decide) (by decide) (by decide) (by decide) (by decide) (by decide)).trans <|
  (W2_in m c 4 rfl).trans (W1_of_W0 m c main_arg6 (by decide))
theorem W13_main_arg7 (c : Dev nD) : W13 m c (Proc.devRef .tc main_arg7) = m ((c : Thread nD τ).loc main_arg7) :=
  (W13_of_ne m c main_arg7 (by decide)).trans <| (W12_of_W2 m c main_arg7 (by decide) (by decide) (by decide) (by decide) (by decide) (by decide) (by decide) (by decide) (by decide) (by decide)).trans <|
  (W2_of_ne m c main_arg7 (by decide)).trans (W1_of_W0 m c main_arg7 (by decide))
theorem W13_main_arg8 (c : Dev nD) : W13 m c (Proc.devRef .tc main_arg8) = m ((c : Thread nD τ).loc main_arg8) :=
  (W13_of_ne m c main_arg8 (by decide)).trans <| (W12_of_W2 m c main_arg8 (by decide) (by decide) (by decide) (by decide) (by decide) (by decide) (by decide) (by decide) (by decide) (by decide)).trans <|
  (W2_of_ne m c main_arg8 (by decide)).trans (W1_of_W0 m c main_arg8 (by decide))
theorem W13_main_arg9 (c : Dev nD) : W13 m c (Proc.devRef .tc main_arg9) = m ((c : Thread nD τ).loc main_arg9) :=
  (W13_of_ne m c main_arg9 (by decide)).trans <| (W12_of_W2 m c main_arg9 (by decide) (by decide) (by decide) (by decide) (by decide) (by decide) (by decide) (by decide) (by decide) (by decide)).trans <|
  (W2_of_ne m c main_arg9 (by decide)).trans (W1_of_W0 m c main_arg9 (by decide))
theorem W13_main_arg10 (c : Dev nD) : W13 m c (Proc.devRef .tc main_arg10) = m ((c : Thread nD τ).loc main_arg10) :=
  (W13_of_ne m c main_arg10 (by decide)).trans <| (W12_of_W2 m c main_arg10 (by decide) (by decide) (by decide) (by decide) (by decide) (by decide) (by decide) (by decide) (by decide) (by decide)).trans <|
  (W2_of_ne m c main_arg10 (by decide)).trans (W1_of_W0 m c main_arg10 (by decide))
theorem W13_main_arg11 (c : Dev nD) : W13 m c (Proc.devRef .tc main_arg11) = m ((c : Thread nD τ).loc main_arg11) :=
  (W13_in m c 1 rfl).trans <| (W12_of_W2 m c main_arg11 (by decide) (by decide) (by decide) (by decide) (by decide) (by decide) (by decide) (by decide) (by decide) (by decide)).trans <|
  (W2_of_ne m c main_arg11 (by decide)).trans (W1_of_W0 m c main_arg11 (by decide))
theorem W13_main_arg12 (c : Dev nD) : W13 m c (Proc.devRef .tc main_arg12) = m ((c : Thread nD τ).loc main_arg12) :=
  (W13_in m c 2 rfl).trans <| (W12_of_W2 m c main_arg12 (by decide) (by decide) (by decide) (by decide) (by decide) (by decide) (by decide) (by decide) (by decide) (by decide)).trans <|
  (W2_of_ne m c main_arg12 (by decide)).trans (W1_of_W0 m c main_arg12 (by decide))
theorem W13_main_arg13 (c : Dev nD) : W13 m c (Proc.devRef .tc main_arg13) = m ((c : Thread nD τ).loc main_arg13) :=
  (W13_in m c 3 rfl).trans <| (W12_of_W2 m c main_arg13 (by decide) (by decide) (by decide) (by decide) (by decide) (by decide) (by decide) (by decide) (by decide) (by decide)).trans <|
  (W2_of_ne m c main_arg13 (by decide)).trans (W1_of_W0 m c main_arg13 (by decide))
theorem W13_main_arg14 (c : Dev nD) : W13 m c (Proc.devRef .tc main_arg14) = m ((c : Thread nD τ).loc main_arg14) :=
  (W13_in m c 4 rfl).trans <| (W12_of_W2 m c main_arg14 (by decide) (by decide) (by decide) (by decide) (by decide) (by decide) (by decide) (by decide) (by decide) (by decide)).trans <|
  (W2_of_ne m c main_arg14 (by decide)).trans (W1_of_W0 m c main_arg14 (by decide))
theorem W13_main_arg15 (c : Dev nD) : W13 m c (Proc.devRef .tc main_arg15) = m ((c : Thread nD τ).loc main_arg15) :=
  (W13_in m c 5 rfl).trans <| (W12_of_W2 m c main_arg15 (by decide) (by decide) (by decide) (by decide) (by decide) (by decide) (by decide) (by decide) (by decide) (by decide)).trans <|
  (W2_of_ne m c main_arg15 (by decide)).trans (W1_of_W0 m c main_arg15 (by decide))
theorem W13_main_arg16 (c : Dev nD) : W13 m c (Proc.devRef .tc main_arg16) = m ((c : Thread nD τ).loc main_arg16) :=
  (W13_in m c 6 rfl).trans <| (W12_of_W2 m c main_arg16 (by decide) (by decide) (by decide) (by decide) (by decide) (by decide) (by decide) (by decide) (by decide) (by decide)).trans <|
  (W2_of_ne m c main_arg16 (by decide)).trans (W1_of_W0 m c main_arg16 (by decide))

set_option backward.isDefEq.respectTransparency.types false in
/-- THE RUN: @main terminates from `m` with zero counters; the result is the fold's last contents of `main_v113`, and
    the seventeen arguments are unchanged. -/
theorem run : θ_run defs (onTc (τ := τ) (main (F := F))) ⟨m, fun _ => 0, ρ⟩ (fun r => ∀ c : Dev nD,
      r.2.mem ((c.tc : Thread nD τ).loc main_v113) = W13 m c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c =>
      ⟨h c _ (mem_uc main_v113 (by decide)),
       (h c _ (mem_uc main_arg0 (by decide))).trans (W13_main_arg0 m c),
       (h c _ (mem_uc main_arg1 (by decide))).trans (W13_main_arg1 m c),
       (h c _ (mem_uc main_arg2 (by decide))).trans (W13_main_arg2 m c),
       (h c _ (mem_uc main_arg3 (by decide))).trans (W13_main_arg3 m c),
       (h c _ (mem_uc main_arg4 (by decide))).trans (W13_main_arg4 m c),
       (h c _ (mem_uc main_arg5 (by decide))).trans (W13_main_arg5 m c),
       (h c _ (mem_uc main_arg6 (by decide))).trans (W13_main_arg6 m c),
       (h c _ (mem_uc main_arg7 (by decide))).trans (W13_main_arg7 m c),
       (h c _ (mem_uc main_arg8 (by decide))).trans (W13_main_arg8 m c),
       (h c _ (mem_uc main_arg9 (by decide))).trans (W13_main_arg9 m c),
       (h c _ (mem_uc main_arg10 (by decide))).trans (W13_main_arg10 m c),
       (h c _ (mem_uc main_arg11 (by decide))).trans (W13_main_arg11 m c),
       (h c _ (mem_uc main_arg12 (by decide))).trans (W13_main_arg12 m c),
       (h c _ (mem_uc main_arg13 (by decide))).trans (W13_main_arg13 m c),
       (h c _ (mem_uc main_arg14 (by decide))).trans (W13_main_arg14 m c),
       (h c _ (mem_uc main_arg15 (by decide))).trans (W13_main_arg15 m c),
       (h c _ (mem_uc main_arg16 (by decide))).trans (W13_main_arg16 m c)⟩)

end Cert.KernelIdeal.Hand

end
-- ==== Proof.KI.Keep.lean ====
/-
  What the items of @main leave alone. A stretch of host operations changes only the buffers its operations write; a
  kernel region changes only its result array (an input array is read through its window and never written back).
  So the seventeen arguments reach every boundary, and the end, as launched, and the two index rows the first host
  stretch computes reach every later stretch as computed.
-/
import proofs.«400628_j75076028334403_3_alg».proof.Proof.KI.Fold
import proofs.«400628_j75076028334403_3_alg».proof.Proof.Gen.KernelIdeal.Regions

set_option maxRecDepth 16384

noncomputable section

namespace Cert.KernelIdeal.Hand

open Cert.KernelIdeal
open Idealize.ShloMosaic Idealize.ShloMosaic.TcCoe Idealize.ShloMosaic.StableHlo
open Idealize.SL Idealize.SL.Sem
open Idealize.ShloMosaic.Pipeline (Dat)
open Cert.KernelIdeal.Gen (hostOps0 hostOps1 hostOps2 hostOps3 hostOps4 hostOps5 launch0 launch1 launch2 launch3 launch4 launch5 launch6)

local notation "B" => Proc.devRef (τ := τ) (sig := sig) Proc.tc

variable {F : FTy → Type} [FloatOps F]

variable (m : (ℓ : Loc nD τ sig) → Buf (Elt F) ℓ)

/-! ## What an item of @main leaves alone -/

theorem W1_of (c : Dev nD) (r : Ref sig .tc) (h : r ∉ Gen.hostOps0_W) : W1 m c (B r) = W0 m c (B r) :=
  StableHlo.after_of_writes_sub hostOps0 _ Gen.hostOps0_writes h
theorem W3_of (c : Dev nD) (r : Ref sig .tc) (h : r ∉ Gen.hostOps1_W) : W3 m c (B r) = W2 m c (B r) :=
  StableHlo.after_of_writes_sub hostOps1 _ Gen.hostOps1_writes h
theorem W5_of (c : Dev nD) (r : Ref sig .tc) (h : r ∉ Gen.hostOps2_W) : W5 m c (B r) = W4 m c (B r) :=
  StableHlo.after_of_writes_sub hostOps2 _ Gen.hostOps2_writes h
theorem W7_of (c : Dev nD) (r : Ref sig .tc) (h : r ∉ Gen.hostOps3_W) : W7 m c (B r) = W6 m c (B r) :=
  StableHlo.after_of_writes_sub hostOps3 _ Gen.hostOps3_writes h
theorem W9_of (c : Dev nD) (r : Ref sig .tc) (h : r ∉ Gen.hostOps4_W) : W9 m c (B r) = W8 m c (B r) :=
  StableHlo.after_of_writes_sub hostOps4 _ Gen.hostOps4_writes h
theorem W11_of (c : Dev nD) (r : Ref sig .tc) (h : r ∉ Gen.hostOps5_W) : W11 m c (B r) = W10 m c (B r) :=
  StableHlo.after_of_writes_sub hostOps5 _ Gen.hostOps5_writes h

/-- Region 0 changes its result array only: an input array is read, never written back. -/
theorem W2_keep (c : Dev nD) (r : Ref sig .tc) (h : r ≠ main_v18) : W2 m c (B r) = W1 m c (B r) := by
  by_cases hw : ∃ w, Pipeline.arrRef spec0 w = r
  · obtain ⟨w, rfl⟩ := hw
    have hin : (cfg0.win w).isOut = false :=
      (by decide : ∀ w : Fin 6, Pipeline.arrRef spec0 w ≠ main_v18 → (cfg0.win w).isOut = false) w h
    exact (W2_arr m c w).trans (((dat0 (Hand.V1 m) c).arrAt_in w hin _).trans (A_eq0 (Hand.V1 m) c w))
  · exact W2_of_ne m c r (fun w e => hw ⟨w, e⟩)

/-- Region 1 changes its result array only: an input array is read, never written back. -/
theorem W4_keep (c : Dev nD) (r : Ref sig .tc) (h : r ≠ main_v41) : W4 m c (B r) = W3 m c (B r) := by
  by_cases hw : ∃ w, Pipeline.arrRef spec1 w = r
  · obtain ⟨w, rfl⟩ := hw
    have hin : (cfg1.win w).isOut = false :=
      (by decide : ∀ w : Fin 6, Pipeline.arrRef spec1 w ≠ main_v41 → (cfg1.win w).isOut = false) w h
    exact (W4_arr m c w).trans (((dat1 (Hand.V3 m) c).arrAt_in w hin _).trans (A_eq1 (Hand.V3 m) c w))
  · exact W4_of_ne m c r (fun w e => hw ⟨w, e⟩)

/-- Region 2 changes its result array only: an input array is read, never written back. -/
theorem W6_keep (c : Dev nD) (r : Ref sig .tc) (h : r ≠ main_v64) : W6 m c (B r) = W5 m c (B r) := by
  by_cases hw : ∃ w, Pipeline.arrRef spec2 w = r
  · obtain ⟨w, rfl⟩ := hw
    have hin : (cfg2.win w).isOut = false :=
      (by decide : ∀ w : Fin 6, Pipeline.arrRef spec2 w ≠ main_v64 → (cfg2.win w).isOut = false) w h
    exact (W6_arr m c w).trans (((dat2 (Hand.V5 m) c).arrAt_in w hin _).trans (A_eq2 (Hand.V5 m) c w))
  · exact W6_of_ne m c r (fun w e => hw ⟨w, e⟩)

/-- Region 3 changes its result array only: an input array is read, never written back. -/
theorem W8_keep (c : Dev nD) (r : Ref sig .tc) (h : r ≠ main_v87) : W8 m c (B r) = W7 m c (B r) := by
  by_cases hw : ∃ w, Pipeline.arrRef spec3 w = r
  · obtain ⟨w, rfl⟩ := hw
    have hin : (cfg3.win w).isOut = false :=
      (by decide : ∀ w : Fin 6, Pipeline.arrRef spec3 w ≠ main_v87 → (cfg3.win w).isOut = false) w h
    exact (W8_arr m c w).trans (((dat3 (Hand.V7 m) c).arrAt_in w hin _).trans (A_eq3 (Hand.V7 m) c w))
  · exact W8_of_ne m c r (fun w e => hw ⟨w, e⟩)

/-- Region 4 changes its result array only: an input array is read, never written back. -/
theorem W10_keep (c : Dev nD) (r : Ref sig .tc) (h : r ≠ main_v110) : W10 m c (B r) = W9 m c (B r) := by
  by_cases hw : ∃ w, Pipeline.arrRef spec4 w = r
  · obtain ⟨w, rfl⟩ := hw
    have hin : (cfg4.win w).isOut = false :=
      (by decide : ∀ w : Fin 6, Pipeline.arrRef spec4 w ≠ main_v110 → (cfg4.win w).isOut = false) w h
    exact (W10_arr m c w).trans (((dat4 (Hand.V9 m) c).arrAt_in w hin _).trans (A_eq4 (Hand.V9 m) c w))
  · exact W10_of_ne m c r (fun w e => hw ⟨w, e⟩)

/-- Region 5 changes its result array only: an input array is read, never written back. -/
theorem W12_keep (c : Dev nD) (r : Ref sig .tc) (h : r ≠ main_v112) : W12 m c (B r) = W11 m c (B r) := by
  by_cases hw : ∃ w, Pipeline.arrRef spec5 w = r
  · obtain ⟨w, rfl⟩ := hw
    have hin : (cfg5.win w).isOut = false :=
      (by decide : ∀ w : Fin 3, Pipeline.arrRef spec5 w ≠ main_v112 → (cfg5.win w).isOut = false) w h
    exact (W12_arr m c w).trans (((dat5 (Hand.V11 m) c).arrAt_in w hin _).trans (A_eq5 (Hand.V11 m) c w))
  · exact W12_of_ne m c r (fun w e => hw ⟨w, e⟩)

/-- Region 6 changes its result array only: an input array is read, never written back. -/
theorem W13_keep (c : Dev nD) (r : Ref sig .tc) (h : r ≠ main_v113) : W13 m c (B r) = W12 m c (B r) := by
  by_cases hw : ∃ w, Pipeline.arrRef spec6 w = r
  · obtain ⟨w, rfl⟩ := hw
    have hin : (cfg6.win w).isOut = false :=
      (by decide : ∀ w : Fin 8, Pipeline.arrRef spec6 w ≠ main_v113 → (cfg6.win w).isOut = false) w h
    exact (W13_arr m c w).trans (((dat6 (Hand.V12 m) c).arrAt_in w hin _).trans (A_eq6 (Hand.V12 m) c w))
  · exact W13_of_ne m c r (fun w e => hw ⟨w, e⟩)

/-! ## The arguments and the two index rows reach every boundary unchanged -/

/-- The seventeen arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]
/-- The two index rows, written once by the first host stretch. -/
abbrev idxRefs : List (Ref sig .tc) := [main_v1, main_v3]

theorem W0_args (c : Dev nD) (r : Ref sig .tc) (hr : r ∈ argRefs) : W0 m c (B r) = m ((c : Thread nD τ).loc r) := rfl
theorem W1_args (c : Dev nD) (r : Ref sig .tc) (hr : r ∈ argRefs) : W1 m c (B r) = m ((c : Thread nD τ).loc r) :=
  (W1_of m c r ((by decide : ∀ r ∈ argRefs, r ∉ Gen.hostOps0_W) r hr)).trans (W0_args m c r hr)
theorem W2_args (c : Dev nD) (r : Ref sig .tc) (hr : r ∈ argRefs) : W2 m c (B r) = m ((c : Thread nD τ).loc r) :=
  (W2_keep m c r ((by decide : ∀ r ∈ argRefs, r ≠ main_v18) r hr)).trans (W1_args m c r hr)
theorem W3_args (c : Dev nD) (r : Ref sig .tc) (hr : r ∈ argRefs) : W3 m c (B r) = m ((c : Thread nD τ).loc r) :=
  (W3_of m c r ((by decide : ∀ r ∈ argRefs, r ∉ Gen.hostOps1_W) r hr)).trans (W2_args m c r hr)
theorem W4_args (c : Dev nD) (r : Ref sig .tc) (hr : r ∈ argRefs) : W4 m c (B r) = m ((c : Thread nD τ).loc r) :=
  (W4_keep m c r ((by decide : ∀ r ∈ argRefs, r ≠ main_v41) r hr)).trans (W3_args m c r hr)
theorem W5_args (c : Dev nD) (r : Ref sig .tc) (hr : r ∈ argRefs) : W5 m c (B r) = m ((c : Thread nD τ).loc r) :=
  (W5_of m c r ((by decide : ∀ r ∈ argRefs, r ∉ Gen.hostOps2_W) r hr)).trans (W4_args m c r hr)
theorem W6_args (c : Dev nD) (r : Ref sig .tc) (hr : r ∈ argRefs) : W6 m c (B r) = m ((c : Thread nD τ).loc r) :=
  (W6_keep m c r ((by decide : ∀ r ∈ argRefs, r ≠ main_v64) r hr)).trans (W5_args m c r hr)
theorem W7_args (c : Dev nD) (r : Ref sig .tc) (hr : r ∈ argRefs) : W7 m c (B r) = m ((c : Thread nD τ).loc r) :=
  (W7_of m c r ((by decide : ∀ r ∈ argRefs, r ∉ Gen.hostOps3_W) r hr)).trans (W6_args m c r hr)
theorem W8_args (c : Dev nD) (r : Ref sig .tc) (hr : r ∈ argRefs) : W8 m c (B r) = m ((c : Thread nD τ).loc r) :=
  (W8_keep m c r ((by decide : ∀ r ∈ argRefs, r ≠ main_v87) r hr)).trans (W7_args m c r hr)
theorem W9_args (c : Dev nD) (r : Ref sig .tc) (hr : r ∈ argRefs) : W9 m c (B r) = m ((c : Thread nD τ).loc r) :=
  (W9_of m c r ((by decide : ∀ r ∈ argRefs, r ∉ Gen.hostOps4_W) r hr)).trans (W8_args m c r hr)
theorem W10_args (c : Dev nD) (r : Ref sig .tc) (hr : r ∈ argRefs) : W10 m c (B r) = m ((c : Thread nD τ).loc r) :=
  (W10_keep m c r ((by decide : ∀ r ∈ argRefs, r ≠ main_v110) r hr)).trans (W9_args m c r hr)
theorem W11_args (c : Dev nD) (r : Ref sig .tc) (hr : r ∈ argRefs) : W11 m c (B r) = m ((c : Thread nD τ).loc r) :=
  (W11_of m c r ((by decide : ∀ r ∈ argRefs, r ∉ Gen.hostOps5_W) r hr)).trans (W10_args m c r hr)
theorem W12_args (c : Dev nD) (r : Ref sig .tc) (hr : r ∈ argRefs) : W12 m c (B r) = m ((c : Thread nD τ).loc r) :=
  (W12_keep m c r ((by decide : ∀ r ∈ argRefs, r ≠ main_v112) r hr)).trans (W11_args m c r hr)
theorem W13_args (c : Dev nD) (r : Ref sig .tc) (hr : r ∈ argRefs) : W13 m c (B r) = m ((c : Thread nD τ).loc r) :=
  (W13_keep m c r ((by decide : ∀ r ∈ argRefs, r ≠ main_v113) r hr)).trans (W12_args m c r hr)
theorem W2_idx (c : Dev nD) (r : Ref sig .tc) (hr : r ∈ idxRefs) : W2 m c (B r) = W1 m c (B r) :=
  (W2_keep m c r ((by decide : ∀ r ∈ idxRefs, r ≠ main_v18) r hr))
theorem W3_idx (c : Dev nD) (r : Ref sig .tc) (hr : r ∈ idxRefs) : W3 m c (B r) = W1 m c (B r) :=
  (W3_of m c r ((by decide : ∀ r ∈ idxRefs, r ∉ Gen.hostOps1_W) r hr)).trans (W2_idx m c r hr)
theorem W4_idx (c : Dev nD) (r : Ref sig .tc) (hr : r ∈ idxRefs) : W4 m c (B r) = W1 m c (B r) :=
  (W4_keep m c r ((by decide : ∀ r ∈ idxRefs, r ≠ main_v41) r hr)).trans (W3_idx m c r hr)
theorem W5_idx (c : Dev nD) (r : Ref sig .tc) (hr : r ∈ idxRefs) : W5 m c (B r) = W1 m c (B r) :=
  (W5_of m c r ((by decide : ∀ r ∈ idxRefs, r ∉ Gen.hostOps2_W) r hr)).trans (W4_idx m c r hr)
theorem W6_idx (c : Dev nD) (r : Ref sig .tc) (hr : r ∈ idxRefs) : W6 m c (B r) = W1 m c (B r) :=
  (W6_keep m c r ((by decide : ∀ r ∈ idxRefs, r ≠ main_v64) r hr)).trans (W5_idx m c r hr)
theorem W7_idx (c : Dev nD) (r : Ref sig .tc) (hr : r ∈ idxRefs) : W7 m c (B r) = W1 m c (B r) :=
  (W7_of m c r ((by decide : ∀ r ∈ idxRefs, r ∉ Gen.hostOps3_W) r hr)).trans (W6_idx m c r hr)
theorem W8_idx (c : Dev nD) (r : Ref sig .tc) (hr : r ∈ idxRefs) : W8 m c (B r) = W1 m c (B r) :=
  (W8_keep m c r ((by decide : ∀ r ∈ idxRefs, r ≠ main_v87) r hr)).trans (W7_idx m c r hr)
theorem W9_idx (c : Dev nD) (r : Ref sig .tc) (hr : r ∈ idxRefs) : W9 m c (B r) = W1 m c (B r) :=
  (W9_of m c r ((by decide : ∀ r ∈ idxRefs, r ∉ Gen.hostOps4_W) r hr)).trans (W8_idx m c r hr)

end Cert.KernelIdeal.Hand

end
-- ==== Proof.Spec.lean ====
/-
  The reference network, stage by stage, as functions of whole arrays, each spelled with the reference program's own
  operations: a linear layer `x · w + b` (the bias row broadcast over the rows), the rectifier `max(x, 0)`, the two-layer
  perceptron of a GIN layer with and without the closing rectifier, the neighbourhood sum `h + scatter-add of the
  gathered rows into zeros`, the sum pooling by graph id, and the three-layer classifier.
-/
import proofs.«400628_j75076028334403_3_alg».proof.ReferenceIdeal
import proofs.«400628_j75076028334403_3_alg».proof.Proof.Gen.ReferenceIdeal

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- Zeros of the feature shape. -/
def zeros600 : FVec F S30000x600 .f32 := broadcastInDim S30000x600 ![] bcast_S_S30000x600 (constant S_ .f32 0x00000000#32)

/-- `max(x, 0)` on node features. -/
def relu600 (x : FVec F S30000x600 .f32) : FVec F S30000x600 .f32 := maximumf x zeros600

/-- A bias row broadcast over the 30000 rows. -/
def biasRows600 (b : FVec F S600 .f32) : FVec F S30000x600 .f32 :=
  broadcastInDim S30000x600 ![0, 1] bcast_S1x600_S30000x600_0_1 (broadcastInDim S1x600 ![1] bcast_S600_S1x600_1 b)

/-- `x · w + b` with 600 input features. -/
def lin600 (x : FVec F S30000x600 .f32) (w : FVec F S600x600 .f32) (b : FVec F S600 .f32) : FVec F S30000x600 .f32 :=
  addf (Host.dotGeneral dot_S30000x600_S600x600_S30000x600_1_0_0_1_n_n none x w) (biasRows600 b)

/-- `x · w + b` with 9 input features (the first layer). -/
def lin9 (x : FVec F S30000x9 .f32) (w : FVec F S9x600 .f32) (b : FVec F S600 .f32) : FVec F S30000x600 .f32 :=
  addf (Host.dotGeneral dot_S30000x9_S9x600_S30000x600_1_0_0_1_n_n none x w) (biasRows600 b)

/-- The perceptron of the first GIN layer, with the closing rectifier: `relu(relu(z·w1 + b1)·w2 + b2)`. -/
def mlp0 (z : FVec F S30000x9 .f32) (w1 : FVec F S9x600 .f32) (b1 : FVec F S600 .f32) (w2 : FVec F S600x600 .f32)
    (b2 : FVec F S600 .f32) : FVec F S30000x600 .f32 :=
  relu600 (lin600 (relu600 (lin9 z w1 b1)) w2 b2)

/-- The perceptron of GIN layers 1 to 3, with the closing rectifier. -/
def mlpR (z : FVec F S30000x600 .f32) (w1 : FVec F S600x600 .f32) (b1 : FVec F S600 .f32) (w2 : FVec F S600x600 .f32)
    (b2 : FVec F S600 .f32) : FVec F S30000x600 .f32 :=
  relu600 (lin600 (relu600 (lin600 z w1 b1)) w2 b2)

/-- The perceptron of the last GIN layer: no closing rectifier. -/
def mlpN (z : FVec F S30000x600 .f32) (w1 : FVec F S600x600 .f32) (b1 : FVec F S600 .f32) (w2 : FVec F S600x600 .f32)
    (b2 : FVec F S600 .f32) : FVec F S30000x600 .f32 :=
  lin600 (relu600 (lin600 z w1 b1)) w2 b2

/-- The neighbourhood sum on 600 features: `h` plus, at each node, the sum of the gathered rows of the edges that end
    there (scatter-add into zeros; `src` and `dst` are the index columns as the reference passes them). -/
def agg600 (h : FVec F S30000x600 .f32) (src dst : IVec S300000x1 32) : FVec F S30000x600 .f32 :=
  addf h (Host.scatterAdd scatter_S30000x600_S300000x1_S300000x600_1_0_0_1 zeros600 dst
    (Host.gather gather_S30000x600_S300000x1_S300000x600_1_0_n_n_0_1_1600 h src))

/-- The neighbourhood sum on the 9 input features. -/
def agg9 (h : FVec F S30000x9 .f32) (src dst : IVec S300000x1 32) : FVec F S30000x9 .f32 :=
  addf h (Host.scatterAdd scatter_S30000x9_S300000x1_S300000x9_1_0_0_1
    (broadcastInDim S30000x9 ![] bcast_S_S30000x9 (constant S_ .f32 0x00000000#32)) dst
    (Host.gather gather_S30000x9_S300000x1_S300000x9_1_0_n_n_0_1_19 h src))

/-- Sum pooling: at each graph the sum of the rows of the nodes whose id is that graph (scatter-add into zeros). -/
def pool (h : FVec F S30000x600 .f32) (ids : IVec S30000x1 32) : FVec F S512x600 .f32 :=
  Host.scatterAdd scatter_S512x600_S30000x1_S30000x600_1_0_0_1
    (broadcastInDim S512x600 ![] bcast_S_S512x600 (constant S_ .f32 0x00000000#32)) ids h

/-- `max(x, 0)` on the classifier's hidden features. -/
def relu256 (x : FVec F S512x256 .f32) : FVec F S512x256 .f32 :=
  maximumf x (broadcastInDim S512x256 ![] bcast_S_S512x256 (constant S_ .f32 0x00000000#32))

/-- The classifier: `relu(relu(f·w1 + b1)·w2 + b2)·w3 + b3`. -/
def cls (f : FVec F S512x600 .f32) (w1 : FVec F S600x256 .f32) (b1 : FVec F S256 .f32) (w2 : FVec F S256x256 .f32)
    (b2 : FVec F S256 .f32) (w3 : FVec F S256x128 .f32) (b3 : FVec F S128 .f32) : FVec F S512x128 .f32 :=
  addf (Host.dotGeneral dot_S512x256_S256x128_S512x128_1_0_0_1_n_n none
      (relu256 (addf (Host.dotGeneral dot_S512x256_S256x256_S512x256_1_0_0_1_n_n none
          (relu256 (addf (Host.dotGeneral dot_S512x600_S600x256_S512x256_1_0_0_1_n_n none f w1)
            (broadcastInDim S512x256 ![0, 1] bcast_S1x256_S512x256_0_1 (broadcastInDim S1x256 ![1] bcast_S256_S1x256_1 b1))))
          w2)
        (broadcastInDim S512x256 ![0, 1] bcast_S1x256_S512x256_0_1 (broadcastInDim S1x256 ![1] bcast_S256_S1x256_1 b2))))
      w3)
    (broadcastInDim S512x128 ![0, 1] bcast_S1x128_S512x128_0_1 (broadcastInDim S1x128 ![1] bcast_S128_S1x128_1 b3))

end Cert.ReferenceIdeal.RefValue

end
-- ==== Proof.KI.ValOps.lean ====
/-
  The two programs' operations read at an index given by its coordinates, at the ideal instance (floats are extended
  reals): a matrix product into a zero accumulator and the host's `dot_general` are the sum over the contracted axis of
  the products; a bias row made a one-row matrix and broadcast over the rows reads the bias at the column; the rectifier is
  `max · 0`; and with these the reference's perceptrons, entry by entry.
-/
import proofs.«400628_j75076028334403_3_alg».proof.Proof.Gen.KernelIdeal
import proofs.«400628_j75076028334403_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx

/-! ### The kernel's matrix product `[1000, 600] × [600, 600]` -/

theorem lhs_kdot600_0 (i : S1000x600.Idx) (q : dot_S1000x600_S600x600_S1000x600_1_0_0_1_n_n.contr.Idx) :
    (dot_S1000x600_S600x600_S1000x600_1_0_0_1_n_n.lhsIdx i q 0).val = (i 0).val := by
  unfold DotDims.lhsIdx
  rw [dif_neg (show ¬(0 : Fin S1000x600.rank) ∈ dot_S1000x600_S600x600_S1000x600_1_0_0_1_n_n.lhsBatch by decide), dif_pos (show (0 : Fin S1000x600.rank) ∈ dot_S1000x600_S600x600_S1000x600_1_0_0_1_n_n.lhsNonContracting by decide)]
  rfl
theorem lhs_kdot600_1 (i : S1000x600.Idx) (q : dot_S1000x600_S600x600_S1000x600_1_0_0_1_n_n.contr.Idx) :
    (dot_S1000x600_S600x600_S1000x600_1_0_0_1_n_n.lhsIdx i q 1).val = (q ⟨0, by decide⟩).val :=
  dot_S1000x600_S600x600_S1000x600_1_0_0_1_n_n.lhsIdx_val_of_single rfl i q
theorem rhs_kdot600_0 (i : S1000x600.Idx) (q : dot_S1000x600_S600x600_S1000x600_1_0_0_1_n_n.contr.Idx) :
    (dot_S1000x600_S600x600_S1000x600_1_0_0_1_n_n.rhsIdx i q 0).val = (q ⟨0, by decide⟩).val :=
  dot_S1000x600_S600x600_S1000x600_1_0_0_1_n_n.rhsIdx_val_of_single rfl i q
theorem rhs_kdot600_1 (i : S1000x600.Idx) (q : dot_S1000x600_S600x600_S1000x600_1_0_0_1_n_n.contr.Idx) :
    (dot_S1000x600_S600x600_S1000x600_1_0_0_1_n_n.rhsIdx i q 1).val = (i 1).val := by
  unfold DotDims.rhsIdx
  rw [dif_neg (show ¬(1 : Fin S600x600.rank) ∈ dot_S1000x600_S600x600_S1000x600_1_0_0_1_n_n.rhsBatch by decide), dif_pos (show (1 : Fin S600x600.rank) ∈ dot_S1000x600_S600x600_S1000x600_1_0_0_1_n_n.rhsNonContracting by decide)]
  rfl

/-- The matrix product into a zero accumulator at `(r, j)`: the sum over `k` of `a (r, k) · b (k, j)`. -/
theorem kdot600_apply {φ₁ φ₂ : FTy} (a : FVec Ideal S1000x600 φ₁) (b : FVec Ideal S600x600 φ₂) (r : Fin 1000) (j : Fin 600) :
    matmul dot_S1000x600_S600x600_S1000x600_1_0_0_1_n_n none a b (constant (F := Ideal) S1000x600 .f32 0x00000000#32) (ix2 r j)
      = ∑ k : Fin 600, a (ix2 r k) * b (ix2 k j) := by
  simp only [matmul]
  rw [Ideal.matmul_constant_zero_apply, ← Equiv.sum_comp (contrEquiv1 dot_S1000x600_S600x600_S1000x600_1_0_0_1_n_n 600 rfl rfl).symm]
  refine Finset.sum_congr rfl fun k _ => ?_
  have hk := contrEquiv1_symm_val dot_S1000x600_S600x600_S1000x600_1_0_0_1_n_n 600 rfl rfl k
  have el : dot_S1000x600_S600x600_S1000x600_1_0_0_1_n_n.lhsIdx (ix2 r j) ((contrEquiv1 dot_S1000x600_S600x600_S1000x600_1_0_0_1_n_n 600 rfl rfl).symm k) = ix2 r k := funext fun a => Fin.ext (by
    match a with
    | ⟨0, _⟩ => exact lhs_kdot600_0 _ _
    | ⟨1, _⟩ => exact (lhs_kdot600_1 _ _).trans hk)
  have er : dot_S1000x600_S600x600_S1000x600_1_0_0_1_n_n.rhsIdx (ix2 r j) ((contrEquiv1 dot_S1000x600_S600x600_S1000x600_1_0_0_1_n_n 600 rfl rfl).symm k) = ix2 k j := funext fun a => Fin.ext (by
    match a with
    | ⟨0, _⟩ => exact (rhs_kdot600_0 _ _).trans hk
    | ⟨1, _⟩ => exact rhs_kdot600_1 _ _)
  rw [el, er]

/-! ### The kernel's matrix product `[1000, 9] × [9, 600]` -/

theorem lhs_kdot9_0 (i : S1000x600.Idx) (q : dot_S1000x9_S9x600_S1000x600_1_0_0_1_n_n.contr.Idx) :
    (dot_S1000x9_S9x600_S1000x600_1_0_0_1_n_n.lhsIdx i q 0).val = (i 0).val := by
  unfold DotDims.lhsIdx
  rw [dif_neg (show ¬(0 : Fin S1000x9.rank) ∈ dot_S1000x9_S9x600_S1000x600_1_0_0_1_n_n.lhsBatch by decide), dif_pos (show (0 : Fin S1000x9.rank) ∈ dot_S1000x9_S9x600_S1000x600_1_0_0_1_n_n.lhsNonContracting by decide)]
  rfl
theorem lhs_kdot9_1 (i : S1000x600.Idx) (q : dot_S1000x9_S9x600_S1000x600_1_0_0_1_n_n.contr.Idx) :
    (dot_S1000x9_S9x600_S1000x600_1_0_0_1_n_n.lhsIdx i q 1).val = (q ⟨0, by decide⟩).val :=
  dot_S1000x9_S9x600_S1000x600_1_0_0_1_n_n.lhsIdx_val_of_single rfl i q
theorem rhs_kdot9_0 (i : S1000x600.Idx) (q : dot_S1000x9_S9x600_S1000x600_1_0_0_1_n_n.contr.Idx) :
    (dot_S1000x9_S9x600_S1000x600_1_0_0_1_n_n.rhsIdx i q 0).val = (q ⟨0, by decide⟩).val :=
  dot_S1000x9_S9x600_S1000x600_1_0_0_1_n_n.rhsIdx_val_of_single rfl i q
theorem rhs_kdot9_1 (i : S1000x600.Idx) (q : dot_S1000x9_S9x600_S1000x600_1_0_0_1_n_n.contr.Idx) :
    (dot_S1000x9_S9x600_S1000x600_1_0_0_1_n_n.rhsIdx i q 1).val = (i 1).val := by
  unfold DotDims.rhsIdx
  rw [dif_neg (show ¬(1 : Fin S9x600.rank) ∈ dot_S1000x9_S9x600_S1000x600_1_0_0_1_n_n.rhsBatch by decide), dif_pos (show (1 : Fin S9x600.rank) ∈ dot_S1000x9_S9x600_S1000x600_1_0_0_1_n_n.rhsNonContracting by decide)]
  rfl

/-- The matrix product into a zero accumulator at `(r, j)`: the sum over the nine `k` of `a (r, k) · b (k, j)`. -/
theorem kdot9_apply {φ₁ φ₂ : FTy} (a : FVec Ideal S1000x9 φ₁) (b : FVec Ideal S9x600 φ₂) (r : Fin 1000) (j : Fin 600) :
    matmul dot_S1000x9_S9x600_S1000x600_1_0_0_1_n_n none a b (constant (F := Ideal) S1000x600 .f32 0x00000000#32) (ix2 r j)
      = ∑ k : Fin 9, a (ix2 r k) * b (ix2 k j) := by
  simp only [matmul]
  rw [Ideal.matmul_constant_zero_apply, ← Equiv.sum_comp (contrEquiv1 dot_S1000x9_S9x600_S1000x600_1_0_0_1_n_n 9 rfl rfl).symm]
  refine Finset.sum_congr rfl fun k _ => ?_
  have hk := contrEquiv1_symm_val dot_S1000x9_S9x600_S1000x600_1_0_0_1_n_n 9 rfl rfl k
  have el : dot_S1000x9_S9x600_S1000x600_1_0_0_1_n_n.lhsIdx (ix2 r j) ((contrEquiv1 dot_S1000x9_S9x600_S1000x600_1_0_0_1_n_n 9 rfl rfl).symm k) = ix2 r k := funext fun a => Fin.ext (by
    match a with
    | ⟨0, _⟩ => exact lhs_kdot9_0 _ _
    | ⟨1, _⟩ => exact (lhs_kdot9_1 _ _).trans hk)
  have er : dot_S1000x9_S9x600_S1000x600_1_0_0_1_n_n.rhsIdx (ix2 r j) ((contrEquiv1 dot_S1000x9_S9x600_S1000x600_1_0_0_1_n_n 9 rfl rfl).symm k) = ix2 k j := funext fun a => Fin.ext (by
    match a with
    | ⟨0, _⟩ => exact (rhs_kdot9_0 _ _).trans hk
    | ⟨1, _⟩ => exact rhs_kdot9_1 _ _)
  rw [el, er]

/-! ### The reference's `dot_general` `[30000, 600] × [600, 600]` -/

theorem lhs_rdot600_0 (i : Cert.ReferenceIdeal.S30000x600.Idx) (q : Cert.ReferenceIdeal.dot_S30000x600_S600x600_S30000x600_1_0_0_1_n_n.contr.Idx) :
    (Cert.ReferenceIdeal.dot_S30000x600_S600x600_S30000x600_1_0_0_1_n_n.lhsIdx i q 0).val = (i 0).val := by
  unfold DotDims.lhsIdx
  rw [dif_neg (show ¬(0 : Fin Cert.ReferenceIdeal.S30000x600.rank) ∈ Cert.ReferenceIdeal.dot_S30000x600_S600x600_S30000x600_1_0_0_1_n_n.lhsBatch by decide), dif_pos (show (0 : Fin Cert.ReferenceIdeal.S30000x600.rank) ∈ Cert.ReferenceIdeal.dot_S30000x600_S600x600_S30000x600_1_0_0_1_n_n.lhsNonContracting by decide)]
  rfl
theorem lhs_rdot600_1 (i : Cert.ReferenceIdeal.S30000x600.Idx) (q : Cert.ReferenceIdeal.dot_S30000x600_S600x600_S30000x600_1_0_0_1_n_n.contr.Idx) :
    (Cert.ReferenceIdeal.dot_S30000x600_S600x600_S30000x600_1_0_0_1_n_n.lhsIdx i q 1).val = (q ⟨0, by decide⟩).val :=
  Cert.ReferenceIdeal.dot_S30000x600_S600x600_S30000x600_1_0_0_1_n_n.lhsIdx_val_of_single rfl i q
theorem rhs_rdot600_0 (i : Cert.ReferenceIdeal.S30000x600.Idx) (q : Cert.ReferenceIdeal.dot_S30000x600_S600x600_S30000x600_1_0_0_1_n_n.contr.Idx) :
    (Cert.ReferenceIdeal.dot_S30000x600_S600x600_S30000x600_1_0_0_1_n_n.rhsIdx i q 0).val = (q ⟨0, by decide⟩).val :=
  Cert.ReferenceIdeal.dot_S30000x600_S600x600_S30000x600_1_0_0_1_n_n.rhsIdx_val_of_single rfl i q
theorem rhs_rdot600_1 (i : Cert.ReferenceIdeal.S30000x600.Idx) (q : Cert.ReferenceIdeal.dot_S30000x600_S600x600_S30000x600_1_0_0_1_n_n.contr.Idx) :
    (Cert.ReferenceIdeal.dot_S30000x600_S600x600_S30000x600_1_0_0_1_n_n.rhsIdx i q 1).val = (i 1).val := by
  unfold DotDims.rhsIdx
  rw [dif_neg (show ¬(1 : Fin Cert.ReferenceIdeal.S600x600.rank) ∈ Cert.ReferenceIdeal.dot_S30000x600_S600x600_S30000x600_1_0_0_1_n_n.rhsBatch by decide), dif_pos (show (1 : Fin Cert.ReferenceIdeal.S600x600.rank) ∈ Cert.ReferenceIdeal.dot_S30000x600_S600x600_S30000x600_1_0_0_1_n_n.rhsNonContracting by decide)]
  rfl

/-- The host's product at `(n, j)`: the sum over `k` of `a (n, k) · b (k, j)`. -/
theorem rdot600_apply (a : FVec Ideal Cert.ReferenceIdeal.S30000x600 .f32) (b : FVec Ideal Cert.ReferenceIdeal.S600x600 .f32) (r : Fin 30000) (j : Fin 600) :
    Host.dotGeneral Cert.ReferenceIdeal.dot_S30000x600_S600x600_S30000x600_1_0_0_1_n_n none a b (ix2 r j) = ∑ k : Fin 600, a (ix2 r k) * b (ix2 k j) := by
  simp only [Host.dotGeneral]
  rw [Ideal.dotGeneral_apply, ← Equiv.sum_comp (contrEquiv1 Cert.ReferenceIdeal.dot_S30000x600_S600x600_S30000x600_1_0_0_1_n_n 600 rfl rfl).symm]
  refine Finset.sum_congr rfl fun k _ => ?_
  have hk := contrEquiv1_symm_val Cert.ReferenceIdeal.dot_S30000x600_S600x600_S30000x600_1_0_0_1_n_n 600 rfl rfl k
  have el : Cert.ReferenceIdeal.dot_S30000x600_S600x600_S30000x600_1_0_0_1_n_n.lhsIdx (ix2 r j) ((contrEquiv1 Cert.ReferenceIdeal.dot_S30000x600_S600x600_S30000x600_1_0_0_1_n_n 600 rfl rfl).symm k) = ix2 r k := funext fun a => Fin.ext (by
    match a with
    | ⟨0, _⟩ => exact lhs_rdot600_0 _ _
    | ⟨1, _⟩ => exact (lhs_rdot600_1 _ _).trans hk)
  have er : Cert.ReferenceIdeal.dot_S30000x600_S600x600_S30000x600_1_0_0_1_n_n.rhsIdx (ix2 r j) ((contrEquiv1 Cert.ReferenceIdeal.dot_S30000x600_S600x600_S30000x600_1_0_0_1_n_n 600 rfl rfl).symm k) = ix2 k j := funext fun a => Fin.ext (by
    match a with
    | ⟨0, _⟩ => exact (rhs_rdot600_0 _ _).trans hk
    | ⟨1, _⟩ => exact rhs_rdot600_1 _ _)
  rw [el, er]

/-! ### The reference's `dot_general` `[30000, 9] × [9, 600]` -/

theorem lhs_rdot9_0 (i : Cert.ReferenceIdeal.S30000x600.Idx) (q : Cert.ReferenceIdeal.dot_S30000x9_S9x600_S30000x600_1_0_0_1_n_n.contr.Idx) :
    (Cert.ReferenceIdeal.dot_S30000x9_S9x600_S30000x600_1_0_0_1_n_n.lhsIdx i q 0).val = (i 0).val := by
  unfold DotDims.lhsIdx
  rw [dif_neg (show ¬(0 : Fin Cert.ReferenceIdeal.S30000x9.rank) ∈ Cert.ReferenceIdeal.dot_S30000x9_S9x600_S30000x600_1_0_0_1_n_n.lhsBatch by decide), dif_pos (show (0 : Fin Cert.ReferenceIdeal.S30000x9.rank) ∈ Cert.ReferenceIdeal.dot_S30000x9_S9x600_S30000x600_1_0_0_1_n_n.lhsNonContracting by decide)]
  rfl
theorem lhs_rdot9_1 (i : Cert.ReferenceIdeal.S30000x600.Idx) (q : Cert.ReferenceIdeal.dot_S30000x9_S9x600_S30000x600_1_0_0_1_n_n.contr.Idx) :
    (Cert.ReferenceIdeal.dot_S30000x9_S9x600_S30000x600_1_0_0_1_n_n.lhsIdx i q 1).val = (q ⟨0, by decide⟩).val :=
  Cert.ReferenceIdeal.dot_S30000x9_S9x600_S30000x600_1_0_0_1_n_n.lhsIdx_val_of_single rfl i q
theorem rhs_rdot9_0 (i : Cert.ReferenceIdeal.S30000x600.Idx) (q : Cert.ReferenceIdeal.dot_S30000x9_S9x600_S30000x600_1_0_0_1_n_n.contr.Idx) :
    (Cert.ReferenceIdeal.dot_S30000x9_S9x600_S30000x600_1_0_0_1_n_n.rhsIdx i q 0).val = (q ⟨0, by decide⟩).val :=
  Cert.ReferenceIdeal.dot_S30000x9_S9x600_S30000x600_1_0_0_1_n_n.rhsIdx_val_of_single rfl i q
theorem rhs_rdot9_1 (i : Cert.ReferenceIdeal.S30000x600.Idx) (q : Cert.ReferenceIdeal.dot_S30000x9_S9x600_S30000x600_1_0_0_1_n_n.contr.Idx) :
    (Cert.ReferenceIdeal.dot_S30000x9_S9x600_S30000x600_1_0_0_1_n_n.rhsIdx i q 1).val = (i 1).val := by
  unfold DotDims.rhsIdx
  rw [dif_neg (show ¬(1 : Fin Cert.ReferenceIdeal.S9x600.rank) ∈ Cert.ReferenceIdeal.dot_S30000x9_S9x600_S30000x600_1_0_0_1_n_n.rhsBatch by decide), dif_pos (show (1 : Fin Cert.ReferenceIdeal.S9x600.rank) ∈ Cert.ReferenceIdeal.dot_S30000x9_S9x600_S30000x600_1_0_0_1_n_n.rhsNonContracting by decide)]
  rfl

/-- The host's product at `(n, j)`: the sum over the nine `k` of `a (n, k) · b (k, j)`. -/
theorem rdot9_apply (a : FVec Ideal Cert.ReferenceIdeal.S30000x9 .f32) (b : FVec Ideal Cert.ReferenceIdeal.S9x600 .f32) (r : Fin 30000) (j : Fin 600) :
    Host.dotGeneral Cert.ReferenceIdeal.dot_S30000x9_S9x600_S30000x600_1_0_0_1_n_n none a b (ix2 r j) = ∑ k : Fin 9, a (ix2 r k) * b (ix2 k j) := by
  simp only [Host.dotGeneral]
  rw [Ideal.dotGeneral_apply, ← Equiv.sum_comp (contrEquiv1 Cert.ReferenceIdeal.dot_S30000x9_S9x600_S30000x600_1_0_0_1_n_n 9 rfl rfl).symm]
  refine Finset.sum_congr rfl fun k _ => ?_
  have hk := contrEquiv1_symm_val Cert.ReferenceIdeal.dot_S30000x9_S9x600_S30000x600_1_0_0_1_n_n 9 rfl rfl k
  have el : Cert.ReferenceIdeal.dot_S30000x9_S9x600_S30000x600_1_0_0_1_n_n.lhsIdx (ix2 r j) ((contrEquiv1 Cert.ReferenceIdeal.dot_S30000x9_S9x600_S30000x600_1_0_0_1_n_n 9 rfl rfl).symm k) = ix2 r k := funext fun a => Fin.ext (by
    match a with
    | ⟨0, _⟩ => exact lhs_rdot9_0 _ _
    | ⟨1, _⟩ => exact (lhs_rdot9_1 _ _).trans hk)
  have er : Cert.ReferenceIdeal.dot_S30000x9_S9x600_S30000x600_1_0_0_1_n_n.rhsIdx (ix2 r j) ((contrEquiv1 Cert.ReferenceIdeal.dot_S30000x9_S9x600_S30000x600_1_0_0_1_n_n 9 rfl rfl).symm k) = ix2 k j := funext fun a => Fin.ext (by
    match a with
    | ⟨0, _⟩ => exact (rhs_rdot9_0 _ _).trans hk
    | ⟨1, _⟩ => exact rhs_rdot9_1 _ _)
  rw [el, er]

/-! ### The bias row broadcast over the rows -/

/-- The kernel's: the bias made a one-row matrix and broadcast over the block's 1000 rows reads the bias at the column. -/
theorem kbias600_row_apply {α : Type} (b : S600.Idx → α) (r : Fin 1000) (j : Fin 600) :
    broadcastTo S1000x600 (shapeCast S1x600 b shapeCasts_S600_S1x600) broadcasts_S1x600_S1000x600 (ix2 r j) = b (ix1 j) := by
  refine (broadcastTo_apply _ broadcasts_S1x600_S1000x600 (ix2 r j) (ix2 (0 : Fin 1) j) (fun a => match a with
    | ⟨0, _⟩ => by show 0 = if (1 : Nat) = 1 then 0 else _; rw [if_pos rfl]
    | ⟨1, _⟩ => by show j.val = if (600 : Nat) = 1 then 0 else _; rw [if_neg (by decide)]; rfl)).trans ?_
  exact shapeCast_apply b shapeCasts_S600_S1x600 (ix2 (0 : Fin 1) j) (ix1 j) (by
    rw [Shape.rowMajor_val_one, Shape.rowMajor_val_two]; show j.val = 0 * 600 + j.val; omega)

/-- The same after a shape cast of the bias to its own shape. -/
theorem kbias600_apply {α : Type} (b : S600.Idx → α) (r : Fin 1000) (j : Fin 600) :
    broadcastTo S1000x600 (shapeCast S1x600 (shapeCast S600 b shapeCasts_S600_S600) shapeCasts_S600_S1x600)
      broadcasts_S1x600_S1000x600 (ix2 r j) = b (ix1 j) := by
  rw [shapeCast_self]
  exact kbias600_row_apply b r j

/-- The reference's: the bias made a one-row matrix and broadcast over the array's 30000 rows reads the bias at the column. -/
theorem rbias600_apply (b : FVec Ideal Cert.ReferenceIdeal.S600 .f32) (n : Fin 30000) (j : Fin 600) :
    Cert.ReferenceIdeal.RefValue.biasRows600 (F := Ideal) b (ix2 n j) = b (ix1 j) := by
  unfold Cert.ReferenceIdeal.RefValue.biasRows600
  refine (broadcastInDim_apply _ Cert.ReferenceIdeal.Facts₀.bcast_S1x600_S30000x600_0_1 _ (ix2 n j) (ix2 (0 : Fin 1) j) (fun a => match a with
    | ⟨0, _⟩ => by show 0 = if (1 : Nat) = 1 then 0 else _; rw [if_pos rfl]
    | ⟨1, _⟩ => by show j.val = if (600 : Nat) = 1 then 0 else _; rw [if_neg (by decide)]; rfl)).trans ?_
  exact broadcastInDim_apply _ Cert.ReferenceIdeal.Facts₀.bcast_S600_S1x600_1 b (ix2 (0 : Fin 1) j) (ix1 j) (fun a => match a with
    | ⟨0, _⟩ => by show j.val = if (600 : Nat) = 1 then 0 else _; rw [if_neg (by decide)]; rfl)

/-! ### The rectifier -/

/-- The kernel's `max(x, 0)` against a broadcast scalar zero. -/
theorem krelu600_apply (x : FVec Ideal S1000x600 .f32) (i : S1000x600.Idx) :
    maximumf x (broadcast S1000x600 (Scalar.ofBits (F := Ideal) .f32 0x00000000#32)) i = max (x i) 0 := by
  show max (x i) (Ideal.ofBits .f32 0x00000000#32) = _
  rw [Ideal.ofBits_zero_f32]

/-- The reference's `max(x, 0)` against broadcast zeros. -/
theorem rrelu600_apply (x : FVec Ideal Cert.ReferenceIdeal.S30000x600 .f32) (i : Cert.ReferenceIdeal.S30000x600.Idx) :
    Cert.ReferenceIdeal.RefValue.relu600 (F := Ideal) x i = max (x i) 0 := by
  show max (x i) (Ideal.ofBits .f32 0x00000000#32) = _
  rw [Ideal.ofBits_zero_f32]

/-! ### The reference's perceptrons at an index -/

/-- Entry `(n, j)` of `relu(relu(z·w1 + b1)·w2 + b2)`, 600 input features. -/
theorem rmlpR_apply (z : FVec Ideal Cert.ReferenceIdeal.S30000x600 .f32) (w1 : FVec Ideal Cert.ReferenceIdeal.S600x600 .f32)
    (b1 : FVec Ideal Cert.ReferenceIdeal.S600 .f32) (w2 : FVec Ideal Cert.ReferenceIdeal.S600x600 .f32)
    (b2 : FVec Ideal Cert.ReferenceIdeal.S600 .f32) (n : Fin 30000) (j : Fin 600) :
    Cert.ReferenceIdeal.RefValue.mlpR (F := Ideal) z w1 b1 w2 b2 (ix2 n j)
      = max ((∑ k : Fin 600, max ((∑ i : Fin 600, z (ix2 n i) * w1 (ix2 i k)) + b1 (ix1 k)) 0 * w2 (ix2 k j)) + b2 (ix1 j)) 0 := by
  unfold Cert.ReferenceIdeal.RefValue.mlpR
  rw [rrelu600_apply]
  unfold Cert.ReferenceIdeal.RefValue.lin600
  rw [addf_apply, rdot600_apply, rbias600_apply]
  refine congrArg (fun s => max (s + b2 (ix1 j)) 0) (Finset.sum_congr rfl fun k _ => ?_)
  rw [rrelu600_apply, addf_apply, rdot600_apply, rbias600_apply]

/-- Entry `(n, j)` of `relu(z·w1 + b1)·w2 + b2` (no closing rectifier), 600 input features. -/
theorem rmlpN_apply (z : FVec Ideal Cert.ReferenceIdeal.S30000x600 .f32) (w1 : FVec Ideal Cert.ReferenceIdeal.S600x600 .f32)
    (b1 : FVec Ideal Cert.ReferenceIdeal.S600 .f32) (w2 : FVec Ideal Cert.ReferenceIdeal.S600x600 .f32)
    (b2 : FVec Ideal Cert.ReferenceIdeal.S600 .f32) (n : Fin 30000) (j : Fin 600) :
    Cert.ReferenceIdeal.RefValue.mlpN (F := Ideal) z w1 b1 w2 b2 (ix2 n j)
      = (∑ k : Fin 600, max ((∑ i : Fin 600, z (ix2 n i) * w1 (ix2 i k)) + b1 (ix1 k)) 0 * w2 (ix2 k j)) + b2 (ix1 j) := by
  unfold Cert.ReferenceIdeal.RefValue.mlpN
  unfold Cert.ReferenceIdeal.RefValue.lin600
  rw [addf_apply, rdot600_apply, rbias600_apply]
  refine congrArg (fun s => s + b2 (ix1 j)) (Finset.sum_congr rfl fun k _ => ?_)
  rw [rrelu600_apply, addf_apply, rdot600_apply, rbias600_apply]

/-- Entry `(n, j)` of `relu(relu(z·w1 + b1)·w2 + b2)`, 9 input features. -/
theorem rmlp0_apply (z : FVec Ideal Cert.ReferenceIdeal.S30000x9 .f32) (w1 : FVec Ideal Cert.ReferenceIdeal.S9x600 .f32)
    (b1 : FVec Ideal Cert.ReferenceIdeal.S600 .f32) (w2 : FVec Ideal Cert.ReferenceIdeal.S600x600 .f32)
    (b2 : FVec Ideal Cert.ReferenceIdeal.S600 .f32) (n : Fin 30000) (j : Fin 600) :
    Cert.ReferenceIdeal.RefValue.mlp0 (F := Ideal) z w1 b1 w2 b2 (ix2 n j)
      = max ((∑ k : Fin 600, max ((∑ i : Fin 9, z (ix2 n i) * w1 (ix2 i k)) + b1 (ix1 k)) 0 * w2 (ix2 k j)) + b2 (ix1 j)) 0 := by
  unfold Cert.ReferenceIdeal.RefValue.mlp0
  rw [rrelu600_apply]
  unfold Cert.ReferenceIdeal.RefValue.lin600
  rw [addf_apply, rdot600_apply, rbias600_apply]
  refine congrArg (fun s => max (s + b2 (ix1 j)) 0) (Finset.sum_congr rfl fun k _ => ?_)
  rw [rrelu600_apply]
  unfold Cert.ReferenceIdeal.RefValue.lin9
  rw [addf_apply, rdot9_apply, rbias600_apply]

end Cert.KernelIdeal.Hand

end
-- ==== Proof.KI.ValMlp0.lean ====
/-
  What GIN layer 0's region leaves in its result array, at the ideal instance (floats are extended reals): the
  reference's two-layer perceptron `relu(relu(z·w1 + b1)·w2 + b2)` of the region's five input arrays as the region
  finds them.

  Point `t` writes back rows `1000 t … 1000 t + 999`; row `r` of its block is the body's payload of row `r` of the
  staged block of `z` (row `1000 t + r` of the array) and of the whole weights and biases. A matrix product into a zero
  accumulator and the host's `dot_general` are the same sum over the contracted axis, the changes of float format are
  the identity, and the bias row broadcast over the block's rows is the bias row broadcast over the array's rows. The
  thirty blocks tile the array.
-/
import proofs.«400628_j75076028334403_3_alg».proof.Proof.KI.Mlp0
import proofs.«400628_j75076028334403_3_alg».proof.Proof.KI.ValOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

/-! ## The region's payload at an index -/

/-- Entry `(r, j)` of the body's payload: the perceptron of row `r` of the staged block. -/
theorem k0_pay1_apply (x0 : Vec Ideal S1000x9 .f32) (x1 : Vec Ideal S9x600 .f32) (x2 : Vec Ideal S600 .f32)
    (x3 : Vec Ideal S600x600 .f32) (x4 : Vec Ideal S600 .f32) (r : Fin 1000) (j : Fin 600) :
    k0_pay1 (F := Ideal) x0 x1 x2 x3 x4 (ix2 r j)
      = max ((∑ k : Fin 600, max ((∑ i : Fin 9, x0 (ix2 r i) * x1 (ix2 i k)) + x2 (ix1 k)) 0 * x3 (ix2 k j)) + x4 (ix1 j)) 0 := by
  unfold k0_pay1
  refine (krelu600_apply _ _).trans ?_
  refine congrArg (fun s => max s 0) ?_
  refine (addf_apply _ _ _).trans ?_
  refine congrArg₂ (· + ·) ((kdot600_apply _ _ r j).trans (Finset.sum_congr rfl fun k _ => ?_)) (kbias600_row_apply x4 r j)
  refine congrArg₂ (· * ·) ?_ (truncf_apply (ψ := .bf16) x3 bitsLt_bf16_f32 _)
  refine (truncf_apply (ψ := .bf16) _ bitsLt_bf16_f32 _).trans ((krelu600_apply _ _).trans (congrArg (fun s => max s 0) ?_))
  refine (addf_apply _ _ _).trans ?_
  refine congrArg₂ (· + ·) ((kdot9_apply _ _ r k).trans (Finset.sum_congr rfl fun i _ => ?_)) (kbias600_row_apply x2 r k)
  exact congrArg₂ (· * ·) (congrFun (shapeCast_self x0 _) _) (truncf_apply (ψ := .bf16) x1 bitsLt_bf16_f32 _)

/-- A block of 1000 rows of the perceptron: when the staged block `x0` is rows `1000 tv … 1000 tv + 999` of `z` and
    the other four operands are the whole weights and biases, the payload's entry `(r, j)` is the reference's
    perceptron at `(1000 tv + r, j)`. -/
theorem k0_pay1_eq_mlp0 (x0 : Vec Ideal S1000x9 .f32) (x1 : Vec Ideal S9x600 .f32) (x2 : Vec Ideal S600 .f32)
    (x3 : Vec Ideal S600x600 .f32) (x4 : Vec Ideal S600 .f32)
    (z : FVec Ideal Cert.ReferenceIdeal.S30000x9 .f32) (w1 : FVec Ideal Cert.ReferenceIdeal.S9x600 .f32)
    (b1 : FVec Ideal Cert.ReferenceIdeal.S600 .f32) (w2 : FVec Ideal Cert.ReferenceIdeal.S600x600 .f32)
    (b2 : FVec Ideal Cert.ReferenceIdeal.S600 .f32) (tv : Nat) (ht : tv < 30)
    (h0 : ∀ (r : Fin 1000) (i : Fin 9), x0 (ix2 r i) = z (ix2 ⟨1000 * tv + r.val, by have := r.isLt; omega⟩ i))
    (h1 : x1 = w1) (h2 : x2 = b1) (h3 : x3 = w2) (h4 : x4 = b2) (r : Fin 1000) (j : Fin 600) :
    k0_pay1 (F := Ideal) x0 x1 x2 x3 x4 (ix2 r j)
      = Cert.ReferenceIdeal.RefValue.mlp0 (F := Ideal) z w1 b1 w2 b2 (ix2 ⟨1000 * tv + r.val, by have := r.isLt; omega⟩ j) := by
  subst h1 h2 h3 h4
  rw [k0_pay1_apply, rmlp0_apply]
  simp only [h0]

variable (V : (c : Dev nD) → (b : Ref sig .tc) → Buf (Elt Ideal) ((c : Thread nD τ).loc b))

/-- The reference's perceptron of the region's five input arrays. -/
def mlpArr0 (c : Dev nD) : Buf (Elt Ideal) ((cfg0.win 5).arr.view.loc (c.tc : Thread nD τ)) :=
  Cert.ReferenceIdeal.RefValue.mlp0 (F := Ideal) (V c (Pipeline.arrRef spec0 0)) (V c (Pipeline.arrRef spec0 1))
    (V c (Pipeline.arrRef spec0 2)) (V c (Pipeline.arrRef spec0 3)) (V c (Pipeline.arrRef spec0 4))

/-! ## From the blocks to the array -/

private theorem hz_pair : (![0, 0] : Fin 2 → Nat) = fun _ => 0 := funext fun a => by fin_cases a <;> rfl
private theorem hz_single : (![0] : Fin 1 → Nat) = fun _ => 0 := funext fun a => by fin_cases a; rfl

/-- The printed index maps, decided over the grid: the input block and the output block are block `t` of the rows; the
    weights' and biases' blocks never move. -/
theorem win0_index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `r` of the staged input block at point `t` is row `1000 t + r` of the array. -/
theorem iblk0_0_apply (c : Dev nD) (t : Fin cfg0.N) (r : Fin 1000) (i : Fin 9) :
    (iblk0 (F := Ideal) V c 0 t : Vec Ideal S1000x9 .f32) (ix2 r i)
      = (V c (Pipeline.arrRef spec0 0) : FVec Ideal S30000x9 .f32)
          (ix2 ⟨1000 * t.val + r.val, by have := r.isLt; have := lt_of_lt_of_eq t.isLt (by decide : grid0.N = 30); omega⟩ i) := by
  obtain ⟨e0, e1, -⟩ := win0_index_facts t
  show V c (Pipeline.arrRef spec0 0) (((cfg0.win 0).blk t).view.emb (ix2 r i)) = _
  refine congrArg (V c (Pipeline.arrRef spec0 0)) (funext fun a => Fin.ext ?_)
  match a with
  | ⟨0, _⟩ => show win0_0.index t (0 : Fin 2) * 1000 + 1 * r.val = 1000 * t.val + r.val; omega
  | ⟨1, _⟩ => show win0_0.index t (1 : Fin 2) * 9 + 1 * i.val = i.val; omega

/-- The staged first weight matrix is the whole array at every point. -/
theorem iblk0_1_eq (c : Dev nD) (t : Fin cfg0.N) :
    (iblk0 (F := Ideal) V c 1 t : Vec Ideal S9x600 .f32) = V c (Pipeline.arrRef spec0 1) := by
  obtain ⟨-, -, e0, e1, -⟩ := win0_index_facts t
  funext y
  show V c (Pipeline.arrRef spec0 1) (((cfg0.win 1).blk t).view.emb y) = _
  refine congrArg (V c (Pipeline.arrRef spec0 1)) (funext fun a => Fin.ext ?_)
  match a with
  | ⟨0, _⟩ => show win0_1.index t (0 : Fin 2) * 9 + 1 * (y 0).val = (y 0).val; omega
  | ⟨1, _⟩ => show win0_1.index t (1 : Fin 2) * 600 + 1 * (y 1).val = (y 1).val; omega

/-- The staged first bias row is the whole array at every point. -/
theorem iblk0_2_eq (c : Dev nD) (t : Fin cfg0.N) :
    (iblk0 (F := Ideal) V c 2 t : Vec Ideal S600 .f32) = V c (Pipeline.arrRef spec0 2) := by
  obtain ⟨-, -, -, -, e0, -⟩ := win0_index_facts t
  funext y
  show V c (Pipeline.arrRef spec0 2) (((cfg0.win 2).blk t).view.emb y) = _
  refine congrArg (V c (Pipeline.arrRef spec0 2)) (funext fun a => Fin.ext ?_)
  match a with
  | ⟨0, _⟩ => show win0_2.index t (0 : Fin 1) * 600 + 1 * (y 0).val = (y 0).val; omega

/-- The staged second weight matrix is the whole array at every point. -/
theorem iblk0_3_eq (c : Dev nD) (t : Fin cfg0.N) :
    (iblk0 (F := Ideal) V c 3 t : Vec Ideal S600x600 .f32) = V c (Pipeline.arrRef spec0 3) := by
  obtain ⟨-, -, -, -, -, e0, e1, -⟩ := win0_index_facts t
  funext y
  show V c (Pipeline.arrRef spec0 3) (((cfg0.win 3).blk t).view.emb y) = _
  refine congrArg (V c (Pipeline.arrRef spec0 3)) (funext fun a => Fin.ext ?_)
  match a with
  | ⟨0, _⟩ => show win0_3.index t (0 : Fin 2) * 600 + 1 * (y 0).val = (y 0).val; omega
  | ⟨1, _⟩ => show win0_3.index t (1 : Fin 2) * 600 + 1 * (y 1).val = (y 1).val; omega

/-- The staged second bias row is the whole array at every point. -/
theorem iblk0_4_eq (c : Dev nD) (t : Fin cfg0.N) :
    (iblk0 (F := Ideal) V c 4 t : Vec Ideal S600 .f32) = V c (Pipeline.arrRef spec0 4) := by
  obtain ⟨-, -, -, -, -, -, -, e0, -⟩ := win0_index_facts t
  funext y
  show V c (Pipeline.arrRef spec0 4) (((cfg0.win 4).blk t).view.emb y) = _
  refine congrArg (V c (Pipeline.arrRef spec0 4)) (funext fun a => Fin.ext ?_)
  match a with
  | ⟨0, _⟩ => show win0_4.index t (0 : Fin 1) * 600 + 1 * (y 0).val = (y 0).val; omega

/-- WHAT POINT `t` WRITES BACK is block `t` of the reference's perceptron of the input arrays. -/
theorem flushed0_5_eq (c : Dev nD) (t : Fin cfg0.N) :
    (dat0 (F := Ideal) V c).flushed 5 t = ((cfg0.win 5).blk t).view.read (Elt Ideal) (mlpArr0 V c) := by
  show (cfg0.win 5).cut (grid0.coords t) ((dat0 (F := Ideal) V c).after 5 t) = _
  rw [after0_5]
  unfold out0_5
  rw [View.canon_unit_zero hz_pair]
  simp only [View.ld_unit_zero (S := S1000x9) hz_pair, View.ld_unit_zero (S := S9x600) hz_pair, View.ld_unit_zero (S := S600x600) hz_pair,
    View.ld_unit_zero (S := S600) hz_single]
  obtain ⟨-, -, -, -, -, -, -, -, e0, e1⟩ := win0_index_facts t
  have ht : t.val < 30 := lt_of_lt_of_eq t.isLt (by decide : grid0.N = 30)
  show (k0_pay1 (F := Ideal) (iblk0 V c 0 t) (iblk0 V c 1 t) (iblk0 V c 2 t) (iblk0 V c 3 t) (iblk0 V c 4 t) : S1000x600.Idx → EReal)
      = fun y : S1000x600.Idx => mlpArr0 V c (((cfg0.win 5).blk t).view.emb y)
  funext y
  obtain ⟨r, j, rfl⟩ : ∃ (r : Fin 1000) (j : Fin 600), y = ix2 r j := ⟨y 0, y 1, eq_ix2 y⟩
  refine (k0_pay1_eq_mlp0 _ _ _ _ _ (V c (Pipeline.arrRef spec0 0)) (V c (Pipeline.arrRef spec0 1)) (V c (Pipeline.arrRef spec0 2))
    (V c (Pipeline.arrRef spec0 3)) (V c (Pipeline.arrRef spec0 4)) t.val ht (iblk0_0_apply V c t) (iblk0_1_eq V c t) (iblk0_2_eq V c t)
    (iblk0_3_eq V c t) (iblk0_4_eq V c t) r j).trans ?_
  show mlpArr0 V c _ = mlpArr0 V c _
  refine congrArg (mlpArr0 V c) (funext fun a => Fin.ext ?_)
  match a with
  | ⟨0, _⟩ => show 1000 * t.val + r.val = win0_5.index t (0 : Fin 2) * 1000 + 1 * r.val; omega
  | ⟨1, _⟩ => show j.val = win0_5.index t (1 : Fin 2) * 600 + 1 * j.val; omega

/-- An index of the array is in point `t`'s block iff each coordinate is in the block's range on its axis. -/
theorem win0_5_mem_blk (t : Fin cfg0.N) (i : S30000x600.Idx) :
    i ∈ ((cfg0.win 5).blk t).view.set ↔ ∀ a : Fin 2, win0_5.index t a * S1000x600.size a ≤ (i a).val
      ∧ (i a).val < win0_5.index t a * S1000x600.size a + S1000x600.size a := by
  show i ∈ ((View.whole (Pipeline.arrRef spec0 5)).slice (win0_5.rect t)).set ↔ _
  rw [View.set_slice_whole, Rect.mem_set_unit]
  exact Iff.rfl

/-- The thirty blocks tile the array: row `n` is in the block of point `n / 1000`, and every point writes back. -/
theorem win0_5_cover (i : S30000x600.Idx) :
    ∃ t : Fin cfg0.N, (cfg0.win 5).flush t = true ∧ i ∈ ((cfg0.win 5).blk t).view.set := by
  have hi0 : (i 0).val < 30000 := (i 0).isLt
  have hi1 : (i 1).val < 600 := (i 1).isLt
  obtain ⟨t, htv⟩ : ∃ t : Fin cfg0.N, t.val = (i 0).val / 1000 :=
    ⟨⟨(i 0).val / 1000, lt_of_lt_of_eq (show (i 0).val / 1000 < 30 by omega) (by decide : grid0.N = 30).symm⟩, rfl⟩
  obtain ⟨-, -, -, -, -, -, -, -, e0, e1⟩ := win0_index_facts t
  refine ⟨t, flush0_5 t, ?_⟩
  rw [win0_5_mem_blk]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 600 ≤ (i 1).val ∧ (i 1).val < win0_5.index t (1 : Fin 2) * 600 + 600; omega

/-- After the region the result array holds the reference's perceptron of the input arrays. -/
theorem mlp0_arr (c : Dev nD) : (dat0 (F := Ideal) V c).arrAt 5 cfg0.N = mlpArr0 V c := by
  exact (dat0 (F := Ideal) V c).arrAt_eq_of_cover 5 (mlpArr0 V c) (fun t _ => flushed0_5_eq V c t) win0_5_cover

end Cert.KernelIdeal.Hand

end
-- ==== Proof.KI.ValMlp1.lean ====
/-
  What GIN layer 1's region leaves in its result array, at the ideal instance (floats are extended reals): the
  reference's two-layer perceptron `relu(relu(z·w1 + b1)·w2 + b2)` of the region's five input arrays as the region
  finds them.

  Point `t` writes back rows `1000 t … 1000 t + 999`; row `r` of its block is the body's payload of row `r` of the
  staged block of `z` (row `1000 t + r` of the array) and of the whole weights and biases. A matrix product into a zero
  accumulator and the host's `dot_general` are the same sum over the contracted axis, the changes of float format are
  the identity, and the bias row broadcast over the block's rows is the bias row broadcast over the array's rows. The
  thirty blocks tile the array.
-/
import proofs.«400628_j75076028334403_3_alg».proof.Proof.KI.Mlp1
import proofs.«400628_j75076028334403_3_alg».proof.Proof.KI.ValOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

/-! ## The region's payload at an index -/

/-- Entry `(r, j)` of the body's payload: the perceptron of row `r` of the staged block. -/
theorem k1_pay1_apply (x0 : Vec Ideal S1000x600 .f32) (x1 : Vec Ideal S600x600 .f32) (x2 : Vec Ideal S600 .f32)
    (x3 : Vec Ideal S600x600 .f32) (x4 : Vec Ideal S600 .f32) (r : Fin 1000) (j : Fin 600) :
    k1_pay1 (F := Ideal) x0 x1 x2 x3 x4 (ix2 r j)
      = max ((∑ k : Fin 600, max ((∑ i : Fin 600, x0 (ix2 r i) * x1 (ix2 i k)) + x2 (ix1 k)) 0 * x3 (ix2 k j)) + x4 (ix1 j)) 0 := by
  unfold k1_pay1
  refine (krelu600_apply _ _).trans ?_
  refine congrArg (fun s => max s 0) ?_
  refine (addf_apply _ _ _).trans ?_
  refine congrArg₂ (· + ·) ((kdot600_apply _ _ r j).trans (Finset.sum_congr rfl fun k _ => ?_)) (kbias600_apply x4 r j)
  refine congrArg₂ (· * ·) ?_ (congrFun (shapeCast_self x3 _) _)
  refine (truncf_apply (ψ := .bf16) _ bitsLt_bf16_f32 _).trans ((krelu600_apply _ _).trans (congrArg (fun s => max s 0) ?_))
  refine (addf_apply _ _ _).trans ?_
  refine congrArg₂ (· + ·) ((kdot600_apply _ _ r k).trans (Finset.sum_congr rfl fun i _ => ?_)) (kbias600_apply x2 r k)
  exact congrArg₂ (· * ·) (congrFun (shapeCast_self x0 _) _) (congrFun (shapeCast_self x1 _) _)

/-- A block of 1000 rows of the perceptron: when the staged block `x0` is rows `1000 tv … 1000 tv + 999` of `z` and
    the other four operands are the whole weights and biases, the payload's entry `(r, j)` is the reference's
    perceptron at `(1000 tv + r, j)`. -/
theorem k1_pay1_eq_mlpR (x0 : Vec Ideal S1000x600 .f32) (x1 : Vec Ideal S600x600 .f32) (x2 : Vec Ideal S600 .f32)
    (x3 : Vec Ideal S600x600 .f32) (x4 : Vec Ideal S600 .f32)
    (z : FVec Ideal Cert.ReferenceIdeal.S30000x600 .f32) (w1 : FVec Ideal Cert.ReferenceIdeal.S600x600 .f32)
    (b1 : FVec Ideal Cert.ReferenceIdeal.S600 .f32) (w2 : FVec Ideal Cert.ReferenceIdeal.S600x600 .f32)
    (b2 : FVec Ideal Cert.ReferenceIdeal.S600 .f32) (tv : Nat) (ht : tv < 30)
    (h0 : ∀ (r : Fin 1000) (i : Fin 600), x0 (ix2 r i) = z (ix2 ⟨1000 * tv + r.val, by have := r.isLt; omega⟩ i))
    (h1 : x1 = w1) (h2 : x2 = b1) (h3 : x3 = w2) (h4 : x4 = b2) (r : Fin 1000) (j : Fin 600) :
    k1_pay1 (F := Ideal) x0 x1 x2 x3 x4 (ix2 r j)
      = Cert.ReferenceIdeal.RefValue.mlpR (F := Ideal) z w1 b1 w2 b2 (ix2 ⟨1000 * tv + r.val, by have := r.isLt; omega⟩ j) := by
  subst h1 h2 h3 h4
  rw [k1_pay1_apply, rmlpR_apply]
  simp only [h0]

variable (V : (c : Dev nD) → (b : Ref sig .tc) → Buf (Elt Ideal) ((c : Thread nD τ).loc b))

/-- The reference's perceptron of the region's five input arrays. -/
def mlpArr1 (c : Dev nD) : Buf (Elt Ideal) ((cfg1.win 5).arr.view.loc (c.tc : Thread nD τ)) :=
  Cert.ReferenceIdeal.RefValue.mlpR (F := Ideal) (V c (Pipeline.arrRef spec1 0)) (V c (Pipeline.arrRef spec1 1))
    (V c (Pipeline.arrRef spec1 2)) (V c (Pipeline.arrRef spec1 3)) (V c (Pipeline.arrRef spec1 4))

/-! ## From the blocks to the array -/

private theorem hz_pair : (![0, 0] : Fin 2 → Nat) = fun _ => 0 := funext fun a => by fin_cases a <;> rfl
private theorem hz_single : (![0] : Fin 1 → Nat) = fun _ => 0 := funext fun a => by fin_cases a; rfl

/-- The printed index maps, decided over the grid: the input block and the output block are block `t` of the rows; the
    weights' and biases' blocks never move. -/
theorem win1_index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `r` of the staged input block at point `t` is row `1000 t + r` of the array. -/
theorem iblk1_0_apply (c : Dev nD) (t : Fin cfg1.N) (r : Fin 1000) (i : Fin 600) :
    (iblk1 (F := Ideal) V c 0 t : Vec Ideal S1000x600 .f32) (ix2 r i)
      = (V c (Pipeline.arrRef spec1 0) : FVec Ideal S30000x600 .f32)
          (ix2 ⟨1000 * t.val + r.val, by have := r.isLt; have := lt_of_lt_of_eq t.isLt (by decide : grid1.N = 30); omega⟩ i) := by
  obtain ⟨e0, e1, -⟩ := win1_index_facts t
  show V c (Pipeline.arrRef spec1 0) (((cfg1.win 0).blk t).view.emb (ix2 r i)) = _
  refine congrArg (V c (Pipeline.arrRef spec1 0)) (funext fun a => Fin.ext ?_)
  match a with
  | ⟨0, _⟩ => show win1_0.index t (0 : Fin 2) * 1000 + 1 * r.val = 1000 * t.val + r.val; omega
  | ⟨1, _⟩ => show win1_0.index t (1 : Fin 2) * 600 + 1 * i.val = i.val; omega

/-- The staged first weight matrix is the whole array at every point. -/
theorem iblk1_1_eq (c : Dev nD) (t : Fin cfg1.N) :
    (iblk1 (F := Ideal) V c 1 t : Vec Ideal S600x600 .f32) = V c (Pipeline.arrRef spec1 1) := by
  obtain ⟨-, -, e0, e1, -⟩ := win1_index_facts t
  funext y
  show V c (Pipeline.arrRef spec1 1) (((cfg1.win 1).blk t).view.emb y) = _
  refine congrArg (V c (Pipeline.arrRef spec1 1)) (funext fun a => Fin.ext ?_)
  match a with
  | ⟨0, _⟩ => show win1_1.index t (0 : Fin 2) * 600 + 1 * (y 0).val = (y 0).val; omega
  | ⟨1, _⟩ => show win1_1.index t (1 : Fin 2) * 600 + 1 * (y 1).val = (y 1).val; omega

/-- The staged first bias row is the whole array at every point. -/
theorem iblk1_2_eq (c : Dev nD) (t : Fin cfg1.N) :
    (iblk1 (F := Ideal) V c 2 t : Vec Ideal S600 .f32) = V c (Pipeline.arrRef spec1 2) := by
  obtain ⟨-, -, -, -, e0, -⟩ := win1_index_facts t
  funext y
  show V c (Pipeline.arrRef spec1 2) (((cfg1.win 2).blk t).view.emb y) = _
  refine congrArg (V c (Pipeline.arrRef spec1 2)) (funext fun a => Fin.ext ?_)
  match a with
  | ⟨0, _⟩ => show win1_2.index t (0 : Fin 1) * 600 + 1 * (y 0).val = (y 0).val; omega

/-- The staged second weight matrix is the whole array at every point. -/
theorem iblk1_3_eq (c : Dev nD) (t : Fin cfg1.N) :
    (iblk1 (F := Ideal) V c 3 t : Vec Ideal S600x600 .f32) = V c (Pipeline.arrRef spec1 3) := by
  obtain ⟨-, -, -, -, -, e0, e1, -⟩ := win1_index_facts t
  funext y
  show V c (Pipeline.arrRef spec1 3) (((cfg1.win 3).blk t).view.emb y) = _
  refine congrArg (V c (Pipeline.arrRef spec1 3)) (funext fun a => Fin.ext ?_)
  match a with
  | ⟨0, _⟩ => show win1_3.index t (0 : Fin 2) * 600 + 1 * (y 0).val = (y 0).val; omega
  | ⟨1, _⟩ => show win1_3.index t (1 : Fin 2) * 600 + 1 * (y 1).val = (y 1).val; omega

/-- The staged second bias row is the whole array at every point. -/
theorem iblk1_4_eq (c : Dev nD) (t : Fin cfg1.N) :
    (iblk1 (F := Ideal) V c 4 t : Vec Ideal S600 .f32) = V c (Pipeline.arrRef spec1 4) := by
  obtain ⟨-, -, -, -, -, -, -, e0, -⟩ := win1_index_facts t
  funext y
  show V c (Pipeline.arrRef spec1 4) (((cfg1.win 4).blk t).view.emb y) = _
  refine congrArg (V c (Pipeline.arrRef spec1 4)) (funext fun a => Fin.ext ?_)
  match a with
  | ⟨0, _⟩ => show win1_4.index t (0 : Fin 1) * 600 + 1 * (y 0).val = (y 0).val; omega

/-- WHAT POINT `t` WRITES BACK is block `t` of the reference's perceptron of the input arrays. -/
theorem flushed1_5_eq (c : Dev nD) (t : Fin cfg1.N) :
    (dat1 (F := Ideal) V c).flushed 5 t = ((cfg1.win 5).blk t).view.read (Elt Ideal) (mlpArr1 V c) := by
  show (cfg1.win 5).cut (grid1.coords t) ((dat1 (F := Ideal) V c).after 5 t) = _
  rw [after1_5]
  unfold out1_5
  rw [View.canon_unit_zero hz_pair]
  simp only [View.ld_unit_zero (S := S1000x600) hz_pair, View.ld_unit_zero (S := S600x600) hz_pair, View.ld_unit_zero (S := S600) hz_single]
  obtain ⟨-, -, -, -, -, -, -, -, e0, e1⟩ := win1_index_facts t
  have ht : t.val < 30 := lt_of_lt_of_eq t.isLt (by decide : grid1.N = 30)
  show (k1_pay1 (F := Ideal) (iblk1 V c 0 t) (iblk1 V c 1 t) (iblk1 V c 2 t) (iblk1 V c 3 t) (iblk1 V c 4 t) : S1000x600.Idx → EReal)
      = fun y : S1000x600.Idx => mlpArr1 V c (((cfg1.win 5).blk t).view.emb y)
  funext y
  obtain ⟨r, j, rfl⟩ : ∃ (r : Fin 1000) (j : Fin 600), y = ix2 r j := ⟨y 0, y 1, eq_ix2 y⟩
  refine (k1_pay1_eq_mlpR _ _ _ _ _ (V c (Pipeline.arrRef spec1 0)) (V c (Pipeline.arrRef spec1 1)) (V c (Pipeline.arrRef spec1 2))
    (V c (Pipeline.arrRef spec1 3)) (V c (Pipeline.arrRef spec1 4)) t.val ht (iblk1_0_apply V c t) (iblk1_1_eq V c t) (iblk1_2_eq V c t)
    (iblk1_3_eq V c t) (iblk1_4_eq V c t) r j).trans ?_
  show mlpArr1 V c _ = mlpArr1 V c _
  refine congrArg (mlpArr1 V c) (funext fun a => Fin.ext ?_)
  match a with
  | ⟨0, _⟩ => show 1000 * t.val + r.val = win1_5.index t (0 : Fin 2) * 1000 + 1 * r.val; omega
  | ⟨1, _⟩ => show j.val = win1_5.index t (1 : Fin 2) * 600 + 1 * j.val; omega

/-- An index of the array is in point `t`'s block iff each coordinate is in the block's range on its axis. -/
theorem win1_5_mem_blk (t : Fin cfg1.N) (i : S30000x600.Idx) :
    i ∈ ((cfg1.win 5).blk t).view.set ↔ ∀ a : Fin 2, win1_5.index t a * S1000x600.size a ≤ (i a).val
      ∧ (i a).val < win1_5.index t a * S1000x600.size a + S1000x600.size a := by
  show i ∈ ((View.whole (Pipeline.arrRef spec1 5)).slice (win1_5.rect t)).set ↔ _
  rw [View.set_slice_whole, Rect.mem_set_unit]
  exact Iff.rfl

/-- The thirty blocks tile the array: row `n` is in the block of point `n / 1000`, and every point writes back. -/
theorem win1_5_cover (i : S30000x600.Idx) :
    ∃ t : Fin cfg1.N, (cfg1.win 5).flush t = true ∧ i ∈ ((cfg1.win 5).blk t).view.set := by
  have hi0 : (i 0).val < 30000 := (i 0).isLt
  have hi1 : (i 1).val < 600 := (i 1).isLt
  obtain ⟨t, htv⟩ : ∃ t : Fin cfg1.N, t.val = (i 0).val / 1000 :=
    ⟨⟨(i 0).val / 1000, lt_of_lt_of_eq (show (i 0).val / 1000 < 30 by omega) (by decide : grid1.N = 30).symm⟩, rfl⟩
  obtain ⟨-, -, -, -, -, -, -, -, e0, e1⟩ := win1_index_facts t
  refine ⟨t, flush1_5 t, ?_⟩
  rw [win1_5_mem_blk]
  intro a
  match a with
  | ⟨0, _⟩ => show win1_5.index t (0 : Fin 2) * 1000 ≤ (i 0).val ∧ (i 0).val < win1_5.index t (0 : Fin 2) * 1000 + 1000; omega
  | ⟨1, _⟩ => show win1_5.index t (1 : Fin 2) * 600 ≤ (i 1).val ∧ (i 1).val < win1_5.index t (1 : Fin 2) * 600 + 600; omega

/-- After the region the result array holds the reference's perceptron of the input arrays. -/
theorem mlp1_arr (c : Dev nD) : (dat1 (F := Ideal) V c).arrAt 5 cfg1.N = mlpArr1 V c := by
  exact (dat1 (F := Ideal) V c).arrAt_eq_of_cover 5 (mlpArr1 V c) (fun t _ => flushed1_5_eq V c t) win1_5_cover

end Cert.KernelIdeal.Hand

end
-- ==== Proof.KI.ValMlp4.lean ====
/-
  What GIN layer 4's region leaves in its result array, at the ideal instance (floats are extended reals): the
  reference's two-layer perceptron without the closing rectifier, `relu(z·w1 + b1)·w2 + b2`, of the region's five input
  arrays as the region finds them.

  Point `t` writes back rows `1000 t … 1000 t + 999`; row `r` of its block is the body's payload of row `r` of the
  staged block of `z` (row `1000 t + r` of the array) and of the whole weights and biases. A matrix product into a zero
  accumulator and the host's `dot_general` are the same sum over the contracted axis, the changes of float format are
  the identity, and the bias row broadcast over the block's rows is the bias row broadcast over the array's rows. The
  thirty blocks tile the array.
-/
import proofs.«400628_j75076028334403_3_alg».proof.Proof.KI.Mlp4
import proofs.«400628_j75076028334403_3_alg».proof.Proof.KI.ValOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

/-! ## The region's payload at an index -/

/-- Entry `(r, j)` of the body's payload: the perceptron (no closing rectifier) of row `r` of the staged block. -/
theorem k4_pay1_apply (x0 : Vec Ideal S1000x600 .f32) (x1 : Vec Ideal S600x600 .f32) (x2 : Vec Ideal S600 .f32)
    (x3 : Vec Ideal S600x600 .f32) (x4 : Vec Ideal S600 .f32) (r : Fin 1000) (j : Fin 600) :
    k4_pay1 (F := Ideal) x0 x1 x2 x3 x4 (ix2 r j)
      = (∑ k : Fin 600, max ((∑ i : Fin 600, x0 (ix2 r i) * x1 (ix2 i k)) + x2 (ix1 k)) 0 * x3 (ix2 k j)) + x4 (ix1 j) := by
  unfold k4_pay1
  refine (addf_apply _ _ _).trans ?_
  refine congrArg₂ (· + ·) ((kdot600_apply _ _ r j).trans (Finset.sum_congr rfl fun k _ => ?_)) (kbias600_apply x4 r j)
  refine congrArg₂ (· * ·) ?_ (congrFun (shapeCast_self x3 _) _)
  refine (truncf_apply (ψ := .bf16) _ bitsLt_bf16_f32 _).trans ((krelu600_apply _ _).trans (congrArg (fun s => max s 0) ?_))
  refine (addf_apply _ _ _).trans ?_
  refine congrArg₂ (· + ·) ((kdot600_apply _ _ r k).trans (Finset.sum_congr rfl fun i _ => ?_)) (kbias600_apply x2 r k)
  exact congrArg₂ (· * ·) (congrFun (shapeCast_self x0 _) _) (congrFun (shapeCast_self x1 _) _)

/-- A block of 1000 rows of the perceptron: when the staged block `x0` is rows `1000 tv … 1000 tv + 999` of `z` and
    the other four operands are the whole weights and biases, the payload's entry `(r, j)` is the reference's
    perceptron at `(1000 tv + r, j)`. -/
theorem k4_pay1_eq_mlpN (x0 : Vec Ideal S1000x600 .f32) (x1 : Vec Ideal S600x600 .f32) (x2 : Vec Ideal S600 .f32)
    (x3 : Vec Ideal S600x600 .f32) (x4 : Vec Ideal S600 .f32)
    (z : FVec Ideal Cert.ReferenceIdeal.S30000x600 .f32) (w1 : FVec Ideal Cert.ReferenceIdeal.S600x600 .f32)
    (b1 : FVec Ideal Cert.ReferenceIdeal.S600 .f32) (w2 : FVec Ideal Cert.ReferenceIdeal.S600x600 .f32)
    (b2 : FVec Ideal Cert.ReferenceIdeal.S600 .f32) (tv : Nat) (ht : tv < 30)
    (h0 : ∀ (r : Fin 1000) (i : Fin 600), x0 (ix2 r i) = z (ix2 ⟨1000 * tv + r.val, by have := r.isLt; omega⟩ i))
    (h1 : x1 = w1) (h2 : x2 = b1) (h3 : x3 = w2) (h4 : x4 = b2) (r : Fin 1000) (j : Fin 600) :
    k4_pay1 (F := Ideal) x0 x1 x2 x3 x4 (ix2 r j)
      = Cert.ReferenceIdeal.RefValue.mlpN (F := Ideal) z w1 b1 w2 b2 (ix2 ⟨1000 * tv + r.val, by have := r.isLt; omega⟩ j) := by
  subst h1 h2 h3 h4
  rw [k4_pay1_apply, rmlpN_apply]
  simp only [h0]

variable (V : (c : Dev nD) → (b : Ref sig .tc) → Buf (Elt Ideal) ((c : Thread nD τ).loc b))

/-- The reference's perceptron of the region's five input arrays. -/
def mlpArr4 (c : Dev nD) : Buf (Elt Ideal) ((cfg4.win 5).arr.view.loc (c.tc : Thread nD τ)) :=
  Cert.ReferenceIdeal.RefValue.mlpN (F := Ideal) (V c (Pipeline.arrRef spec4 0)) (V c (Pipeline.arrRef spec4 1))
    (V c (Pipeline.arrRef spec4 2)) (V c (Pipeline.arrRef spec4 3)) (V c (Pipeline.arrRef spec4 4))

/-! ## From the blocks to the array -/

private theorem hz_pair : (![0, 0] : Fin 2 → Nat) = fun _ => 0 := funext fun a => by fin_cases a <;> rfl
private theorem hz_single : (![0] : Fin 1 → Nat) = fun _ => 0 := funext fun a => by fin_cases a; rfl

/-- The printed index maps, decided over the grid: the input block and the output block are block `t` of the rows; the
    weights' and biases' blocks never move. -/
theorem win4_index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-- Row `r` of the staged input block at point `t` is row `1000 t + r` of the array. -/
theorem iblk4_0_apply (c : Dev nD) (t : Fin cfg4.N) (r : Fin 1000) (i : Fin 600) :
    (iblk4 (F := Ideal) V c 0 t : Vec Ideal S1000x600 .f32) (ix2 r i)
      = (V c (Pipeline.arrRef spec4 0) : FVec Ideal S30000x600 .f32)
          (ix2 ⟨1000 * t.val + r.val, by have := r.isLt; have := lt_of_lt_of_eq t.isLt (by decide : grid4.N = 30); omega⟩ i) := by
  obtain ⟨e0, e1, -⟩ := win4_index_facts t
  show V c (Pipeline.arrRef spec4 0) (((cfg4.win 0).blk t).view.emb (ix2 r i)) = _
  refine congrArg (V c (Pipeline.arrRef spec4 0)) (funext fun a => Fin.ext ?_)
  match a with
  | ⟨0, _⟩ => show win4_0.index t (0 : Fin 2) * 1000 + 1 * r.val = 1000 * t.val + r.val; omega
  | ⟨1, _⟩ => show win4_0.index t (1 : Fin 2) * 600 + 1 * i.val = i.val; omega

/-- The staged first weight matrix is the whole array at every point. -/
theorem iblk4_1_eq (c : Dev nD) (t : Fin cfg4.N) :
    (iblk4 (F := Ideal) V c 1 t : Vec Ideal S600x600 .f32) = V c (Pipeline.arrRef spec4 1) := by
  obtain ⟨-, -, e0, e1, -⟩ := win4_index_facts t
  funext y
  show V c (Pipeline.arrRef spec4 1) (((cfg4.win 1).blk t).view.emb y) = _
  refine congrArg (V c (Pipeline.arrRef spec4 1)) (funext fun a => Fin.ext ?_)
  match a with
  | ⟨0, _⟩ => show win4_1.index t (0 : Fin 2) * 600 + 1 * (y 0).val = (y 0).val; omega
  | ⟨1, _⟩ => show win4_1.index t (1 : Fin 2) * 600 + 1 * (y 1).val = (y 1).val; omega

/-- The staged first bias row is the whole array at every point. -/
theorem iblk4_2_eq (c : Dev nD) (t : Fin cfg4.N) :
    (iblk4 (F := Ideal) V c 2 t : Vec Ideal S600 .f32) = V c (Pipeline.arrRef spec4 2) := by
  obtain ⟨-, -, -, -, e0, -⟩ := win4_index_facts t
  funext y
  show V c (Pipeline.arrRef spec4 2) (((cfg4.win 2).blk t).view.emb y) = _
  refine congrArg (V c (Pipeline.arrRef spec4 2)) (funext fun a => Fin.ext ?_)
  match a with
  | ⟨0, _⟩ => show win4_2.index t (0 : Fin 1) * 600 + 1 * (y 0).val = (y 0).val; omega

/-- The staged second weight matrix is the whole array at every point. -/
theorem iblk4_3_eq (c : Dev nD) (t : Fin cfg4.N) :
    (iblk4 (F := Ideal) V c 3 t : Vec Ideal S600x600 .f32) = V c (Pipeline.arrRef spec4 3) := by
  obtain ⟨-, -, -, -, -, e0, e1, -⟩ := win4_index_facts t
  funext y
  show V c (Pipeline.arrRef spec4 3) (((cfg4.win 3).blk t).view.emb y) = _
  refine congrArg (V c (Pipeline.arrRef spec4 3)) (funext fun a => Fin.ext ?_)
  match a with
  | ⟨0, _⟩ => show win4_3.index t (0 : Fin 2) * 600 + 1 * (y 0).val = (y 0).val; omega
  | ⟨1, _⟩ => show win4_3.index t (1 : Fin 2) * 600 + 1 * (y 1).val = (y 1).val; omega

/-- The staged second bias row is the whole array at every point. -/
theorem iblk4_4_eq (c : Dev nD) (t : Fin cfg4.N) :
    (iblk4 (F := Ideal) V c 4 t : Vec Ideal S600 .f32) = V c (Pipeline.arrRef spec4 4) := by
  obtain ⟨-, -, -, -, -, -, -, e0, -⟩ := win4_index_facts t
  funext y
  show V c (Pipeline.arrRef spec4 4) (((cfg4.win 4).blk t).view.emb y) = _
  refine congrArg (V c (Pipeline.arrRef spec4 4)) (funext fun a => Fin.ext ?_)
  match a with
  | ⟨0, _⟩ => show win4_4.index t (0 : Fin 1) * 600 + 1 * (y 0).val = (y 0).val; omega

/-- WHAT POINT `t` WRITES BACK is block `t` of the reference's perceptron of the input arrays. -/
theorem flushed4_5_eq (c : Dev nD) (t : Fin cfg4.N) :
    (dat4 (F := Ideal) V c).flushed 5 t = ((cfg4.win 5).blk t).view.read (Elt Ideal) (mlpArr4 V c) := by
  show (cfg4.win 5).cut (grid4.coords t) ((dat4 (F := Ideal) V c).after 5 t) = _
  rw [after4_5]
  unfold out4_5
  rw [View.canon_unit_zero hz_pair]
  simp only [View.ld_unit_zero (S := S1000x600) hz_pair, View.ld_unit_zero (S := S600x600) hz_pair, View.ld_unit_zero (S := S600) hz_single]
  obtain ⟨-, -, -, -, -, -, -, -, e0, e1⟩ := win4_index_facts t
  have ht : t.val < 30 := lt_of_lt_of_eq t.isLt (by decide : grid4.N = 30)
  show (k4_pay1 (F := Ideal) (iblk4 V c 0 t) (iblk4 V c 1 t) (iblk4 V c 2 t) (iblk4 V c 3 t) (iblk4 V c 4 t) : S1000x600.Idx → EReal)
      = fun y : S1000x600.Idx => mlpArr4 V c (((cfg4.win 5).blk t).view.emb y)
  funext y
  obtain ⟨r, j, rfl⟩ : ∃ (r : Fin 1000) (j : Fin 600), y = ix2 r j := ⟨y 0, y 1, eq_ix2 y⟩
  refine (k4_pay1_eq_mlpN _ _ _ _ _ (V c (Pipeline.arrRef spec4 0)) (V c (Pipeline.arrRef spec4 1)) (V c (Pipeline.arrRef spec4 2))
    (V c (Pipeline.arrRef spec4 3)) (V c (Pipeline.arrRef spec4 4)) t.val ht (iblk4_0_apply V c t) (iblk4_1_eq V c t) (iblk4_2_eq V c t)
    (iblk4_3_eq V c t) (iblk4_4_eq V c t) r j).trans ?_
  show mlpArr4 V c _ = mlpArr4 V c _
  refine congrArg (mlpArr4 V c) (funext fun a => Fin.ext ?_)
  match a with
  | ⟨0, _⟩ => show 1000 * t.val + r.val = win4_5.index t (0 : Fin 2) * 1000 + 1 * r.val; omega
  | ⟨1, _⟩ => show j.val = win4_5.index t (1 : Fin 2) * 600 + 1 * j.val; omega

/-- An index of the array is in point `t`'s block iff each coordinate is in the block's range on its axis. -/
theorem win4_5_mem_blk (t : Fin cfg4.N) (i : S30000x600.Idx) :
    i ∈ ((cfg4.win 5).blk t).view.set ↔ ∀ a : Fin 2, win4_5.index t a * S1000x600.size a ≤ (i a).val
      ∧ (i a).val < win4_5.index t a * S1000x600.size a + S1000x600.size a := by
  show i ∈ ((View.whole (Pipeline.arrRef spec4 5)).slice (win4_5.rect t)).set ↔ _
  rw [View.set_slice_whole, Rect.mem_set_unit]
  exact Iff.rfl

/-- The thirty blocks tile the array: row `n` is in the block of point `n / 1000`, and every point writes back. -/
theorem win4_5_cover (i : S30000x600.Idx) :
    ∃ t : Fin cfg4.N, (cfg4.win 5).flush t = true ∧ i ∈ ((cfg4.win 5).blk t).view.set := by
  have hi0 : (i 0).val < 30000 := (i 0).isLt
  have hi1 : (i 1).val < 600 := (i 1).isLt
  obtain ⟨t, htv⟩ : ∃ t : Fin cfg4.N, t.val = (i 0).val / 1000 :=
    ⟨⟨(i 0).val / 1000, lt_of_lt_of_eq (show (i 0).val / 1000 < 30 by omega) (by decide : grid4.N = 30).symm⟩, rfl⟩
  obtain ⟨-, -, -, -, -, -, -, -, e0, e1⟩ := win4_index_facts t
  refine ⟨t, flush4_5 t, ?_⟩
  rw [win4_5_mem_blk]
  intro a
  match a with
  | ⟨0, _⟩ => show win4_5.index t (0 : Fin 2) * 1000 ≤ (i 0).val ∧ (i 0).val < win4_5.index t (0 : Fin 2) * 1000 + 1000; omega
  | ⟨1, _⟩ => show win4_5.index t (1 : Fin 2) * 600 ≤ (i 1).val ∧ (i 1).val < win4_5.index t (1 : Fin 2) * 600 + 600; omega

/-- After the region the result array holds the reference's perceptron of the input arrays. -/
theorem mlp4_arr (c : Dev nD) : (dat4 (F := Ideal) V c).arrAt 5 cfg4.N = mlpArr4 V c := by
  exact (dat4 (F := Ideal) V c).arrAt_eq_of_cover 5 (mlpArr4 V c) (fun t _ => flushed4_5_eq V c t) win4_5_cover

end Cert.KernelIdeal.Hand

end
-- ==== Proof.KI.ValPool5.lean ====
/-
  What the pooling region leaves in its result array, at the ideal instance (floats are extended reals): the
  reference's sum pooling of the node features by graph id — at graph `g` and feature `d` the sum of `h n d` over the
  nodes `n` whose id is `g` (a scatter-add of the rows into zeros; an id outside `0 … 511` lands nowhere).

  The kernel's running sum after point `n` (`acc5`) is, at `(g, d)`, the sum over the nodes of blocks `0 … n` of
  `[id = g] · h`: the one-hot matrix has a one exactly where the staged id equals the column index, `1 · x = x` and
  `0 · x = 0` for every extended real `x`, the point's product is the sum over the block's 2000 rows, and adding the
  points' sums in order is the sum over all rows below `2000 (n + 1)`. The output block is written back at the last
  point only, where it holds the running sum over all fifteen blocks, that is over all 30000 nodes. A node's update
  lands on `(g, d)` in the scatter exactly when its id, read as a signed word, is `g`.
-/
import proofs.«400628_j75076028334403_3_alg».proof.Proof.KI.Pool5
import proofs.«400628_j75076028334403_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-! ## The reference side: the scatter-add into zeros, read at an entry

The scatter has one index column and moves whole rows: update `(n, d')` starts at row `ids n` read as a SIGNED word, not
clamped, and lands on `(ids n, d')` when that row exists. For `g < 512` the signed value of a word is `g` exactly when
the word is `g`. -/

namespace Cert.Hand.PoolRef5

open Cert.ReferenceIdeal Idealize.ShloMosaic Idealize.ShloMosaic.ValueIdx

/-- The window's start on the row axis is the update row's id, read signed; -/
theorem start0 (j : S30000x600.Idx) (ids : IVec S30000x1 32) :
    scatter_S512x600_S30000x1_S30000x600_1_0_0_1.start j ids 0 = (ids (ix2 (j 0) 0)).toInt := by
  unfold ScatterDims.start
  rw [dif_pos (show (0 : Fin S512x600.rank) ∈ scatter_S512x600_S30000x1_S30000x600_1_0_0_1.scatterDimsToOperandDims by decide)]
  refine congrArg (fun x => (ids x).toInt) (funext fun b => Fin.ext ?_)
  match b with
  | ⟨0, _⟩ => rfl
  | ⟨1, _⟩ => rfl

/-- on the feature axis it is `0`. -/
theorem start1 (j : S30000x600.Idx) (ids : IVec S30000x1 32) :
    scatter_S512x600_S30000x1_S30000x600_1_0_0_1.start j ids 1 = 0 := by
  unfold ScatterDims.start
  rw [dif_neg (show ¬(1 : Fin S512x600.rank) ∈ scatter_S512x600_S30000x1_S30000x600_1_0_0_1.scatterDimsToOperandDims by decide)]

/-- The window coordinate is `0` on the row axis (the inserted one) -/
theorem window0 (j : S30000x600.Idx) :
    scatter_S512x600_S30000x1_S30000x600_1_0_0_1.window j 0 = 0 := by
  unfold ScatterDims.window
  rw [dif_neg (show ¬(0 : Fin S512x600.rank) ∈ scatter_S512x600_S30000x1_S30000x600_1_0_0_1.sKept by decide)]

/-- and the update's feature on the feature axis. -/
theorem window1 (j : S30000x600.Idx) :
    scatter_S512x600_S30000x1_S30000x600_1_0_0_1.window j 1 = (j 1).val := by
  unfold ScatterDims.window
  rw [dif_pos (show (1 : Fin S512x600.rank) ∈ scatter_S512x600_S30000x1_S30000x600_1_0_0_1.sKept by decide)]
  rfl

/-- A word's signed value is `g < 512` exactly when the word is `g`. -/
theorem signed_eq_iff (x : BitVec 32) (g : ℕ) (hg : g < 512) :
    (0 ≤ x.toInt ∧ x.toInt < 512 ∧ x.toInt.toNat = g) ↔ x = BitVec.ofNat 32 g := by
  rw [BitVec.toInt_eq_toNat_cond, ← BitVec.toNat_inj, BitVec.toNat_ofNat]
  have := x.isLt
  split <;> omega

/-- Update `(n, d')` lands on `(g, d)` exactly when `d' = d` and node `n`'s id is the word `g`. -/
theorem result_iff (ids : IVec S30000x1 32) (n : Fin 30000) (d' : Fin 600) (g : Fin 512) (d : Fin 600) :
    scatter_S512x600_S30000x1_S30000x600_1_0_0_1.resultIdx? (ix2 n d') ids = some (ix2 g d)
      ↔ d' = d ∧ ids (ix2 n 0) = BitVec.ofNat 32 g.val := by
  have s0 : scatter_S512x600_S30000x1_S30000x600_1_0_0_1.start (ix2 n d') ids 0 = (ids (ix2 n 0)).toInt := start0 _ _
  have s1 := start1 (ix2 n d') ids
  have w0 := window0 (ix2 n d')
  have w1 : scatter_S512x600_S30000x1_S30000x600_1_0_0_1.window (ix2 n d') 1 = d'.val := window1 _
  have hd' := d'.isLt
  unfold ScatterDims.resultIdx?
  constructor
  · intro h
    split at h
    · rename_i hin
      have e := Option.some.inj h
      have e0 : (scatter_S512x600_S30000x1_S30000x600_1_0_0_1.start (ix2 n d') ids 0 + scatter_S512x600_S30000x1_S30000x600_1_0_0_1.window (ix2 n d') 0).toNat = g.val := congrArg Fin.val (congrFun e 0)
      have e1 : (scatter_S512x600_S30000x1_S30000x600_1_0_0_1.start (ix2 n d') ids 1 + scatter_S512x600_S30000x1_S30000x600_1_0_0_1.window (ix2 n d') 1).toNat = d.val := congrArg Fin.val (congrFun e 1)
      have b0 : 0 ≤ scatter_S512x600_S30000x1_S30000x600_1_0_0_1.start (ix2 n d') ids 0 + scatter_S512x600_S30000x1_S30000x600_1_0_0_1.window (ix2 n d') 0 ∧ scatter_S512x600_S30000x1_S30000x600_1_0_0_1.start (ix2 n d') ids 0 + scatter_S512x600_S30000x1_S30000x600_1_0_0_1.window (ix2 n d') 0 < (512 : ℕ) := hin 0
      rw [s0, w0] at e0 b0
      rw [s1, w1] at e1
      exact ⟨Fin.ext (by omega), (signed_eq_iff _ _ g.isLt).mp ⟨by omega, by omega, by omega⟩⟩
    · exact absurd h (by simp)
  · rintro ⟨rfl, hx⟩
    obtain ⟨x0, x1, x2⟩ := (signed_eq_iff _ _ g.isLt).mpr hx
    have hin : ∀ a, 0 ≤ scatter_S512x600_S30000x1_S30000x600_1_0_0_1.start (ix2 n d') ids a + scatter_S512x600_S30000x1_S30000x600_1_0_0_1.window (ix2 n d') a ∧ scatter_S512x600_S30000x1_S30000x600_1_0_0_1.start (ix2 n d') ids a + scatter_S512x600_S30000x1_S30000x600_1_0_0_1.window (ix2 n d') a < S512x600.size a := by
      intro a
      match a with
      | ⟨0, _⟩ =>
        show 0 ≤ scatter_S512x600_S30000x1_S30000x600_1_0_0_1.start (ix2 n d') ids 0 + scatter_S512x600_S30000x1_S30000x600_1_0_0_1.window (ix2 n d') 0 ∧ scatter_S512x600_S30000x1_S30000x600_1_0_0_1.start (ix2 n d') ids 0 + scatter_S512x600_S30000x1_S30000x600_1_0_0_1.window (ix2 n d') 0 < (512 : ℕ)
        rw [s0, w0]; omega
      | ⟨1, _⟩ =>
        show 0 ≤ scatter_S512x600_S30000x1_S30000x600_1_0_0_1.start (ix2 n d') ids 1 + scatter_S512x600_S30000x1_S30000x600_1_0_0_1.window (ix2 n d') 1 ∧ scatter_S512x600_S30000x1_S30000x600_1_0_0_1.start (ix2 n d') ids 1 + scatter_S512x600_S30000x1_S30000x600_1_0_0_1.window (ix2 n d') 1 < (600 : ℕ)
        rw [s1, w1]; omega
    rw [dif_pos hin]
    refine congrArg some (funext fun a => Fin.ext ?_)
    match a with
    | ⟨0, _⟩ =>
      show (scatter_S512x600_S30000x1_S30000x600_1_0_0_1.start (ix2 n d') ids 0 + scatter_S512x600_S30000x1_S30000x600_1_0_0_1.window (ix2 n d') 0).toNat = g.val
      rw [s0, w0]; omega
    | ⟨1, _⟩ =>
      show (scatter_S512x600_S30000x1_S30000x600_1_0_0_1.start (ix2 n d') ids 1 + scatter_S512x600_S30000x1_S30000x600_1_0_0_1.window (ix2 n d') 1).toNat = d'.val
      rw [s1, w1]; omega

/-- The reference's pooling at `(g, d)`: the sum over all nodes of the rows whose id is the word `g`. -/
theorem pool_apply (h : FVec Ideal S30000x600 .f32) (ids : IVec S30000x1 32) (g : Fin 512) (d : Fin 600) :
    RefValue.pool (F := Ideal) h ids (ix2 g d)
      = ∑ n : Fin 30000, (if ids (ix2 n 0) = BitVec.ofNat 32 g.val then h (ix2 n d) else 0) := by
  unfold RefValue.pool
  simp only [Host.scatterAdd]
  rw [Ideal.hostScatterAdd_def]
  unfold Ideal.hostScatterAdd
  show Ideal.ofBits .f32 0x00000000#32 + _ = _
  rw [Ideal.ofBits_zero_f32, zero_add, Finset.sum_filter, sum_idx2]
  refine Finset.sum_congr rfl fun n _ => ?_
  simp only [result_iff]
  by_cases hx : ids (ix2 n 0) = BitVec.ofNat 32 g.val
  · simp [hx]
  · simp [hx]

end Cert.Hand.PoolRef5

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

open Idealize.ShloMosaic.ValueIdx

/-! ## One point's product, entry by entry -/

abbrev dotP : DotDims S2000x512 S2000x600 S512x600 := dot_S2000x512_S2000x600_S512x600_0_0_1_1_n_n

theorem lhs_dotP_0 (i : S512x600.Idx) (q : dot_S2000x512_S2000x600_S512x600_0_0_1_1_n_n.contr.Idx) :
    (dot_S2000x512_S2000x600_S512x600_0_0_1_1_n_n.lhsIdx i q 0).val = (q ⟨0, by decide⟩).val :=
  dot_S2000x512_S2000x600_S512x600_0_0_1_1_n_n.lhsIdx_val_of_single rfl i q
theorem lhs_dotP_1 (i : S512x600.Idx) (q : dot_S2000x512_S2000x600_S512x600_0_0_1_1_n_n.contr.Idx) :
    (dot_S2000x512_S2000x600_S512x600_0_0_1_1_n_n.lhsIdx i q 1).val = (i 0).val := by
  unfold DotDims.lhsIdx
  rw [dif_neg (show ¬(1 : Fin S2000x512.rank) ∈ dot_S2000x512_S2000x600_S512x600_0_0_1_1_n_n.lhsBatch by decide), dif_pos (show (1 : Fin S2000x512.rank) ∈ dot_S2000x512_S2000x600_S512x600_0_0_1_1_n_n.lhsNonContracting by decide)]
  rfl
theorem rhs_dotP_0 (i : S512x600.Idx) (q : dot_S2000x512_S2000x600_S512x600_0_0_1_1_n_n.contr.Idx) :
    (dot_S2000x512_S2000x600_S512x600_0_0_1_1_n_n.rhsIdx i q 0).val = (q ⟨0, by decide⟩).val :=
  dot_S2000x512_S2000x600_S512x600_0_0_1_1_n_n.rhsIdx_val_of_single rfl i q
theorem rhs_dotP_1 (i : S512x600.Idx) (q : dot_S2000x512_S2000x600_S512x600_0_0_1_1_n_n.contr.Idx) :
    (dot_S2000x512_S2000x600_S512x600_0_0_1_1_n_n.rhsIdx i q 1).val = (i 1).val := by
  unfold DotDims.rhsIdx
  rw [dif_neg (show ¬(1 : Fin S2000x600.rank) ∈ dot_S2000x512_S2000x600_S512x600_0_0_1_1_n_n.rhsBatch by decide), dif_pos (show (1 : Fin S2000x600.rank) ∈ dot_S2000x512_S2000x600_S512x600_0_0_1_1_n_n.rhsNonContracting by decide)]
  rfl

/-- The product of two operands contracted over their 2000 rows, read at `(g, d)`: the sum over the rows. -/
theorem matmulP_apply (l : FVec Ideal S2000x512 .bf16) (r : FVec Ideal S2000x600 .bf16) (g : Fin 512) (d : Fin 600) :
    matmul dot_S2000x512_S2000x600_S512x600_0_0_1_1_n_n none l r (constant (F := Ideal) S512x600 .f32 0x00000000#32) (ix2 g d)
      = ∑ k : Fin 2000, l (ix2 k g) * r (ix2 k d) := by
  simp only [matmul]
  rw [Ideal.matmul_constant_zero_apply, ← Equiv.sum_comp (ValueIdx.contrEquiv1 dot_S2000x512_S2000x600_S512x600_0_0_1_1_n_n 2000 rfl rfl).symm]
  refine Finset.sum_congr rfl fun k _ => ?_
  have hk := ValueIdx.contrEquiv1_symm_val dot_S2000x512_S2000x600_S512x600_0_0_1_1_n_n 2000 rfl rfl k
  have el : dot_S2000x512_S2000x600_S512x600_0_0_1_1_n_n.lhsIdx (ix2 g d) ((ValueIdx.contrEquiv1 dot_S2000x512_S2000x600_S512x600_0_0_1_1_n_n 2000 rfl rfl).symm k) = ix2 k g := funext fun a => Fin.ext (by
    match a with
    | ⟨0, _⟩ => exact (lhs_dotP_0 _ _).trans hk
    | ⟨1, _⟩ => exact lhs_dotP_1 _ _)
  have er : dot_S2000x512_S2000x600_S512x600_0_0_1_1_n_n.rhsIdx (ix2 g d) ((ValueIdx.contrEquiv1 dot_S2000x512_S2000x600_S512x600_0_0_1_1_n_n 2000 rfl rfl).symm k) = ix2 k d := funext fun a => Fin.ext (by
    match a with
    | ⟨0, _⟩ => exact (rhs_dotP_0 _ _).trans hk
    | ⟨1, _⟩ => exact rhs_dotP_1 _ _)
  rw [el, er]

/-- An entry of the one-hot matrix: the comparison's bit, widened and read as a signed integer, is `1` where the two
    words are equal and `0` elsewhere. -/
theorem onehot_scalar (x y : BitVec 32) :
    (FloatOps.sitofp (F := Ideal) .f32 ((IntOp.cmpi .eq x y).setWidth 32) : EReal) = if x = y then 1 else 0 := by
  show (((((IntOp.cmpi .eq x y).setWidth 32).toInt : ℝ)) : EReal) = _
  unfold IntOp.cmpi
  by_cases h : x = y
  · subst h; simp
  · have hb : (x == y) = false := by simpa using h
    simp [hb, h]

/-- The point's payload at `(g, d)`: what was there plus the sum, over the block's 2000 rows, of the rows whose staged
    id is the word `g`. -/
theorem pay2_apply (ids : Vec Ideal S2000x1 .i32) (h : Vec Ideal S2000x600 .f32) (a : Vec Ideal S512x600 .f32)
    (g : Fin 512) (d : Fin 600) :
    k5_pay2 (F := Ideal) ids h a (ix2 g d)
      = a (ix2 g d) + ∑ k : Fin 2000, (if ids (ix2 k 0) = BitVec.ofNat 32 g.val then h (ix2 k d) else 0) := by
  unfold k5_pay2
  dsimp only
  rw [shapeCast_self, shapeCast_self, shapeCast_self]
  show a (ix2 g d) + matmul dot_S2000x512_S2000x600_S512x600_0_0_1_1_n_n none _ _ (constant (F := Ideal) S512x600 .f32 0x00000000#32) (ix2 g d) = _
  rw [matmulP_apply]
  refine congrArg (a (ix2 g d) + ·) (Finset.sum_congr rfl fun k _ => ?_)
  show FloatOps.sitofp (F := Ideal) .f32 ((IntOp.cmpi .eq (broadcastTo S2000x512 ids broadcasts_S2000x1_S2000x512 (ix2 k g)) (iota .tc S2000x512 32 [1] iota_S2000x512_d1_w32 (ix2 k g))).setWidth 32) * h (ix2 k d) = _
  rw [iota_single_apply, broadcastTo_apply ids broadcasts_S2000x1_S2000x512 (ix2 k g) (ix2 k 0) (fun a => by
    match a with
    | ⟨0, _⟩ => rfl
    | ⟨1, _⟩ => rfl), onehot_scalar]
  show (if ids (ix2 k 0) = BitVec.ofNat 32 g.val then (1 : EReal) else 0) * h (ix2 k d) = _
  split
  · rw [one_mul]
  · rw [zero_mul]

variable (V : (c : Dev nD) → (b : Ref sig .tc) → Buf (Elt Ideal) ((c : Thread nD τ).loc b))

/-- The reference's sum pooling of the region's two input arrays. -/
def poolArr5 (c : Dev nD) : Buf (Elt Ideal) ((cfg5.win 2).arr.view.loc (c.tc : Thread nD τ)) :=
  Cert.ReferenceIdeal.RefValue.pool (F := Ideal) (V c (Pipeline.arrRef spec5 0)) (V c (Pipeline.arrRef spec5 1))

/-! ## The blocks as rows of the arrays, and the running sum as a sum over the rows staged so far -/

/-- The node features and the graph ids as the region finds them. -/
abbrev hArr5 (c : Dev nD) : Vec Ideal S30000x600 .f32 := V c (Pipeline.arrRef spec5 0)
abbrev idArr5 (c : Dev nD) : Vec Ideal S30000x1 .i32 := V c (Pipeline.arrRef spec5 1)

/-- The two staged blocks at point `t`. -/
abbrev hblk5 (c : Dev nD) (t : Fin cfg5.N) : Vec Ideal S2000x600 .f32 := iblk5 V c 0 t
abbrev idblk5 (c : Dev nD) (t : Fin cfg5.N) : Vec Ideal S2000x1 .i32 := iblk5 V c 1 t

/-- The two input windows' block index at point `t` is `(t, 0)`. -/
theorem idx5 : ∀ t : Fin cfg5.N, win5_0.index t (0 : Fin 2) = t.val ∧ win5_0.index t (1 : Fin 2) = 0
    ∧ win5_1.index t (0 : Fin 2) = t.val ∧ win5_1.index t (1 : Fin 2) = 0 :=
  (by decide +kernel : ∀ t : Fin grid5.N, _)

theorem row_lt5 (t : Fin cfg5.N) (k : Fin 2000) : 2000 * t.val + k.val < 30000 := by
  have h1 : t.val < 15 := lt_of_lt_of_eq t.isLt N_5
  have h2 := k.isLt
  omega

/-- Row `k` of the feature block at point `t` is row `2000 t + k` of the features. -/
theorem hblk5_apply (c : Dev nD) (t : Fin cfg5.N) (k : Fin 2000) (d : Fin 600) :
    hblk5 V c t (ix2 k d) = hArr5 V c (ix2 ⟨2000 * t.val + k.val, row_lt5 t k⟩ d) := by
  obtain ⟨e0, e1, -, -⟩ := idx5 t
  unfold hblk5 iblk5
  rw [View.read_apply]
  show V c (Pipeline.arrRef spec5 0) (((cfg5.win 0).blk t).view.emb (ix2 k d)) = V c (Pipeline.arrRef spec5 0) _
  congr 1
  funext a
  apply Fin.ext
  match a with
  | ⟨0, _⟩ => show win5_0.index t (0 : Fin 2) * 2000 + 1 * k.val = 2000 * t.val + k.val; rw [e0]; omega
  | ⟨1, _⟩ => show win5_0.index t (1 : Fin 2) * 600 + 1 * d.val = d.val; rw [e1]; omega

/-- Row `k` of the id block at point `t` is row `2000 t + k` of the ids. -/
theorem idblk5_apply (c : Dev nD) (t : Fin cfg5.N) (k : Fin 2000) :
    idblk5 V c t (ix2 k 0) = idArr5 V c (ix2 ⟨2000 * t.val + k.val, row_lt5 t k⟩ 0) := by
  obtain ⟨-, -, e0, e1⟩ := idx5 t
  unfold idblk5 iblk5
  rw [View.read_apply]
  show V c (Pipeline.arrRef spec5 1) (((cfg5.win 1).blk t).view.emb (ix2 k 0)) = V c (Pipeline.arrRef spec5 1) _
  congr 1
  funext a
  apply Fin.ext
  match a with
  | ⟨0, _⟩ => show win5_1.index t (0 : Fin 2) * 2000 + 1 * k.val = 2000 * t.val + k.val; rw [e0]; omega
  | ⟨1, _⟩ => show win5_1.index t (1 : Fin 2) * 1 + 1 * 0 = 0; rw [e1]

/-- Node `r`'s contribution to entry `(g, d)`: its feature `d` if its id is the word `g`, else nothing (and nothing
    beyond the last node). -/
def term5 (c : Dev nD) (g : Fin 512) (d : Fin 600) (r : ℕ) : EReal :=
  if hr : r < 30000 then
    (if idArr5 V c (ix2 ⟨r, hr⟩ 0) = BitVec.ofNat 32 g.val then hArr5 V c (ix2 ⟨r, hr⟩ d) else 0)
  else 0

/-- One point's sum over its block's rows is the sum of the contributions of the nodes `2000 t … 2000 t + 1999`. -/
theorem point_sum5 (c : Dev nD) (t : Fin cfg5.N) (g : Fin 512) (d : Fin 600) :
    (∑ k : Fin 2000, (if idblk5 V c t (ix2 k 0) = BitVec.ofNat 32 g.val then hblk5 V c t (ix2 k d) else 0))
      = ∑ x ∈ Finset.range 2000, term5 V c g d (2000 * t.val + x) := by
  rw [Finset.sum_range]
  refine Finset.sum_congr rfl fun k _ => ?_
  unfold term5
  rw [dif_pos (row_lt5 t k), hblk5_apply, idblk5_apply]

/-- The zeros the first point stores read `0`. -/
theorem pay1_apply (i : S512x600.Idx) : k5_pay1 (F := Ideal) i = (0 : EReal) := by
  unfold k5_pay1
  rw [shapeCast_self]
  show Ideal.ofBits .f32 0x00000000#32 = 0
  exact Ideal.ofBits_zero_f32

/-- THE RUNNING SUM after point `n`, at `(g, d)`: the contributions of the nodes below `2000 (n + 1)`. -/
theorem acc5_apply (c : Dev nD) : ∀ (n : ℕ) (hn : n < cfg5.N) (g : Fin 512) (d : Fin 600),
    (acc5 V c n hn : Vec Ideal S512x600 .f32) (ix2 g d) = ∑ r ∈ Finset.range (2000 * (n + 1)), term5 V c g d r
  | 0, hn, g, d => by
    rw [acc5_zero]
    refine (pay2_apply (idblk5 V c ⟨0, hn⟩) (hblk5 V c ⟨0, hn⟩) (k5_pay1 (F := Ideal)) g d).trans ?_
    rw [pay1_apply, zero_add, point_sum5 V c ⟨0, hn⟩ g d]
    refine Finset.sum_congr rfl fun x _ => ?_
    show term5 V c g d (2000 * 0 + x) = _
    rw [Nat.mul_zero, Nat.zero_add]
  | n + 1, hn, g, d => by
    rw [acc5_succ]
    refine (pay2_apply (idblk5 V c ⟨n + 1, hn⟩) (hblk5 V c ⟨n + 1, hn⟩) (acc5 V c n (Nat.lt_of_succ_lt hn)) g d).trans ?_
    rw [acc5_apply c n (Nat.lt_of_succ_lt hn) g d, point_sum5 V c ⟨n + 1, hn⟩ g d,
      show 2000 * (n + 1 + 1) = 2000 * (n + 1) + 2000 from by omega, Finset.sum_range_add]

/-! ## The result array -/

/-- After the last point the running sum is the reference's pooling. -/
theorem acc5_last (c : Dev nD) (h14 : 14 < cfg5.N) : (acc5 V c 14 h14 : Vec Ideal S512x600 .f32) = poolArr5 V c := by
  funext i
  obtain ⟨g, d, rfl⟩ : ∃ (g : Fin 512) (d : Fin 600), i = ix2 g d := ⟨i 0, i 1, eq_ix2 i⟩
  rw [acc5_apply]
  unfold poolArr5
  refine Eq.trans ?_ (Cert.Hand.PoolRef5.pool_apply (V c (Pipeline.arrRef spec5 0)) (V c (Pipeline.arrRef spec5 1)) g d).symm
  rw [Finset.sum_range]
  refine Finset.sum_congr rfl fun r _ => ?_
  unfold term5
  rw [dif_pos r.isLt]

/-- The one write-back, at the last point, writes the reference's pooling: the output's one block is the whole array. -/
theorem flushed5_eq (c : Dev nD) (t : Fin cfg5.N) (hf : (cfg5.win 2).flush t = true) :
    (dat5 (F := Ideal) V c).flushed 2 t = ((cfg5.win 2).blk t).view.read (Elt Ideal) (poolArr5 V c) := by
  have hN : cfg5.N = 15 := N_5
  have h14 : t.val = 14 := by have := (flush5_2 t).mp hf; have := t.isLt; omega
  obtain rfl : t = t5_14 := Fin.ext h14
  show (cfg5.win 2).cut (grid5.coords t5_14) ((dat5 (F := Ideal) V c).after 2 t5_14) = _
  rw [after5_2]
  have hz' : (fun a => win5_2.index t5_14 a * main_v112.ty.shape.size a) = fun _ => 0 := funext fun a => by fin_cases a <;> decide
  refine Eq.trans ?_ (Memref.read_access_unit_zero (Elt Ideal) main_v112 hz' (fun a => by rw [congrFun hz' a]; simp) (poolArr5 V c)).symm
  exact acc5_last V c t5_14.isLt

/-- After the region the result array holds the reference's sum pooling of the input arrays. -/
theorem pool5_arr (c : Dev nD) : (dat5 (F := Ideal) V c).arrAt 2 cfg5.N = poolArr5 V c :=
  (dat5 (F := Ideal) V c).arrAt_eq_of_cover 2 (poolArr5 V c) (flushed5_eq V c) fun i =>
    ⟨t5_14, (flush5_2 t5_14).mpr rfl, by
      show i ∈ ((View.whole main_v112).slice (win5_2.rect t5_14)).set
      rw [View.set_slice_whole, Rect.mem_set_unit]
      intro a
      have h0 : (i 0 : Nat) < 512 := (i 0).isLt
      have h1 : (i 1 : Nat) < 600 := (i 1).isLt
      match a with
      | ⟨0, _⟩ => show win5_2.index t5_14 0 * win5_2.size 0 ≤ (i 0 : Nat) ∧ (i 0 : Nat) < win5_2.index t5_14 0 * win5_2.size 0 + win5_2.xsize (grid5.coords t5_14) 0
                  rw [show win5_2.index t5_14 0 * win5_2.size 0 = 0 from by decide +kernel, show win5_2.xsize (grid5.coords t5_14) 0 = 512 from by decide +kernel]; omega
      | ⟨1, _⟩ => show win5_2.index t5_14 1 * win5_2.size 1 ≤ (i 1 : Nat) ∧ (i 1 : Nat) < win5_2.index t5_14 1 * win5_2.size 1 + win5_2.xsize (grid5.coords t5_14) 1
                  rw [show win5_2.index t5_14 1 * win5_2.size 1 = 0 from by decide +kernel, show win5_2.xsize (grid5.coords t5_14) 1 = 600 from by decide +kernel]; omega⟩

end Cert.KernelIdeal.Hand

end
-- ==== Proof.KI.ValCls6.lean ====
/-
  What the classifier's region leaves in its result array, at the ideal instance (floats are extended reals): the
  reference's three-layer classifier `relu(relu(f·w1 + b1)·w2 + b2)·w3 + b3` of the region's seven input arrays as the
  region finds them.

  The grid has one point, whose blocks are the whole arrays; the body's payload is the three matrix products into zero
  accumulators with the bias rows broadcast over the 512 rows and two rectifiers between, which index by index is the
  reference's expression: a product into a zero accumulator and the host's `dot_general` are the same sum over the
  contracted axis, and the changes of float format are the identity.
-/
import proofs.«400628_j75076028334403_3_alg».proof.Proof.KI.Cls6
import proofs.«400628_j75076028334403_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx (ix1 ix2 eq_ix2)

/-! ## The payload's pieces against the reference's

Each of the kernel's three products is the host's `dot_general` of the unrounded operands: into a zero accumulator the
product is the bare sum over the contracted axis, which is what the host's product is, and a change of float format
does nothing to an extended real. A bias row cast to one row and broadcast down the rows is the host's two broadcasts
of it. The rectifier's splat of the scalar zero is the host's broadcast of the constant zero. -/

/-- A product of rounded operands into zeros is the host's product of the operands: 600 contracted, 256 columns. -/
private theorem prodA (x : FVec Ideal S512x600 .f32) (w : FVec Ideal S600x256 .f32) :
    matmul dot_S512x600_S600x256_S512x256_1_0_0_1_n_n none (truncf .bf16 x bitsLt_bf16_f32) (truncf .bf16 w bitsLt_bf16_f32)
        (constant (F := Ideal) S512x256 .f32 0x00000000#32)
      = Host.dotGeneral Cert.ReferenceIdeal.dot_S512x600_S600x256_S512x256_1_0_0_1_n_n none x w := by
  refine (matmul_zero_eq_dotGeneral _ none _ _).trans ?_
  funext j
  show FloatOps.dotGeneral _ none _ _ _ j = FloatOps.dotGeneral _ none _ _ _ j
  rw [Ideal.dotGeneral_apply, Ideal.dotGeneral_apply]
  rfl

/-- The same with 256 contracted and 256 columns. -/
private theorem prodB (x : FVec Ideal S512x256 .f32) (w : FVec Ideal S256x256 .f32) :
    matmul dot_S512x256_S256x256_S512x256_1_0_0_1_n_n none (truncf .bf16 x bitsLt_bf16_f32) (truncf .bf16 w bitsLt_bf16_f32)
        (constant (F := Ideal) S512x256 .f32 0x00000000#32)
      = Host.dotGeneral Cert.ReferenceIdeal.dot_S512x256_S256x256_S512x256_1_0_0_1_n_n none x w := by
  refine (matmul_zero_eq_dotGeneral _ none _ _).trans ?_
  funext j
  show FloatOps.dotGeneral _ none _ _ _ j = FloatOps.dotGeneral _ none _ _ _ j
  rw [Ideal.dotGeneral_apply, Ideal.dotGeneral_apply]
  rfl

/-- The same with 256 contracted and 128 columns. -/
private theorem prodC (x : FVec Ideal S512x256 .f32) (w : FVec Ideal S256x128 .f32) :
    matmul dot_S512x256_S256x128_S512x128_1_0_0_1_n_n none (truncf .bf16 x bitsLt_bf16_f32) (truncf .bf16 w bitsLt_bf16_f32)
        (constant (F := Ideal) S512x128 .f32 0x00000000#32)
      = Host.dotGeneral Cert.ReferenceIdeal.dot_S512x256_S256x128_S512x128_1_0_0_1_n_n none x w := by
  refine (matmul_zero_eq_dotGeneral _ none _ _).trans ?_
  funext j
  show FloatOps.dotGeneral _ none _ _ _ j = FloatOps.dotGeneral _ none _ _ _ j
  rw [Ideal.dotGeneral_apply, Ideal.dotGeneral_apply]
  rfl

/-- A vector of `n` entries laid along each of `m` rows: the kernel's broadcast of its one-row cast is the host's
    broadcast of it to one row and then down the rows; both read entry `j` of the vector at `(g, j)`. -/
private theorem biasRows {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd1 : (⟨1, ![n]⟩ : Shape).BroadcastsInDim ⟨2, ![1, n]⟩ ![1])
    (hd2 : (⟨2, ![1, n]⟩ : Shape).BroadcastsInDim ⟨2, ![m, n]⟩ ![0, 1]) :
    broadcastTo ⟨2, ![m, n]⟩ (shapeCast ⟨2, ![1, n]⟩ b h1) hb
      = broadcastInDim ⟨2, ![m, n]⟩ ![0, 1] hd2 (broadcastInDim ⟨2, ![1, n]⟩ ![1] hd1 b) := by
  funext i
  obtain ⟨g, j, rfl⟩ : ∃ (g : Fin m) (j : Fin n), i = ix2 g j := ⟨i 0, i 1, eq_ix2 i⟩
  have hj : j.val < n := j.isLt
  have e1 := broadcastTo_apply (shapeCast ⟨2, ![1, n]⟩ b h1) hb (ix2 g j) (ix2 (0 : Fin 1) j) (by
    intro a
    match a with
    | ⟨0, _⟩ => rfl
    | ⟨1, _⟩ =>
      show j.val = if n = 1 then 0 else j.val
      split
      · omega
      · rfl)
  have e2 := shapeCast_apply b h1 (ix2 (0 : Fin 1) j) (ix1 j) (by
    rw [Shape.rowMajor_val_two, Shape.rowMajor_val_one]; show j.val = 0 * n + j.val; omega)
  have e3 := broadcastInDim_oneRow_apply hd2 (broadcastInDim ⟨2, ![1, n]⟩ ![1] hd1 b) g j
  have e4 := broadcastInDim_apply ![1] hd1 b (ix2 (0 : Fin 1) j) (ix1 j) (by
    intro a
    match a with
    | ⟨0, _⟩ =>
      show j.val = if n = 1 then 0 else j.val
      split
      · omega
      · rfl)
  exact e1.trans (e2.trans (e3.trans e4).symm)

/-- The body's payload of seven whole arrays is the reference's classifier of them. -/
private theorem pay_eq_cls (x0 : Vec Ideal S512x600 .f32) (x1 : Vec Ideal S600x256 .f32) (x2 : Vec Ideal S256 .f32)
    (x3 : Vec Ideal S256x256 .f32) (x4 : Vec Ideal S256 .f32) (x5 : Vec Ideal S256x128 .f32) (x6 : Vec Ideal S128 .f32) :
    k6_pay1 x0 x1 x2 x3 x4 x5 x6 = Cert.ReferenceIdeal.RefValue.cls (F := Ideal) x0 x1 x2 x3 x4 x5 x6 := by
  unfold k6_pay1 Cert.ReferenceIdeal.RefValue.cls Cert.ReferenceIdeal.RefValue.relu256
  dsimp only
  rw [shapeCast_self, prodA, prodB, prodC,
    biasRows x2 shapeCasts_S256_S1x256 broadcasts_S1x256_S512x256 Cert.ReferenceIdeal.Gen.bcast_S256_S1x256_1
      Cert.ReferenceIdeal.Gen.bcast_S1x256_S512x256_0_1,
    biasRows x4 shapeCasts_S256_S1x256 broadcasts_S1x256_S512x256 Cert.ReferenceIdeal.Gen.bcast_S256_S1x256_1
      Cert.ReferenceIdeal.Gen.bcast_S1x256_S512x256_0_1,
    biasRows x6 shapeCasts_S128_S1x128 broadcasts_S1x128_S512x128 Cert.ReferenceIdeal.Gen.bcast_S128_S1x128_1
      Cert.ReferenceIdeal.Gen.bcast_S1x128_S512x128_0_1,
    broadcastInDim_constant]

variable (V : (c : Dev nD) → (b : Ref sig .tc) → Buf (Elt Ideal) ((c : Thread nD τ).loc b))

/-! ## From the one point's blocks to the arrays

Every window's block at the grid's one point starts at index zero on every axis and has the array's extents, so
reading an array through the block is reading the array. -/

private theorem hz2 : (![0, 0] : Fin 2 → Nat) = fun _ => 0 := funext fun a => by fin_cases a <;> rfl

/-- The printed index maps, decided over the one-point grid: every window's block index is zero on every axis. -/
private theorem idx_facts : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = 0 ∧ win6_3.index t (1 : Fin 2) = 0
    ∧ win6_4.index t (0 : Fin 1) = 0
    ∧ win6_5.index t (0 : Fin 2) = 0 ∧ win6_5.index t (1 : Fin 2) = 0
    ∧ win6_6.index t (0 : Fin 1) = 0
    ∧ win6_7.index t (0 : Fin 2) = 0 ∧ win6_7.index t (1 : Fin 2) = 0 :=
  (by decide +kernel : ∀ t : Fin grid6.N, _)

/-- Window 0's block is its array. -/
private theorem blk6_0 (c : Dev nD) (t : Fin cfg6.N) :
    (iblk6 V c 0 t : Vec Ideal S512x600 .f32) = V c (Pipeline.arrRef spec6 0) := by
  obtain ⟨e0, e1, -⟩ := idx_facts t
  funext y
  show V c (Pipeline.arrRef spec6 0) (((cfg6.win 0).blk t).view.emb y) = V c (Pipeline.arrRef spec6 0) y
  refine congrArg _ (funext fun a => Fin.ext ?_)
  match a with
  | ⟨0, _⟩ => show win6_0.index t (0 : Fin 2) * 512 + 1 * (y 0).val = (y 0).val; omega
  | ⟨1, _⟩ => show win6_0.index t (1 : Fin 2) * 600 + 1 * (y 1).val = (y 1).val; omega

/-- Window 1's block is its array. -/
private theorem blk6_1 (c : Dev nD) (t : Fin cfg6.N) :
    (iblk6 V c 1 t : Vec Ideal S600x256 .f32) = V c (Pipeline.arrRef spec6 1) := by
  obtain ⟨-, -, e0, e1, -⟩ := idx_facts t
  funext y
  show V c (Pipeline.arrRef spec6 1) (((cfg6.win 1).blk t).view.emb y) = V c (Pipeline.arrRef spec6 1) y
  refine congrArg _ (funext fun a => Fin.ext ?_)
  match a with
  | ⟨0, _⟩ => show win6_1.index t (0 : Fin 2) * 600 + 1 * (y 0).val = (y 0).val; omega
  | ⟨1, _⟩ => show win6_1.index t (1 : Fin 2) * 256 + 1 * (y 1).val = (y 1).val; omega

/-- Window 2's block is its array. -/
private theorem blk6_2 (c : Dev nD) (t : Fin cfg6.N) :
    (iblk6 V c 2 t : Vec Ideal S256 .f32) = V c (Pipeline.arrRef spec6 2) := by
  obtain ⟨-, -, -, -, e0, -⟩ := idx_facts t
  funext y
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 1) * 256 + 1 * (y 0).val = (y 0).val; omega

/-- Window 3's block is its array. -/
private theorem blk6_3 (c : Dev nD) (t : Fin cfg6.N) :
    (iblk6 V c 3 t : Vec Ideal S256x256 .f32) = V c (Pipeline.arrRef spec6 3) := by
  obtain ⟨-, -, -, -, -, e0, e1, -⟩ := idx_facts t
  funext y
  show V c (Pipeline.arrRef spec6 3) (((cfg6.win 3).blk t).view.emb y) = V c (Pipeline.arrRef spec6 3) y
  refine congrArg _ (funext fun a => Fin.ext ?_)
  match a with
  | ⟨0, _⟩ => show win6_3.index t (0 : Fin 2) * 256 + 1 * (y 0).val = (y 0).val; omega
  | ⟨1, _⟩ => show win6_3.index t (1 : Fin 2) * 256 + 1 * (y 1).val = (y 1).val; omega

/-- Window 4's block is its array. -/
private theorem blk6_4 (c : Dev nD) (t : Fin cfg6.N) :
    (iblk6 V c 4 t : Vec Ideal S256 .f32) = V c (Pipeline.arrRef spec6 4) := by
  obtain ⟨-, -, -, -, -, -, -, e0, -⟩ := idx_facts t
  funext y
  show V c (Pipeline.arrRef spec6 4) (((cfg6.win 4).blk t).view.emb y) = V c (Pipeline.arrRef spec6 4) y
  refine congrArg _ (funext fun a => Fin.ext ?_)
  match a with
  | ⟨0, _⟩ => show win6_4.index t (0 : Fin 1) * 256 + 1 * (y 0).val = (y 0).val; omega

/-- Window 5's block is its array. -/
private theorem blk6_5 (c : Dev nD) (t : Fin cfg6.N) :
    (iblk6 V c 5 t : Vec Ideal S256x128 .f32) = V c (Pipeline.arrRef spec6 5) := by
  obtain ⟨-, -, -, -, -, -, -, -, e0, e1, -⟩ := idx_facts t
  funext y
  show V c (Pipeline.arrRef spec6 5) (((cfg6.win 5).blk t).view.emb y) = V c (Pipeline.arrRef spec6 5) y
  refine congrArg _ (funext fun a => Fin.ext ?_)
  match a with
  | ⟨0, _⟩ => show win6_5.index t (0 : Fin 2) * 256 + 1 * (y 0).val = (y 0).val; omega
  | ⟨1, _⟩ => show win6_5.index t (1 : Fin 2) * 128 + 1 * (y 1).val = (y 1).val; omega

/-- Window 6's block is its array. -/
private theorem blk6_6 (c : Dev nD) (t : Fin cfg6.N) :
    (iblk6 V c 6 t : Vec Ideal S128 .f32) = V c (Pipeline.arrRef spec6 6) := by
  obtain ⟨-, -, -, -, -, -, -, -, -, -, e0, -⟩ := idx_facts t
  funext y
  show V c (Pipeline.arrRef spec6 6) (((cfg6.win 6).blk t).view.emb y) = V c (Pipeline.arrRef spec6 6) y
  refine congrArg _ (funext fun a => Fin.ext ?_)
  match a with
  | ⟨0, _⟩ => show win6_6.index t (0 : Fin 1) * 128 + 1 * (y 0).val = (y 0).val; omega

private theorem hz1 : (![0] : Fin 1 → Nat) = fun _ => 0 := funext fun a => by fin_cases a; rfl

/-- The result window's block is its array too: an array read through the block is the array. -/
private theorem read_blk6_7 (t : Fin cfg6.N) (G : FVec Ideal S512x128 .f32) :
    ((cfg6.win 7).blk t).view.read (Elt Ideal) G = (cfg6.win 7).cut (grid6.coords t) G := by
  obtain ⟨-, -, -, -, -, -, -, -, -, -, -, e0, e1⟩ := idx_facts t
  funext j
  show G (((cfg6.win 7).blk t).view.emb j) = G ((cfg6.win 7).xinj (grid6.coords t) j)
  refine congrArg G (funext fun a => Fin.ext ?_)
  match a with
  | ⟨0, _⟩ => show win6_7.index t (0 : Fin 2) * 512 + 1 * (j 0).val = (j 0).val; omega
  | ⟨1, _⟩ => show win6_7.index t (1 : Fin 2) * 128 + 1 * (j 1).val = (j 1).val; omega

/-- What the one point writes back is the block of the reference's classifier of the input arrays: the whole of it. -/
private theorem flushed6_7 (c : Dev nD) (t : Fin cfg6.N) :
    (dat6 (F := Ideal) V c).flushed 7 t
      = ((cfg6.win 7).blk t).view.read (Elt Ideal)
          (Cert.ReferenceIdeal.RefValue.cls (F := Ideal) (V c (Pipeline.arrRef spec6 0)) (V c (Pipeline.arrRef spec6 1))
            (V c (Pipeline.arrRef spec6 2)) (V c (Pipeline.arrRef spec6 3)) (V c (Pipeline.arrRef spec6 4))
            (V c (Pipeline.arrRef spec6 5)) (V c (Pipeline.arrRef spec6 6))) := by
  rw [read_blk6_7]
  show (cfg6.win 7).cut (grid6.coords t) ((dat6 V c).after 7 t) = _
  rw [after6_7]
  unfold out6_7
  rw [View.canon_unit_zero hz2]
  simp only [View.ld_unit_zero (S := S512x600) hz2, View.ld_unit_zero (S := S600x256) hz2,
    View.ld_unit_zero (S := S256x256) hz2, View.ld_unit_zero (S := S256x128) hz2,
    View.ld_unit_zero (S := S256) hz1, View.ld_unit_zero (S := S128) hz1]
  rw [pay_eq_cls, blk6_0, blk6_1, blk6_2, blk6_3, blk6_4, blk6_5, blk6_6]

/-- The one point's block of the result window is the whole array, and the point writes it back. -/
private theorem cover6 (i : S512x128.Idx) :
    ∃ t : Fin cfg6.N, (cfg6.win 7).flush t = true ∧ i ∈ ((cfg6.win 7).blk t).view.set := by
  refine ⟨t6_0, flush6_7 t6_0, ?_⟩
  obtain ⟨-, -, -, -, -, -, -, -, -, -, -, e0, e1⟩ := idx_facts t6_0
  show i ∈ ((View.whole main_v113).slice (win6_7.rect t6_0)).set
  rw [View.set_slice_whole, Rect.mem_set_unit]
  intro a
  match a with
  | ⟨0, _⟩ =>
    show win6_7.index t6_0 (0 : Fin 2) * 512 ≤ (i 0).val ∧ (i 0).val < win6_7.index t6_0 (0 : Fin 2) * 512 + 512
    have hi : (i 0).val < 512 := (i 0).isLt
    omega
  | ⟨1, _⟩ =>
    show win6_7.index t6_0 (1 : Fin 2) * 128 ≤ (i 1).val ∧ (i 1).val < win6_7.index t6_0 (1 : Fin 2) * 128 + 128
    have hi : (i 1).val < 128 := (i 1).isLt
    omega

/-- The reference's classifier of the region's seven input arrays. -/
def clsArr6 (c : Dev nD) : Buf (Elt Ideal) ((cfg6.win 7).arr.view.loc (c.tc : Thread nD τ)) :=
  Cert.ReferenceIdeal.RefValue.cls (F := Ideal) (V c (Pipeline.arrRef spec6 0)) (V c (Pipeline.arrRef spec6 1))
    (V c (Pipeline.arrRef spec6 2)) (V c (Pipeline.arrRef spec6 3)) (V c (Pipeline.arrRef spec6 4))
    (V c (Pipeline.arrRef spec6 5)) (V c (Pipeline.arrRef spec6 6))

/-- After the region the result array holds the reference's classifier of the input arrays. -/
theorem cls6_arr (c : Dev nD) : (dat6 (F := Ideal) V c).arrAt 7 cfg6.N = clsArr6 V c := by
  unfold clsArr6
  exact (dat6 V c).arrAt_eq_of_cover 7 _ (fun t _ => flushed6_7 V c t) cover6

end Cert.KernelIdeal.Hand

end
-- ==== Proof.KI.Walk.lean ====
/-
  The result of the kernel's program as ONE expression of the launch memory, at the ideal instance (floats are
  extended reals): the fold of the buffer contents through @main walked back from the result buffer.

  Each region's result array is the reference's stage function of the region's input arrays (the value lemmas of the
  seven regions); each input array is either an argument, which nothing writes, or the result of a stretch of host
  operations read off the contents before it: a row of the stacked weights, the two index rows of the edge list, and
  the neighbourhood sum in the kernel's spelling — the rows gathered at the (wrapped) source indices scatter-added
  INTO the features at the (wrapped) destination indices.
-/
import proofs.«400628_j75076028334403_3_alg».proof.Proof.KI.Keep
import proofs.«400628_j75076028334403_3_alg».proof.Proof.KI.ValMlp0
import proofs.«400628_j75076028334403_3_alg».proof.Proof.KI.ValMlp1
import proofs.«400628_j75076028334403_3_alg».proof.Proof.KI.ValMlp2
import proofs.«400628_j75076028334403_3_alg».proof.Proof.KI.ValMlp3
import proofs.«400628_j75076028334403_3_alg».proof.Proof.KI.ValMlp4
import proofs.«400628_j75076028334403_3_alg».proof.Proof.KI.ValPool5
import proofs.«400628_j75076028334403_3_alg».proof.Proof.KI.ValCls6
import Idealize.ShloMosaic.Lib.StableHlo.Run

set_option maxRecDepth 16384

noncomputable section

namespace Cert.KernelIdeal.Hand

open Cert.KernelIdeal
open Idealize.ShloMosaic Idealize.ShloMosaic.TcCoe Idealize.ShloMosaic.StableHlo
open Idealize.SL Idealize.SL.Sem
open Idealize.ShloMosaic.Pipeline (Dat)
open Cert.KernelIdeal.Gen (hostOps0 hostOps1 hostOps2 hostOps3 hostOps4 hostOps5 launch0 launch1 launch2 launch3 launch4 launch5 launch6)
open Cert.KernelIdeal.Facts₀ Cert.KernelIdeal.Facts

local notation "B" => Proc.devRef (τ := τ) (sig := sig) Proc.tc

/-! ## The host operations' terms -/

section Terms
variable {F : FTy → Type} [FloatOps F] [Cert.KernelIdeal.Facts]

/-- Row 0 of the edge list: the source of each edge. -/
def srcRow (ei : IVec S2x300000 32) : IVec S300000 32 :=
  shapeCast _ (extractStridedSlice S1x300000 ![0, 0] ei slices_S2x300000_S1x300000_0_0) shapeCasts_S1x300000_S300000
/-- Row 1 of the edge list: the destination of each edge. -/
def dstRow (ei : IVec S2x300000 32) : IVec S300000 32 :=
  shapeCast _ (extractStridedSlice S1x300000 ![1, 0] ei slices_S2x300000_S1x300000_1_0) shapeCasts_S1x300000_S300000

/-- The wrap-around of negative indices: `i < 0 ? i + 30000 : i`. -/
def wrapIdx (x : IVec S300000 32) : IVec S300000 32 :=
  select (cmpi .slt x (broadcastInDim S300000 ![] bcast_S_S300000 (constantI S_ 32 0#32)))
    (addi x (broadcastInDim S300000 ![] bcast_S_S300000 (constantI S_ 32 30000#32))) x

/-- An index row as the one-column index array a gather or scatter takes. -/
def idxCol (x : IVec S300000 32) : IVec S300000x1 32 := broadcastInDim S300000x1 ![0] bcast_S300000_S300000x1_0 x

/-- The kernel's neighbourhood sum on 600 features: the rows gathered at the wrapped sources, scatter-added into `h`
    at the wrapped destinations. -/
def kagg600 (h : FVec F S30000x600 .f32) (src dst : IVec S300000 32) : FVec F S30000x600 .f32 :=
  Host.scatterAdd scatter_S30000x600_S300000x1_S300000x600_1_0_0_1 h (idxCol (wrapIdx dst))
    (Host.gather gather_S30000x600_S300000x1_S300000x600_1_0_n_n_0_1_1600 h (idxCol (wrapIdx src)))

/-- The same on the 9 input features. -/
def kagg9 (h : FVec F S30000x9 .f32) (src dst : IVec S300000 32) : FVec F S30000x9 .f32 :=
  Host.scatterAdd scatter_S30000x9_S300000x1_S300000x9_1_0_0_1 h (idxCol (wrapIdx dst))
    (Host.gather gather_S30000x9_S300000x1_S300000x9_1_0_n_n_0_1_19 h (idxCol (wrapIdx src)))

/-- Matrix `i` of a stack of four 600×600 matrices, and row `i` of a stack of four 600-rows. -/
def mat0 (x : FVec F S4x600x600 .f32) : FVec F S600x600 .f32 :=
  shapeCast _ (extractStridedSlice S1x600x600 ![0, 0, 0] x slices_S4x600x600_S1x600x600_0_0_0) shapeCasts_S1x600x600_S600x600
def mat1 (x : FVec F S4x600x600 .f32) : FVec F S600x600 .f32 :=
  shapeCast _ (extractStridedSlice S1x600x600 ![1, 0, 0] x slices_S4x600x600_S1x600x600_1_0_0) shapeCasts_S1x600x600_S600x600
def mat2 (x : FVec F S4x600x600 .f32) : FVec F S600x600 .f32 :=
  shapeCast _ (extractStridedSlice S1x600x600 ![2, 0, 0] x slices_S4x600x600_S1x600x600_2_0_0) shapeCasts_S1x600x600_S600x600
def mat3 (x : FVec F S4x600x600 .f32) : FVec F S600x600 .f32 :=
  shapeCast _ (extractStridedSlice S1x600x600 ![3, 0, 0] x slices_S4x600x600_S1x600x600_3_0_0) shapeCasts_S1x600x600_S600x600
def row0 (x : FVec F S4x600 .f32) : FVec F S600 .f32 :=
  shapeCast _ (extractStridedSlice S1x600 ![0, 0] x slices_S4x600_S1x600_0_0) shapeCasts_S1x600_S600
def row1 (x : FVec F S4x600 .f32) : FVec F S600 .f32 :=
  shapeCast _ (extractStridedSlice S1x600 ![1, 0] x slices_S4x600_S1x600_1_0) shapeCasts_S1x600_S600
def row2 (x : FVec F S4x600 .f32) : FVec F S600 .f32 :=
  shapeCast _ (extractStridedSlice S1x600 ![2, 0] x slices_S4x600_S1x600_2_0) shapeCasts_S1x600_S600
def row3 (x : FVec F S4x600 .f32) : FVec F S600 .f32 :=
  shapeCast _ (extractStridedSlice S1x600 ![3, 0] x slices_S4x600_S1x600_3_0) shapeCasts_S1x600_S600

/-- The graph ids as a one-column array. -/
def idsCol (x : IVec S30000 32) : IVec S30000x1 32 := shapeCast _ x shapeCasts_S30000_S30000x1

end Terms

variable (m : (ℓ : Loc nD τ sig) → Buf (Elt Ideal) ℓ)

/-! ## What the host stretches write -/

variable [Cert.KernelIdeal.Facts]

/-- The edge list as launched. -/
abbrev ei (c : Dev nD) : IVec S2x300000 32 := m ((c : Thread nD τ).loc main_arg1)

set_option maxHeartbeats 4000000 in
theorem W1_v1 (c : Dev nD) : W1 m c (B main_v1) = srcRow (ei m c) := by
  show StableHlo.after hostOps0 (W0 m c) (B main_v1) = _
  after_results_simp <;> rfl
set_option maxHeartbeats 4000000 in
theorem W1_v3 (c : Dev nD) : W1 m c (B main_v3) = dstRow (ei m c) := by
  show StableHlo.after hostOps0 (W0 m c) (B main_v3) = _
  after_results_simp <;> rfl
set_option maxHeartbeats 4000000 in
theorem W1_v17 (c : Dev nD) : W1 m c (B main_v17)
    = kagg9 (F := Ideal) (m ((c : Thread nD τ).loc main_arg0)) (srcRow (ei m c)) (dstRow (ei m c)) := by
  show StableHlo.after hostOps0 (W0 m c) (B main_v17) = _
  after_results_simp <;> rfl

set_option maxHeartbeats 4000000 in
theorem W3_z (c : Dev nD) : W3 m c (B main_v40)
    = kagg600 (F := Ideal) (W2 m c (B main_v18)) (W2 m c (B main_v1)) (W2 m c (B main_v3)) := by
  show StableHlo.after hostOps1 (W2 m c) (B main_v40) = _
  after_results_simp <;> rfl
theorem W3_w1 (c : Dev nD) : W3 m c (B main_v20) = mat0 (F := Ideal) (W2 m c (B main_arg7)) := by
  show StableHlo.after hostOps1 (W2 m c) (B main_v20) = _
  after_results_simp <;> rfl
theorem W3_b1 (c : Dev nD) : W3 m c (B main_v22) = row0 (F := Ideal) (W2 m c (B main_arg8)) := by
  show StableHlo.after hostOps1 (W2 m c) (B main_v22) = _
  after_results_simp <;> rfl
theorem W3_w2 (c : Dev nD) : W3 m c (B main_v24) = mat0 (F := Ideal) (W2 m c (B main_arg9)) := by
  show StableHlo.after hostOps1 (W2 m c) (B main_v24) = _
  after_results_simp <;> rfl
theorem W3_b2 (c : Dev nD) : W3 m c (B main_v26) = row0 (F := Ideal) (W2 m c (B main_arg10)) := by
  show StableHlo.after hostOps1 (W2 m c) (B main_v26) = _
  after_results_simp <;> rfl

set_option maxHeartbeats 4000000 in
theorem W5_z (c : Dev nD) : W5 m c (B main_v63)
    = kagg600 (F := Ideal) (W4 m c (B main_v41)) (W4 m c (B main_v1)) (W4 m c (B main_v3)) := by
  show StableHlo.after hostOps2 (W4 m c) (B main_v63) = _
  after_results_simp <;> rfl
theorem W5_w1 (c : Dev nD) : W5 m c (B main_v43) = mat1 (F := Ideal) (W4 m c (B main_arg7)) := by
  show StableHlo.after hostOps2 (W4 m c) (B main_v43) = _
  after_results_simp <;> rfl
theorem W5_b1 (c : Dev nD) : W5 m c (B main_v45) = row1 (F := Ideal) (W4 m c (B main_arg8)) := by
  show StableHlo.after hostOps2 (W4 m c) (B main_v45) = _
  after_results_simp <;> rfl
theorem W5_w2 (c : Dev nD) : W5 m c (B main_v47) = mat1 (F := Ideal) (W4 m c (B main_arg9)) := by
  show StableHlo.after hostOps2 (W4 m c) (B main_v47) = _
  after_results_simp <;> rfl
theorem W5_b2 (c : Dev nD) : W5 m c (B main_v49) = row1 (F := Ideal) (W4 m c (B main_arg10)) := by
  show StableHlo.after hostOps2 (W4 m c) (B main_v49) = _
  after_results_simp <;> rfl

set_option maxHeartbeats 4000000 in
theorem W7_z (c : Dev nD) : W7 m c (B main_v86)
    = kagg600 (F := Ideal) (W6 m c (B main_v64)) (W6 m c (B main_v1)) (W6 m c (B main_v3)) := by
  show StableHlo.after hostOps3 (W6 m c) (B main_v86) = _
  after_results_simp <;> rfl
theorem W7_w1 (c : Dev nD) : W7 m c (B main_v66) = mat2 (F := Ideal) (W6 m c (B main_arg7)) := by
  show StableHlo.after hostOps3 (W6 m c) (B main_v66) = _
  after_results_simp <;> rfl
theorem W7_b1 (c : Dev nD) : W7 m c (B main_v68) = row2 (F := Ideal) (W6 m c (B main_arg8)) := by
  show StableHlo.after hostOps3 (W6 m c) (B main_v68) = _
  after_results_simp <;> rfl
theorem W7_w2 (c : Dev nD) : W7 m c (B main_v70) = mat2 (F := Ideal) (W6 m c (B main_arg9)) := by
  show StableHlo.after hostOps3 (W6 m c) (B main_v70) = _
  after_results_simp <;> rfl
theorem W7_b2 (c : Dev nD) : W7 m c (B main_v72) = row2 (F := Ideal) (W6 m c (B main_arg10)) := by
  show StableHlo.after hostOps3 (W6 m c) (B main_v72) = _
  after_results_simp <;> rfl

set_option maxHeartbeats 4000000 in
theorem W9_z (c : Dev nD) : W9 m c (B main_v109)
    = kagg600 (F := Ideal) (W8 m c (B main_v87)) (W8 m c (B main_v1)) (W8 m c (B main_v3)) := by
  show StableHlo.after hostOps4 (W8 m c) (B main_v109) = _
  after_results_simp <;> rfl
theorem W9_w1 (c : Dev nD) : W9 m c (B main_v89) = mat3 (F := Ideal) (W8 m c (B main_arg7)) := by
  show StableHlo.after hostOps4 (W8 m c) (B main_v89) = _
  after_results_simp <;> rfl
theorem W9_b1 (c : Dev nD) : W9 m c (B main_v91) = row3 (F := Ideal) (W8 m c (B main_arg8)) := by
  show StableHlo.after hostOps4 (W8 m c) (B main_v91) = _
  after_results_simp <;> rfl
theorem W9_w2 (c : Dev nD) : W9 m c (B main_v93) = mat3 (F := Ideal) (W8 m c (B main_arg9)) := by
  show StableHlo.after hostOps4 (W8 m c) (B main_v93) = _
  after_results_simp <;> rfl
theorem W9_b2 (c : Dev nD) : W9 m c (B main_v95) = row3 (F := Ideal) (W8 m c (B main_arg10)) := by
  show StableHlo.after hostOps4 (W8 m c) (B main_v95) = _
  after_results_simp <;> rfl

theorem W11_ids (c : Dev nD) : W11 m c (B main_v111) = idsCol (W10 m c (B main_arg2)) := by
  show StableHlo.after hostOps5 (W10 m c) (B main_v111) = _
  after_results_simp <;> rfl

/-! ## The layers, and the result -/

/-- The two index rows as launched. -/
abbrev src (c : Dev nD) : IVec S300000 32 := srcRow (ei m c)
abbrev dst (c : Dev nD) : IVec S300000 32 := dstRow (ei m c)

/-- The node features after GIN layer 0 … 4, in the kernel's spelling of the neighbourhood sum. -/
def kH0 (c : Dev nD) : FVec Ideal S30000x600 .f32 :=
  Cert.ReferenceIdeal.RefValue.mlp0 (F := Ideal) (kagg9 (F := Ideal) (m ((c : Thread nD τ).loc main_arg0)) (src m c) (dst m c)) (m ((c : Thread nD τ).loc main_arg3)) (m ((c : Thread nD τ).loc main_arg4)) (m ((c : Thread nD τ).loc main_arg5)) (m ((c : Thread nD τ).loc main_arg6))
def kH1 (c : Dev nD) : FVec Ideal S30000x600 .f32 :=
  Cert.ReferenceIdeal.RefValue.mlpR (F := Ideal) (kagg600 (F := Ideal) (kH0 m c) (src m c) (dst m c)) (mat0 (F := Ideal) (m ((c : Thread nD τ).loc main_arg7))) (row0 (F := Ideal) (m ((c : Thread nD τ).loc main_arg8))) (mat0 (F := Ideal) (m ((c : Thread nD τ).loc main_arg9))) (row0 (F := Ideal) (m ((c : Thread nD τ).loc main_arg10)))
def kH2 (c : Dev nD) : FVec Ideal S30000x600 .f32 :=
  Cert.ReferenceIdeal.RefValue.mlpR (F := Ideal) (kagg600 (F := Ideal) (kH1 m c) (src m c) (dst m c)) (mat1 (F := Ideal) (m ((c : Thread nD τ).loc main_arg7))) (row1 (F := Ideal) (m ((c : Thread nD τ).loc main_arg8))) (mat1 (F := Ideal) (m ((c : Thread nD τ).loc main_arg9))) (row1 (F := Ideal) (m ((c : Thread nD τ).loc main_arg10)))
def kH3 (c : Dev nD) : FVec Ideal S30000x600 .f32 :=
  Cert.ReferenceIdeal.RefValue.mlpR (F := Ideal) (kagg600 (F := Ideal) (kH2 m c) (src m c) (dst m c)) (mat2 (F := Ideal) (m ((c : Thread nD τ).loc main_arg7))) (row2 (F := Ideal) (m ((c : Thread nD τ).loc main_arg8))) (mat2 (F := Ideal) (m ((c : Thread nD τ).loc main_arg9))) (row2 (F := Ideal) (m ((c : Thread nD τ).loc main_arg10)))
def kH4 (c : Dev nD) : FVec Ideal S30000x600 .f32 :=
  Cert.ReferenceIdeal.RefValue.mlpN (F := Ideal) (kagg600 (F := Ideal) (kH3 m c) (src m c) (dst m c)) (mat3 (F := Ideal) (m ((c : Thread nD τ).loc main_arg7))) (row3 (F := Ideal) (m ((c : Thread nD τ).loc main_arg8))) (mat3 (F := Ideal) (m ((c : Thread nD τ).loc main_arg9))) (row3 (F := Ideal) (m ((c : Thread nD τ).loc main_arg10)))

/-- The pooled features, and the program's result. -/
def kPool (c : Dev nD) : FVec Ideal S512x600 .f32 := Cert.ReferenceIdeal.RefValue.pool (F := Ideal) (kH4 m c) (idsCol (m ((c : Thread nD τ).loc main_arg2)))
def kRes (c : Dev nD) : FVec Ideal S512x128 .f32 :=
  Cert.ReferenceIdeal.RefValue.cls (F := Ideal) (kPool m c) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

theorem W2_h (c : Dev nD) : W2 m c (B main_v18) = kH0 m c := by
  refine (W2_arr m c 5).trans ((mlp0_arr (Hand.V1 m) c).trans ?_)
  show Cert.ReferenceIdeal.RefValue.mlp0 (F := Ideal) (W1 m c (B main_v17)) (W1 m c (B main_arg3)) (W1 m c (B main_arg4)) (W1 m c (B main_arg5)) (W1 m c (B main_arg6)) = _
  rw [W1_v17, W1_args m c main_arg3 (by decide), W1_args m c main_arg4 (by decide), W1_args m c main_arg5 (by decide), W1_args m c main_arg6 (by decide)]
  rfl

theorem W4_h (c : Dev nD) : W4 m c (B main_v41) = kH1 m c := by
  refine (W4_arr m c 5).trans ((mlp1_arr (Hand.V3 m) c).trans ?_)
  show Cert.ReferenceIdeal.RefValue.mlpR (F := Ideal) (W3 m c (B main_v40)) (W3 m c (B main_v20)) (W3 m c (B main_v22)) (W3 m c (B main_v24)) (W3 m c (B main_v26)) = _
  rw [W3_z, W3_w1, W3_b1, W3_w2, W3_b2, W2_h, W2_idx m c main_v1 (by decide), W2_idx m c main_v3 (by decide), W1_v1, W1_v3,
    W2_args m c main_arg7 (by decide), W2_args m c main_arg8 (by decide), W2_args m c main_arg9 (by decide), W2_args m c main_arg10 (by decide)]
  rfl

theorem W6_h (c : Dev nD) : W6 m c (B main_v64) = kH2 m c := by
  refine (W6_arr m c 5).trans ((mlp2_arr (Hand.V5 m) c).trans ?_)
  show Cert.ReferenceIdeal.RefValue.mlpR (F := Ideal) (W5 m c (B main_v63)) (W5 m c (B main_v43)) (W5 m c (B main_v45)) (W5 m c (B main_v47)) (W5 m c (B main_v49)) = _
  rw [W5_z, W5_w1, W5_b1, W5_w2, W5_b2, W4_h, W4_idx m c main_v1 (by decide), W4_idx m c main_v3 (by decide), W1_v1, W1_v3,
    W4_args m c main_arg7 (by decide), W4_args m c main_arg8 (by decide), W4_args m c main_arg9 (by decide), W4_args m c main_arg10 (by decide)]
  rfl

theorem W8_h (c : Dev nD) : W8 m c (B main_v87) = kH3 m c := by
  refine (W8_arr m c 5).trans ((mlp3_arr (Hand.V7 m) c).trans ?_)
  show Cert.ReferenceIdeal.RefValue.mlpR (F := Ideal) (W7 m c (B main_v86)) (W7 m c (B main_v66)) (W7 m c (B main_v68)) (W7 m c (B main_v70)) (W7 m c (B main_v72)) = _
  rw [W7_z, W7_w1, W7_b1, W7_w2, W7_b2, W6_h, W6_idx m c main_v1 (by decide), W6_idx m c main_v3 (by decide), W1_v1, W1_v3,
    W6_args m c main_arg7 (by decide), W6_args m c main_arg8 (by decide), W6_args m c main_arg9 (by decide), W6_args m c main_arg10 (by decide)]
  rfl

theorem W10_h (c : Dev nD) : W10 m c (B main_v110) = kH4 m c := by
  refine (W10_arr m c 5).trans ((mlp4_arr (Hand.V9 m) c).trans ?_)
  show Cert.ReferenceIdeal.RefValue.mlpN (F := Ideal) (W9 m c (B main_v109)) (W9 m c (B main_v89)) (W9 m c (B main_v91)) (W9 m c (B main_v93)) (W9 m c (B main_v95)) = _
  rw [W9_z, W9_w1, W9_b1, W9_w2, W9_b2, W8_h, W8_idx m c main_v1 (by decide), W8_idx m c main_v3 (by decide), W1_v1, W1_v3,
    W8_args m c main_arg7 (by decide), W8_args m c main_arg8 (by decide), W8_args m c main_arg9 (by decide), W8_args m c main_arg10 (by decide)]
  rfl

theorem W12_f (c : Dev nD) : W12 m c (B main_v112) = kPool m c := by
  refine (W12_arr m c 2).trans ((pool5_arr (Hand.V11 m) c).trans ?_)
  show Cert.ReferenceIdeal.RefValue.pool (F := Ideal) (W11 m c (B main_v110)) (W11 m c (B main_v111)) = _
  rw [W11_of m c main_v110 (by decide), W10_h, W11_ids, W10_args m c main_arg2 (by decide)]
  rfl

/-- THE RESULT of the kernel's program, walked back to the launch memory. -/
theorem W13_res (c : Dev nD) : W13 m c (B main_v113) = kRes m c := by
  refine (W13_arr m c 7).trans ((cls6_arr (Hand.V12 m) c).trans ?_)
  show Cert.ReferenceIdeal.RefValue.cls (F := Ideal) (W12 m c (B main_v112)) (W12 m c (B main_arg11)) (W12 m c (B main_arg12)) (W12 m c (B main_arg13)) (W12 m c (B main_arg14)) (W12 m c (B main_arg15)) (W12 m c (B main_arg16)) = _
  rw [W12_f, W12_args m c main_arg11 (by decide), W12_args m c main_arg12 (by decide), W12_args m c main_arg13 (by decide), W12_args m c main_arg14 (by decide), W12_args m c main_arg15 (by decide), W12_args m c main_arg16 (by decide)]
  rfl

end Cert.KernelIdeal.Hand

end
-- ==== Proof.DstRange.lean ====
/-
  Two facts about the destination indices of the message passing.

  (1) The precondition's conjunct "every destination index is non-negative" read back from the printed predicate:
      the wrap-around `i < 0 ? i + 30000 : i` that the kernel's host code applies to the destination indices before
      its scatter is then the identity.
  (2) Over the extended reals, scattering updates additively INTO an array `h` is adding to `h` the result of
      scattering them into zeros: at each element both are `h i` plus the sum of the updates that land on `i`.
-/
import proofs.«400628_j75076028334403_3_alg».proof.Defs
import proofs.«400628_j75076028334403_3_alg».proof.Proof.Gen.KernelIdeal
import proofs.«400628_j75076028334403_3_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value
import Idealize.ShloMosaic.PureOps.Ideal.Laws

noncomputable section

namespace Cert.Hand

open Idealize.ShloMosaic Idealize.ShloMosaic.TcCoe Idealize.SL.Sem

/-! ## (2) Scatter-add into an array is the array plus scatter-add into zeros -/

/-- At the ideal instance: `h` with the updates added where they land is `h` plus (zeros with the updates added
    where they land). -/
theorem scatterAdd_eq_add_scatterAdd_zero {s si su : Shape} {w : Nat} (d : ScatterDims s si su)
    (h z : FVec Ideal s .f32) (idx : IVec si w) (u : FVec Ideal su .f32) (hz : ∀ i, z i = (0 : EReal)) :
    Host.scatterAdd (F := Ideal) d h idx u = addf (F := Ideal) h (Host.scatterAdd (F := Ideal) d z idx u) := by
  funext i
  show Ideal.hostScatterAdd d h idx u i = h i + Ideal.hostScatterAdd d z idx u i
  unfold Ideal.hostScatterAdd
  rw [hz i, zero_add]

/-- A broadcast of the scalar constant `+0.0` reads `0` everywhere. -/
theorem bcast_zero_apply {s : Shape} (hb : (⟨0, ![]⟩ : Shape).BroadcastsInDim s (![] : Fin 0 → Fin s.rank)) (i : s.Idx) :
    broadcastInDim s ![] hb (constant (F := Ideal) ⟨0, ![]⟩ .f32 0x00000000#32) i = (0 : EReal) := by
  show Ideal.ofBits .f32 0x00000000#32 = 0
  exact Ideal.ofBits_zero_f32

/-! ## (1) The destination indices are non-negative, so the wrap-around is the identity -/

section
open Cert.KernelIdeal Cert.KernelIdeal.Facts₀ Cert.KernelIdeal.Facts
variable [hK : Cert.KernelIdeal.Facts] [hP : Cert.Pre_finite_inputs.Facts]

/-- A signed word that is at least zero is not below zero. -/
private theorem slt_zero_of_sge_zero (x : BitVec 32) (h : IntOp.cmpi .sge x 0#32 = 1#1) :
    IntOp.cmpi .slt x 0#32 = 0#1 := by
  unfold IntOp.cmpi at h ⊢
  dsimp only at h ⊢
  have h1 : (0#32).sle x = true := (StableHlo.Predicate.ofBool_eq_one_iff _).1 h
  have h2 : x.slt 0#32 = false := by
    rw [BitVec.sle, decide_eq_true_eq] at h1
    rw [BitVec.slt, decide_eq_false_iff_not]
    omega
  rw [h2]; rfl

/-- The scalar shape has one index. -/
private instance subsingleton_scalar_idx : Subsingleton (⟨0, ![]⟩ : Shape).Idx := ⟨fun a b => funext fun d => d.elim0⟩

/-- A vector of words all of which pass "at least zero" (the reduction by `and` of the compares is one) is
    unchanged by "where below zero, add `k`". -/
private theorem select_eq_of_all_sge {n : Nat} (x : IVec ⟨1, ![n]⟩ 32) (k : BitVec 32)
    (hb : (⟨0, ![]⟩ : Shape).BroadcastsInDim ⟨1, ![n]⟩ (![] : Fin 0 → Fin 1))
    (hr : (⟨1, ![n]⟩ : Shape).ReducesTo [0] ⟨0, ![]⟩) (h0 : 0 < (⟨0, ![]⟩ : Shape).numel)
    (j : (⟨0, ![]⟩ : Shape).Idx)
    (hall : Host.reduce IntOp.andi (cmpi .sge x (broadcastInDim ⟨1, ![n]⟩ ![] hb (constantI ⟨0, ![]⟩ 32 0#32)))
      (constantI ⟨0, ![]⟩ 1 1#1) hr h0 j = 1#1) :
    select (cmpi .slt x (broadcastInDim ⟨1, ![n]⟩ ![] hb (constantI ⟨0, ![]⟩ 32 0#32)))
        (addi x (broadcastInDim ⟨1, ![n]⟩ ![] hb (constantI ⟨0, ![]⟩ 32 k))) x = x := by
  funext e
  have he : IntOp.cmpi .sge (x e) 0#32 = 1#1 := Host.reduce_andi_all _ _ hr h0 j hall e
  show Scalar.select (IntOp.cmpi .slt (x e) 0#32) _ (x e) = x e
  rw [slt_zero_of_sge_zero _ he]
  rfl

/-- Row 1 of the edge list, as a vector of 300000 words: the destination of each edge. -/
abbrev dstOf (ei : IVec S2x300000 32) : IVec S300000 32 :=
  shapeCast _ (extractStridedSlice S1x300000 ![1, 0] ei slices_S2x300000_S1x300000_1_0) shapeCasts_S1x300000_S300000

/-- Under the precondition the wrap-around of negative destination indices changes nothing: no destination index
    is negative. -/
theorem select_dst_eq (m : (ℓ : Loc nD τ sig) → Buf (Elt Ideal) ℓ) (hpre : Cert.Pre_KernelIdeal m) (c : Dev nD) :
    select (cmpi .slt (dstOf (m ((c.tc : Thread nD τ).loc main_arg1))) (broadcastInDim S300000 ![] bcast_S_S300000 (constantI S_ 32 0#32)))
        (addi (dstOf (m ((c.tc : Thread nD τ).loc main_arg1))) (broadcastInDim S300000 ![] bcast_S_S300000 (constantI S_ 32 30000#32)))
        (dstOf (m ((c.tc : Thread nD τ).loc main_arg1)))
      = dstOf (m ((c.tc : Thread nD τ).loc main_arg1)) := by
  have h := congrFun (hpre c) ValueIdx.ix0
  unfold Cert.Pre_finite_inputs.fn Cert.Pre_finite_inputs.fn_part1 Cert.Pre_finite_inputs.fn_part2
    Cert.Pre_finite_inputs.fn_part3 Cert.Pre_finite_inputs.fn_part4 at h
  exact select_eq_of_all_sge _ _ _ _ _ ValueIdx.ix0 (IntOp.andi_eq_one.1 h).2

end

end Cert.Hand

end
-- ==== Proof.Bridge.lean ====
/-
  The two programs compute one function. The reference's result, as the generated run states it, is its network
  stage by stage of the seventeen argument arrays; the kernel's result, walked back through @main, is the same stages
  with the neighbourhood sum spelled differently: the gathered rows scatter-added INTO the features at the wrapped
  destination indices, against the features PLUS the gathered rows scatter-added into zeros at the destination indices
  as given. Where no destination index is negative the wrap-around is the identity, and over the extended reals
  scattering into `h` is `h` plus scattering into zeros (at each element both are `h i` plus the sum of the rows that land
  on `i`: addition of extended reals is commutative and associative, so no finiteness is needed).
-/
import proofs.«400628_j75076028334403_3_alg».proof.Proof.KI.Walk
import proofs.«400628_j75076028334403_3_alg».proof.Proof.DstRange
import proofs.«400628_j75076028334403_3_alg».proof.Proof.Gen.ReferenceIdeal.Run

set_option maxRecDepth 16384

noncomputable section

/-! ## The reference's result as stages of the seventeen arrays -/

namespace Cert.ReferenceIdeal.RefValue

open Cert.ReferenceIdeal Cert.ReferenceIdeal.Gen Idealize.ShloMosaic Idealize.ShloMosaic.TcCoe Idealize.SL.Sem

/-- The source column the reference gathers at (row 0 of the edge list, negative indices wrapped) and the destination
    column it scatters at (row 1, as given). -/
def srcCol (a1 : IVec S2x300000 32) : IVec S300000x1 32 :=
  broadcastInDim S300000x1 ![0] bcast_S300000_S300000x1_0
    (select (cmpi .slt (shapeCast _ (extractStridedSlice S1x300000 ![0, 0] a1 slices_S2x300000_S1x300000_0_0) shapeCasts_S1x300000_S300000) (broadcastInDim S300000 ![] bcast_S_S300000 (constantI S_ 32 0#32)))
      (addi (shapeCast _ (extractStridedSlice S1x300000 ![0, 0] a1 slices_S2x300000_S1x300000_0_0) shapeCasts_S1x300000_S300000) (broadcastInDim S300000 ![] bcast_S_S300000 (constantI S_ 32 30000#32)))
      (shapeCast _ (extractStridedSlice S1x300000 ![0, 0] a1 slices_S2x300000_S1x300000_0_0) shapeCasts_S1x300000_S300000))
def dstCol (a1 : IVec S2x300000 32) : IVec S300000x1 32 :=
  broadcastInDim S300000x1 ![0] bcast_S300000_S300000x1_0
    (shapeCast _ (extractStridedSlice S1x300000 ![1, 0] a1 slices_S2x300000_S1x300000_1_0) shapeCasts_S1x300000_S300000)

def rmat0 (x : FVec Ideal S4x600x600 .f32) : FVec Ideal S600x600 .f32 :=
  shapeCast _ (extractStridedSlice S1x600x600 ![0, 0, 0] x slices_S4x600x600_S1x600x600_0_0_0) shapeCasts_S1x600x600_S600x600
def rrow0 (x : FVec Ideal S4x600 .f32) : FVec Ideal S600 .f32 :=
  shapeCast _ (extractStridedSlice S1x600 ![0, 0] x slices_S4x600_S1x600_0_0) shapeCasts_S1x600_S600
def rmat1 (x : FVec Ideal S4x600x600 .f32) : FVec Ideal S600x600 .f32 :=
  shapeCast _ (extractStridedSlice S1x600x600 ![1, 0, 0] x slices_S4x600x600_S1x600x600_1_0_0) shapeCasts_S1x600x600_S600x600
def rrow1 (x : FVec Ideal S4x600 .f32) : FVec Ideal S600 .f32 :=
  shapeCast _ (extractStridedSlice S1x600 ![1, 0] x slices_S4x600_S1x600_1_0) shapeCasts_S1x600_S600
def rmat2 (x : FVec Ideal S4x600x600 .f32) : FVec Ideal S600x600 .f32 :=
  shapeCast _ (extractStridedSlice S1x600x600 ![2, 0, 0] x slices_S4x600x600_S1x600x600_2_0_0) shapeCasts_S1x600x600_S600x600
def rrow2 (x : FVec Ideal S4x600 .f32) : FVec Ideal S600 .f32 :=
  shapeCast _ (extractStridedSlice S1x600 ![2, 0] x slices_S4x600_S1x600_2_0) shapeCasts_S1x600_S600
def rmat3 (x : FVec Ideal S4x600x600 .f32) : FVec Ideal S600x600 .f32 :=
  shapeCast _ (extractStridedSlice S1x600x600 ![3, 0, 0] x slices_S4x600x600_S1x600x600_3_0_0) shapeCasts_S1x600x600_S600x600
def rrow3 (x : FVec Ideal S4x600 .f32) : FVec Ideal S600 .f32 :=
  shapeCast _ (extractStridedSlice S1x600 ![3, 0] x slices_S4x600_S1x600_3_0) shapeCasts_S1x600_S600

/-- The node features after GIN layer 0 … 4. -/
def rH0 (a0 : FVec Ideal S30000x9 .f32) (a1 : IVec S2x300000 32) (a3 : FVec Ideal S9x600 .f32) (a4 : FVec Ideal S600 .f32) (a5 : FVec Ideal S600x600 .f32) (a6 : FVec Ideal S600 .f32) (a7 : FVec Ideal S4x600x600 .f32) (a8 : FVec Ideal S4x600 .f32) (a9 : FVec Ideal S4x600x600 .f32) (a10 : FVec Ideal S4x600 .f32) : FVec Ideal S30000x600 .f32 :=
  mlp0 (F := Ideal) (agg9 (F := Ideal) a0 (srcCol a1) (dstCol a1)) a3 a4 a5 a6
def rH1 (a0 : FVec Ideal S30000x9 .f32) (a1 : IVec S2x300000 32) (a3 : FVec Ideal S9x600 .f32) (a4 : FVec Ideal S600 .f32) (a5 : FVec Ideal S600x600 .f32) (a6 : FVec Ideal S600 .f32) (a7 : FVec Ideal S4x600x600 .f32) (a8 : FVec Ideal S4x600 .f32) (a9 : FVec Ideal S4x600x600 .f32) (a10 : FVec Ideal S4x600 .f32) : FVec Ideal S30000x600 .f32 :=
  mlpR (F := Ideal) (agg600 (F := Ideal) (rH0 a0 a1 a3 a4 a5 a6 a7 a8 a9 a10) (srcCol a1) (dstCol a1)) (rmat0 a7) (rrow0 a8) (rmat0 a9) (rrow0 a10)
def rH2 (a0 : FVec Ideal S30000x9 .f32) (a1 : IVec S2x300000 32) (a3 : FVec Ideal S9x600 .f32) (a4 : FVec Ideal S600 .f32) (a5 : FVec Ideal S600x600 .f32) (a6 : FVec Ideal S600 .f32) (a7 : FVec Ideal S4x600x600 .f32) (a8 : FVec Ideal S4x600 .f32) (a9 : FVec Ideal S4x600x600 .f32) (a10 : FVec Ideal S4x600 .f32) : FVec Ideal S30000x600 .f32 :=
  mlpR (F := Ideal) (agg600 (F := Ideal) (rH1 a0 a1 a3 a4 a5 a6 a7 a8 a9 a10) (srcCol a1) (dstCol a1)) (rmat1 a7) (rrow1 a8) (rmat1 a9) (rrow1 a10)
def rH3 (a0 : FVec Ideal S30000x9 .f32) (a1 : IVec S2x300000 32) (a3 : FVec Ideal S9x600 .f32) (a4 : FVec Ideal S600 .f32) (a5 : FVec Ideal S600x600 .f32) (a6 : FVec Ideal S600 .f32) (a7 : FVec Ideal S4x600x600 .f32) (a8 : FVec Ideal S4x600 .f32) (a9 : FVec Ideal S4x600x600 .f32) (a10 : FVec Ideal S4x600 .f32) : FVec Ideal S30000x600 .f32 :=
  mlpR (F := Ideal) (agg600 (F := Ideal) (rH2 a0 a1 a3 a4 a5 a6 a7 a8 a9 a10) (srcCol a1) (dstCol a1)) (rmat2 a7) (rrow2 a8) (rmat2 a9) (rrow2 a10)
def rH4 (a0 : FVec Ideal S30000x9 .f32) (a1 : IVec S2x300000 32) (a3 : FVec Ideal S9x600 .f32) (a4 : FVec Ideal S600 .f32) (a5 : FVec Ideal S600x600 .f32) (a6 : FVec Ideal S600 .f32) (a7 : FVec Ideal S4x600x600 .f32) (a8 : FVec Ideal S4x600 .f32) (a9 : FVec Ideal S4x600x600 .f32) (a10 : FVec Ideal S4x600 .f32) : FVec Ideal S30000x600 .f32 :=
  mlpN (F := Ideal) (agg600 (F := Ideal) (rH3 a0 a1 a3 a4 a5 a6 a7 a8 a9 a10) (srcCol a1) (dstCol a1)) (rmat3 a7) (rrow3 a8) (rmat3 a9) (rrow3 a10)

/-- The reference network of the seventeen arrays. -/
def rForm (a0 : FVec Ideal S30000x9 .f32) (a1 : IVec S2x300000 32) (a2 : IVec S30000 32) (a3 : FVec Ideal S9x600 .f32) (a4 : FVec Ideal S600 .f32) (a5 : FVec Ideal S600x600 .f32) (a6 : FVec Ideal S600 .f32) (a7 : FVec Ideal S4x600x600 .f32) (a8 : FVec Ideal S4x600 .f32) (a9 : FVec Ideal S4x600x600 .f32) (a10 : FVec Ideal S4x600 .f32) (a11 : FVec Ideal S600x256 .f32) (a12 : FVec Ideal S256 .f32) (a13 : FVec Ideal S256x256 .f32) (a14 : FVec Ideal S256 .f32) (a15 : FVec Ideal S256x128 .f32) (a16 : FVec Ideal S128 .f32) : FVec Ideal S512x128 .f32 :=
  cls (F := Ideal) (pool (F := Ideal) (rH4 a0 a1 a3 a4 a5 a6 a7 a8 a9 a10) (broadcastInDim S30000x1 ![0] bcast_S30000_S30000x1_0 a2)) a11 a12 a13 a14 a15 a16

set_option maxHeartbeats 4000000 in
/-- The generated run's term is that network of the argument arrays: the same operations, folded into stages. -/
theorem res_eq (m : (ℓ : Loc nD τ sig) → Buf (Elt Ideal) ℓ) (c : Dev nD) :
    Cert.ReferenceIdeal.Value.res_main_v172 (F := Ideal) m c = rForm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold Cert.ReferenceIdeal.Value.res_main_v172
  rfl

end Cert.ReferenceIdeal.RefValue

/-! ## The kernel's expression is the reference's -/

namespace Cert.KernelIdeal.Hand

open Cert.KernelIdeal
open Idealize.ShloMosaic Idealize.ShloMosaic.TcCoe
open Idealize.SL Idealize.SL.Sem
open Cert.KernelIdeal.Facts₀ Cert.KernelIdeal.Facts

variable [Cert.KernelIdeal.Facts]

/-- Where the wrap-around leaves the destination row alone, the kernel's neighbourhood sum is the reference's. -/
theorem kagg600_eq (h : FVec Ideal S30000x600 .f32) (a1 : IVec S2x300000 32) (hd : wrapIdx (dstRow a1) = dstRow a1) :
    kagg600 (F := Ideal) h (srcRow a1) (dstRow a1)
      = Cert.ReferenceIdeal.RefValue.agg600 (F := Ideal) h (Cert.ReferenceIdeal.RefValue.srcCol a1) (Cert.ReferenceIdeal.RefValue.dstCol a1) := by
  unfold kagg600
  rw [hd]
  refine (Cert.Hand.scatterAdd_eq_add_scatterAdd_zero _ h (Cert.ReferenceIdeal.RefValue.zeros600 (F := Ideal)) _ _
    (fun i => Cert.Hand.bcast_zero_apply _ i)).trans ?_
  rfl

theorem kagg9_eq (h : FVec Ideal S30000x9 .f32) (a1 : IVec S2x300000 32) (hd : wrapIdx (dstRow a1) = dstRow a1) :
    kagg9 (F := Ideal) h (srcRow a1) (dstRow a1)
      = Cert.ReferenceIdeal.RefValue.agg9 (F := Ideal) h (Cert.ReferenceIdeal.RefValue.srcCol a1) (Cert.ReferenceIdeal.RefValue.dstCol a1) := by
  unfold kagg9
  rw [hd]
  refine (Cert.Hand.scatterAdd_eq_add_scatterAdd_zero _ h
    (broadcastInDim Cert.ReferenceIdeal.S30000x9 ![] Cert.ReferenceIdeal.Gen.bcast_S_S30000x9 (constant (F := Ideal) Cert.ReferenceIdeal.S_ .f32 0x00000000#32)) _ _
    (fun i => Cert.Hand.bcast_zero_apply Cert.ReferenceIdeal.Gen.bcast_S_S30000x9 i)).trans ?_
  rfl

/-- The graph ids reshaped to a column are the graph ids broadcast to a column. -/
theorem idsCol_eq (x : IVec S30000 32) :
    idsCol x = broadcastInDim Cert.ReferenceIdeal.S30000x1 ![0] Cert.ReferenceIdeal.Gen.bcast_S30000_S30000x1_0 x := by
  funext i
  have hL : idsCol x i = x (fun a => match a with | ⟨0, _⟩ => ⟨(i 0).val, (i 0).isLt⟩) := by
    unfold idsCol
    exact shapeCast_apply x shapeCasts_S30000_S30000x1 i _
      (by rewrite [Shape.rowMajor_val_one, Shape.rowMajor_val_two]; have h1 : (i 1).val < 1 := (i 1).isLt
          show (i 0).val = (i 0).val * 1 + (i 1).val; omega)
  have hR : broadcastInDim Cert.ReferenceIdeal.S30000x1 ![0] Cert.ReferenceIdeal.Gen.bcast_S30000_S30000x1_0 x i
      = x (fun a => match a with | ⟨0, _⟩ => ⟨(i 0).val, (i 0).isLt⟩) :=
    broadcastInDim_apply _ Cert.ReferenceIdeal.Gen.bcast_S30000_S30000x1_0 x i _ (fun a => match a with
      | ⟨0, _⟩ => by show (i 0).val = if (30000 : Nat) = 1 then 0 else (i 0).val; rw [if_neg (by decide)])
  exact hL.trans hR.symm

variable (m : (ℓ : Loc nD τ sig) → Buf (Elt Ideal) ℓ)

/-- THE BRIDGE: under the precondition the kernel's walked-back result is the reference network of the kernel's own
    argument arrays. -/
theorem kRes_eq (hpre : Cert.Pre_KernelIdeal (hPre_finite_inputs := Cert.Pre_finite_inputs.Gen.facts) m) (c : Dev nD) :
    kRes m c = Cert.ReferenceIdeal.RefValue.rForm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  have hd : wrapIdx (dstRow (ei m c)) = dstRow (ei m c) := Cert.Hand.select_dst_eq (hP := Cert.Pre_finite_inputs.Gen.facts) m hpre c
  unfold kRes kPool kH4 kH3 kH2 kH1 kH0
  unfold Cert.ReferenceIdeal.RefValue.rForm Cert.ReferenceIdeal.RefValue.rH4 Cert.ReferenceIdeal.RefValue.rH3
    Cert.ReferenceIdeal.RefValue.rH2 Cert.ReferenceIdeal.RefValue.rH1 Cert.ReferenceIdeal.RefValue.rH0
  simp only [src, dst, kagg600_eq _ _ hd, kagg9_eq _ _ hd, idsCol_eq]
  rfl

end Cert.KernelIdeal.Hand

end
-- ==== Proof.lean ====
/-
  A five-layer GIN network on a graph of 30000 nodes and 300000 edges, sum-pooled into 512 graphs and classified:
  the kernel's program (seven kernel regions — five two-layer perceptrons over blocks of 1000 rows, a sum pooling by a
  one-hot matrix product accumulated over fifteen blocks, a three-layer classifier — among host gathers and
  scatter-adds) against the plain reference, over the extended reals.

  Precondition: every float input is finite and every destination index of the edge list is non-negative (where one
  is negative the reference's segment sum drops the edge while the kernel's indexed add wraps it around, so the two
  differ there). Only the second conjunct is used: the changes of float format are the identity at the ideal instance,
  a matrix product into a zero accumulator is the host's product, the blocks tile the arrays, and the one-hot product
  is the segment sum, all by commutativity and associativity of the extended reals' sum and by `0 · x = 0`, `1 · x = x`.

  The frames of the two kernel programs are the run of their seven regions (each body steps through its loads and its
  one or two stores; the pooling region carries its running sum in a scratch buffer through the region's invariant);
  the reference's frame is its generated run. The idealization rewrote nothing, so `preserves` is trivial.
-/
import proofs.«400628_j75076028334403_3_alg».proof.Defs
import proofs.«400628_j75076028334403_3_alg».proof.Proof.Gen.Kernel
import proofs.«400628_j75076028334403_3_alg».proof.Proof.Gen.KernelIdeal
import proofs.«400628_j75076028334403_3_alg».proof.Proof.Gen.ReferenceIdeal
import proofs.«400628_j75076028334403_3_alg».proof.Proof.Gen.ReferenceIdeal.Run
import proofs.«400628_j75076028334403_3_alg».proof.Proof.Gen.Pre_finite_inputs
import proofs.«400628_j75076028334403_3_alg».proof.Proof.K.Run
import proofs.«400628_j75076028334403_3_alg».proof.Proof.KI.Run
import proofs.«400628_j75076028334403_3_alg».proof.Proof.Bridge

noncomputable section

namespace Cert.Proof

open Idealize.ShloMosaic Idealize.SL.Sem

/-- The kernel's program as printed runs and leaves its arguments unchanged. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run (F := Bits) m ρ)

/-- So does its idealization. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run (F := Ideal) m ρ)

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end at the reference network of the kernel's
    argument arrays: the kernel's run ends at the fold's last contents, walked back to that network under the
    precondition; the reference's run ends at its composed term, which is that network of its own arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.kRes m c, ?_, ?_⟩
  · exact (θ_run Cert.KernelIdeal.defs _ _).mono
      (fun _ h c => ⟨(h c).1.trans (Cert.KernelIdeal.Hand.W13_res m c), (h c).2⟩) (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    refine (Cert.ReferenceIdeal.RefValue.res_eq m' c).trans ?_
    rw [h0, h1, h2, h3, h4, h5, h6, h7, h8, h9, h10, h11, h12, h13, h14, h15, h16]
    exact (Cert.KernelIdeal.Hand.kRes_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
